-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x20000x1024 : Shape := ⟨3, ![4, 20000, 1024]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S128x1 : Shape := ⟨2, ![128, 1]⟩
abbrev S1 : Shape := ⟨1, ![1]⟩
abbrev S512x2 : Shape := ⟨2, ![512, 2]⟩
abbrev S2 : Shape := ⟨1, ![2]⟩
abbrev S_ : Shape := ⟨0, ![]⟩

class Facts : Prop where
  bcast_S_S4x20000x1024 : S_.BroadcastsInDim S4x20000x1024 (![] : Fin 0 → Fin S4x20000x1024.rank)
  reducesTo_S4x20000x1024_S_d0_1_2 : S4x20000x1024.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg7 : FVec F S128x1 .f32) (main_arg8 : FVec F S1 .f32) (main_arg9 : FVec F S512x2 .f32) (main_arg10 : FVec F S2 .f32) (main_v33 : IVec S_ 1) : IVec S_ 1 :=
  let main_v34 : FVec F S128x1 .f32 := Host.absf main_arg7
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S512x2 .f32 := Host.absf main_arg9
  let main_cst_16 : FVec F S_ .f32 := constant S_ .f32 0x7F800000#32
  let main_v45 : FVec F S512x2 .f32 := broadcastInDim S512x2 ![] bcast_S_S512x2 main_cst_16
  let main_v46 : IVec S512x2 1 := cmpf .olt main_v44 main_v45
  let main_c_17 : IVec S_ 1 := constantI S_ 1 1#1
  let main_v47 : IVec S_ 1 := (fun x v => Host.reduce IntOp.andi x v reducesTo_S512x2_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg4 : FVec F S128 .f32) (main_arg5 : FVec F S512x128 .f32) (main_arg6 : FVec F S128 .f32) (main_arg7 : FVec F S128x1 .f32) (main_arg8 : FVec F S1 .f32) (main_arg9 : FVec F S512x2 .f32) (main_arg10 : FVec F S2 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S512x128 .f32 := Host.absf main_arg5
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x20000x1024 .f32) (main_arg1 : FVec F S1024x512 .f32) (main_arg2 : FVec F S512 .f32) (main_arg3 : FVec F S512x128 .f32) (main_arg4 : FVec F S128 .f32) (main_arg5 : FVec F S512x128 .f32) (main_arg6 : FVec F S128 .f32) (main_arg7 : FVec F S128x1 .f32) (main_arg8 : FVec F S1 .f32) (main_arg9 : FVec F S512x2 .f32) (main_arg10 : FVec F S2 .f32) : IVec S_ 1 :=
  let main_v0 : FVec F S4x20000x1024 .f32 := Host.absf main_arg0
  let main_cst : FVec F S_ .f32 := constant S_ .f32 0x7F800000#32
  let main_v1 : FVec F S4x20000x1024 .f32 := broadcastInDim S4x20000x1024 ![] bcast_S_S4x20000x1024 main_cst
  let main_v2 : IVec S4x20000x1024 1 := cmpf .olt main_v0 main_v1
  let main_c : IVec S_ 1 := constantI S_ 1 1#1
  let main_v3 : IVec S_ 1 := (fun x v => Host.reduce IntOp.andi x v reducesTo_S4x20000x1024_S_d0_1_2 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_arg7 main_arg8 main_arg9 main_arg10 main_v13 main_v16
-- ==== Kernel.lean ====
abbrev S4x20000x1024 : Shape := ⟨3, ![4, 20000, 1024]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S128x1 : Shape := ⟨2, ![128, 1]⟩
abbrev S1 : Shape := ⟨1, ![1]⟩
abbrev S512x2 : Shape := ⟨2, ![512, 2]⟩
abbrev S2 : Shape := ⟨1, ![2]⟩
abbrev S2x2x512 : Shape := ⟨3, ![2, 2, 512]⟩
abbrev S2x1000x1024 : Shape := ⟨3, ![2, 1000, 1024]⟩
abbrev S1x2x512 : Shape := ⟨3, ![1, 2, 512]⟩
abbrev S2x1 : Shape := ⟨2, ![2, 1]⟩
abbrev S2x1x512 : Shape := ⟨3, ![2, 1, 512]⟩
abbrev S2000x1024 : Shape := ⟨2, ![2000, 1024]⟩
abbrev S2000x512 : Shape := ⟨2, ![2000, 512]⟩
abbrev S1x512 : Shape := ⟨2, ![1, 512]⟩
abbrev S2000x128 : Shape := ⟨2, ![2000, 128]⟩
abbrev S1x128 : Shape := ⟨2, ![1, 128]⟩
abbrev S2000x1 : Shape := ⟨2, ![2000, 1]⟩
abbrev S1x1 : Shape := ⟨2, ![1, 1]⟩
abbrev S2x1000x1 : Shape := ⟨3, ![2, 1000, 1]⟩
abbrev S2x1000 : Shape := ⟨2, ![2, 1000]⟩
abbrev S2x1000x512 : Shape := ⟨3, ![2, 1000, 512]⟩
abbrev S2x1x1000 : Shape := ⟨3, ![2, 1, 1000]⟩
abbrev S2x1x1 : Shape := ⟨3, ![2, 1, 1]⟩
abbrev S2x512 : Shape := ⟨2, ![2, 512]⟩
abbrev S4x512 : Shape := ⟨2, ![4, 512]⟩
abbrev S4x2 : Shape := ⟨2, ![4, 2]⟩
abbrev S1x2 : Shape := ⟨2, ![1, 2]⟩

abbrev nBuf : Space → Nat
  | .hbm => 21
  | .vmem => 15
  | .smem => 0
  | _ => 0

abbrev bufTy : (tb : Table) → Fin (tcTables nBuf tb) → BufTy
  | .hbm, ⟨0, _⟩ => ⟨S4x20000x1024, .f32⟩
  | .hbm, ⟨1, _⟩ => ⟨S1024x512, .f32⟩
  | .hbm, ⟨2, _⟩ => ⟨S512, .f32⟩
  | .hbm, ⟨3, _⟩ => ⟨S512x128, .f32⟩
  | .hbm, ⟨4, _⟩ => ⟨S128, .f32⟩
  | .hbm, ⟨5, _⟩ => ⟨S512x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S512x2, .f32⟩
  | .hbm, ⟨10, _⟩ => ⟨S2, .f32⟩
  | .hbm, ⟨11, _⟩ => ⟨S1024x512, .bf16⟩
  | .hbm, ⟨12, _⟩ => ⟨S512x128, .bf16⟩
  | .hbm, ⟨13, _⟩ => ⟨S512x128, .bf16⟩
  | .hbm, ⟨14, _⟩ => ⟨S128x1, .bf16⟩
  | .hbm, ⟨15, _⟩ => ⟨S2x2x512, .f32⟩
  | .hbm, ⟨16, _⟩ => ⟨S4x512, .f32⟩
  | .hbm, ⟨17, _⟩ => ⟨S4x2, .f32⟩
  | .hbm, ⟨18, _⟩ => ⟨S1x2, .f32⟩
  | .hbm, ⟨19, _⟩ => ⟨S4x2, .f32⟩
  | .hbm, ⟨20, _⟩ => ⟨S4x2, .f32⟩
  | .local _ .vmem, ⟨0, _⟩ => ⟨S2x1000x1024, .f32⟩
  | .local _ .vmem, ⟨1, _⟩ => ⟨S2x1000x1024, .f32⟩
  | .local _ .vmem, ⟨2, _⟩ => ⟨S1024x512, .bf16⟩
  | .local _ .vmem, ⟨3, _⟩ => ⟨S512, .f32⟩
  | .local _ .vmem, ⟨4, _⟩ => ⟨S512x128, .bf16⟩
  | .local _ .vmem, ⟨5, _⟩ => ⟨S128, .f32⟩
  | .local _ .vmem, ⟨6, _⟩ => ⟨S512x128, .bf16⟩
  | .local _ .vmem, ⟨7, _⟩ => ⟨S128, .f32⟩
  | .local _ .vmem, ⟨8, _⟩ => ⟨S128x1, .bf16⟩
  | .local _ .vmem, ⟨9, _⟩ => ⟨S1, .f32⟩
  | .local _ .vmem, ⟨10, _⟩ => ⟨S1x2x512, .f32⟩
  | .local _ .vmem, ⟨11, _⟩ => ⟨S1x2x512, .f32⟩
  | .local _ .vmem, ⟨12, _⟩ => ⟨S2x1, .f32⟩
  | .local _ .vmem, ⟨13, _⟩ => ⟨S2x1, .f32⟩
  | .local _ .vmem, ⟨14, _⟩ => ⟨S2x1x512, .f32⟩
  | _, _ => ⟨S4x20000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![2, 20], ![false, false]⟩

def k0_cond2 (i : grid0.Coords) : BitVec 1 :=
  let arg1 : BitVec 32 := BitVec.ofNat 32 (i 1).val
  let c19_i32 : BitVec 32 := 19#32
  let v73 : BitVec 1 := Scalar.cmpi .eq arg1 c19_i32
  let v74 : BitVec 32 := Scalar.extui v73
  let c0_i32_35 : BitVec 32 := 0#32
  let v75 : BitVec 1 := Scalar.cmpi .ne v74 c0_i32_35
  v75

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  bitsLt_bf16_f32 : FTy.bits .bf16 < FTy.bits .f32
  inb_S2x1_S2x1_0_0 : ∀ a, (![0, 0] : Fin 2 → Nat) a + S2x1.size a ≤ S2x1.size a
  h_S2x1 : 0 < S2x1.numel
  shapeCasts_S2x1_S2x1 : S2x1.ShapeCasts S2x1
  inb_S2x1x512_S2x1x512_0_0_0 : ∀ a, (![0, 0, 0] : Fin 3 → Nat) a + S2x1x512.size a ≤ S2x1x512.size a
  h_S2x1x512 : 0 < S2x1x512.numel
  shapeCasts_S2x1x512_S2x1x512 : S2x1x512.ShapeCasts S2x1x512
  inb_S2x1000x1024_S2x1000x1024_0_0_0 : ∀ a, (![0, 0, 0] : Fin 3 → Nat) a + S2x1000x1024.size a ≤ S2x1000x1024.size a
  h_S2x1000x1024 : 0 < S2x1000x1024.numel
  shapeCasts_S2x1000x1024_S2000x1024 : S2x1000x1024.ShapeCasts S2000x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  shapeCasts_S2000x1_S2x1000x1 : S2000x1.ShapeCasts S2x1000x1
  shapeCasts_S2x1000x1_S2x1000 : S2x1000x1.ShapeCasts S2x1000
  shapeCasts_S2000x512_S2x1000x512 : S2000x512.ShapeCasts S2x1000x512
  reduces_S2x1000_S2 : S2x1000.Reduces [1] S2
  shapeCasts_S2_S2x1 : S2.ShapeCasts S2x1
  broadcasts_S2x1_S2x1000 : S2x1.Broadcasts S2x1000
  shapeCasts_S2x1000_S2x1x1000 : S2x1000.ShapeCasts S2x1x1000
  shapeCasts_S2x1_S2x1x1 : S2x1.ShapeCasts S2x1x1
  broadcasts_S2x1x1_S2x1x512 : S2x1x1.Broadcasts S2x1x512
  shapeCasts_S2x1x512_S2x512 : S2x1x512.ShapeCasts S2x512
  inb_S1x2x512_S1x2x512_0_0_0 : ∀ a, (![0, 0, 0] : Fin 3 → Nat) a + S1x2x512.size a ≤ S1x2x512.size a
  h_S1x2x512 : 0 < S1x2x512.numel
  shapeCasts_S1x2x512_S2x512 : S1x2x512.ShapeCasts S2x512
  shapeCasts_S2x512_S1x2x512 : S2x512.ShapeCasts S1x2x512
  shapeCasts_S2x2x512_S4x512 : S2x2x512.ShapeCasts S4x512
  bcast_S2_S1x2_1 : S2.BroadcastsInDim S1x2 (![1] : Fin 1 → Fin S1x2.rank)
  bcast_S1x2_S4x2_0_1 : S1x2.BroadcastsInDim S4x2 (![0, 1] : Fin 2 → Fin S4x2.rank)
  dot_S2000x1024_S1024x512_S2000x512_1_0_0_1_n_n_wf : DotDims.WF S2000x1024 S1024x512 S2000x512 [1] [0] [0] [1] [] []
  dot_S2000x512_S512x128_S2000x128_1_0_0_1_n_n_wf : DotDims.WF S2000x512 S512x128 S2000x128 [1] [0] [0] [1] [] []
  dot_S2000x128_S128x1_S2000x1_1_0_0_1_n_n_wf : DotDims.WF S2000x128 S128x1 S2000x1 [1] [0] [0] [1] [] []
  dot_S2x1x1000_S2x1000x512_S2x1x512_2_1_1_2_0_0_wf : DotDims.WF S2x1x1000 S2x1000x512 S2x1x512 [2] [1] [1] [2] [0] [0]
  dot_S4x512_S512x2_S4x2_1_0_0_1_n_n_wf : DotDims.WF S4x512 S512x2 S4x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1000x1024.size a ≤ S4x20000x1024.size a
  hwx0_0 : ∀ i : grid0.Coords, EltTy.bits .f32 = 32 ∨ (Rect.block (s := S4x20000x1024) S2x1000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .bf16 = 32 ∨ (Rect.block (s := S512x128) S512x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .bf16 = 32 ∨ (Rect.block (s := S512x128) S512x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .bf16 = 32 ∨ (Rect.block (s := S128x1) S128x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x2x512.size a ≤ S2x2x512.size a
  hwx0_9 : ∀ i : grid0.Coords, EltTy.bits .f32 = 32 ∨ (Rect.block (s := S2x2x512) S1x2x512.size (cc0_transform_9 i) (hinb0_9 i)).WholeWords (EltTy.packing .f32)

variable [Facts₀]

def dot_S2000x1024_S1024x512_S2000x512_1_0_0_1_n_n : DotDims S2000x1024 S1024x512 S2000x512 where
  lhsContracting := [1]
  rhsContracting := [0]
  lhsNonContracting := [0]
  rhsNonContracting := [1]
  lhsBatch := []
  rhsBatch := []
  wf := dot_S2000x1024_S1024x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def dot_S2x1x1000_S2x1000x512_S2x1x512_2_1_1_2_0_0 : DotDims S2x1x1000 S2x1000x512 S2x1x512 where
  lhsContracting := [2]
  rhsContracting := [1]
  lhsNonContracting := [1]
  rhsNonContracting := [2]
  lhsBatch := [0]
  rhsBatch := [0]
  wf := dot_S2x1x1000_S2x1000x512_S2x1x512_2_1_1_2_0_0_wf
def dot_S4x512_S512x2_S4x2_1_0_0_1_n_n : DotDims S4x512 S512x2 S4x2 where
  lhsContracting := [1]
  rhsContracting := [0]
  lhsNonContracting := [0]
  rhsNonContracting := [1]
  lhsBatch := []
  rhsBatch := []
  wf := dot_S4x512_S512x2_S4x2_1_0_0_1_n_n_wf

abbrev win0_0 : Pipeline.Window sig grid0 :=
  Pipeline.Window.ofSpec (Memref.whole main_arg0) S2x1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x2x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S4x20000x1024 : Shape := ⟨3, ![4, 20000, 1024]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S128x1 : Shape := ⟨2, ![128, 1]⟩
abbrev S1 : Shape := ⟨1, ![1]⟩
abbrev S512x2 : Shape := ⟨2, ![512, 2]⟩
abbrev S2 : Shape := ⟨1, ![2]⟩
abbrev S4x20000x512 : Shape := ⟨3, ![4, 20000, 512]⟩
abbrev S1x1x512 : Shape := ⟨3, ![1, 1, 512]⟩
abbrev S4x20000x128 : Shape := ⟨3, ![4, 20000, 128]⟩
abbrev S1x1x128 : Shape := ⟨3, ![1, 1, 128]⟩
abbrev S_ : Shape := ⟨0, ![]⟩
abbrev S4x20000x1 : Shape := ⟨3, ![4, 20000, 1]⟩
abbrev S1x1x1 : Shape := ⟨3, ![1, 1, 1]⟩
abbrev S4x1 : Shape := ⟨2, ![4, 1]⟩
abbrev S4x1x1 : Shape := ⟨3, ![4, 1, 1]⟩
abbrev S4x512 : Shape := ⟨2, ![4, 512]⟩
abbrev S4x2 : Shape := ⟨2, ![4, 2]⟩
abbrev S1x2 : Shape := ⟨2, ![1, 2]⟩

abbrev nBuf : Space → Nat
  | .hbm => 59
  | .vmem => 0
  | .smem => 0
  | _ => 0

abbrev bufTy : (tb : Table) → Fin (tcTables nBuf tb) → BufTy
  | .hbm, ⟨0, _⟩ => ⟨S4x20000x1024, .f32⟩
  | .hbm, ⟨1, _⟩ => ⟨S1024x512, .f32⟩
  | .hbm, ⟨2, _⟩ => ⟨S512, .f32⟩
  | .hbm, ⟨3, _⟩ => ⟨S512x128, .f32⟩
  | .hbm, ⟨4, _⟩ => ⟨S128, .f32⟩
  | .hbm, ⟨5, _⟩ => ⟨S512x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S512x2, .f32⟩
  | .hbm, ⟨10, _⟩ => ⟨S2, .f32⟩
  | .hbm, ⟨11, _⟩ => ⟨S4x20000x512, .f32⟩
  | .hbm, ⟨12, _⟩ => ⟨S1x1x512, .f32⟩
  | .hbm, ⟨13, _⟩ => ⟨S4x20000x512, .f32⟩
  | .hbm, ⟨14, _⟩ => ⟨S4x20000x512, .f32⟩
  | .hbm, ⟨15, _⟩ => ⟨S4x20000x128, .f32⟩
  | .hbm, ⟨16, _⟩ => ⟨S1x1x128, .f32⟩
  | .hbm, ⟨17, _⟩ => ⟨S4x20000x128, .f32⟩
  | .hbm, ⟨18, _⟩ => ⟨S4x20000x128, .f32⟩
  | .hbm, ⟨19, _⟩ => ⟨S4x20000x128, .f32⟩
  | .hbm, ⟨20, _⟩ => ⟨S4x20000x128, .f32⟩
  | .hbm, ⟨21, _⟩ => ⟨S1x1x128, .f32⟩
  | .hbm, ⟨22, _⟩ => ⟨S4x20000x128, .f32⟩
  | .hbm, ⟨23, _⟩ => ⟨S4x20000x128, .f32⟩
  | .hbm, ⟨24, _⟩ => ⟨S4x20000x128, .f32⟩
  | .hbm, ⟨25, _⟩ => ⟨S4x20000x128, .f32⟩
  | .hbm, ⟨26, _⟩ => ⟨S_, .f32⟩
  | .hbm, ⟨27, _⟩ => ⟨S4x20000x128, .f32⟩
  | .hbm, ⟨28, _⟩ => ⟨S4x20000x128, .f32⟩
  | .hbm, ⟨29, _⟩ => ⟨S_, .f32⟩
  | .hbm, ⟨30, _⟩ => ⟨S4x20000x128, .f32⟩
  | .hbm, ⟨31, _⟩ => ⟨S4x20000x128, .f32⟩
  | .hbm, ⟨32, _⟩ => ⟨S4x20000x128, .f32⟩
  | .hbm, ⟨33, _⟩ => ⟨S4x20000x1, .f32⟩
  | .hbm, ⟨34, _⟩ => ⟨S1x1x1, .f32⟩
  | .hbm, ⟨35, _⟩ => ⟨S4x20000x1, .f32⟩
  | .hbm, ⟨36, _⟩ => ⟨S4x20000x1, .f32⟩
  | .hbm, ⟨37, _⟩ => ⟨S_, .f32⟩
  | .hbm, ⟨38, _⟩ => ⟨S4x1, .f32⟩
  | .hbm, ⟨39, _⟩ => ⟨S_, .f32⟩
  | .hbm, ⟨40, _⟩ => ⟨S4x1, .f32⟩
  | .hbm, ⟨41, _⟩ => ⟨S4x1, .f32⟩
  | .hbm, ⟨42, _⟩ => ⟨S4x1x1, .f32⟩
  | .hbm, ⟨43, _⟩ => ⟨S4x20000x1, .f32⟩
  | .hbm, ⟨44, _⟩ => ⟨S4x20000x1, .f32⟩
  | .hbm, ⟨45, _⟩ => ⟨S4x20000x1, .f32⟩
  | .hbm, ⟨46, _⟩ => ⟨S_, .f32⟩
  | .hbm, ⟨47, _⟩ => ⟨S4x1, .f32⟩
  | .hbm, ⟨48, _⟩ => ⟨S4x1x1, .f32⟩
  | .hbm, ⟨49, _⟩ => ⟨S4x20000x1, .f32⟩
  | .hbm, ⟨50, _⟩ => ⟨S4x20000x1, .f32⟩
  | .hbm, ⟨51, _⟩ => ⟨S4x20000x512, .f32⟩
  | .hbm, ⟨52, _⟩ => ⟨S4x20000x512, .f32⟩
  | .hbm, ⟨53, _⟩ => ⟨S_, .f32⟩
  | .hbm, ⟨54, _⟩ => ⟨S4x512, .f32⟩
  | .hbm, ⟨55, _⟩ => ⟨S4x2, .f32⟩
  | .hbm, ⟨56, _⟩ => ⟨S1x2, .f32⟩
  | .hbm, ⟨57, _⟩ => ⟨S4x2, .f32⟩
  | .hbm, ⟨58, _⟩ => ⟨S4x2, .f32⟩
  | _, _ => ⟨S4x20000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x20000x512_0_1_2 : S1x1x512.BroadcastsInDim S4x20000x512 (![0, 1, 2] : Fin 3 → Fin S4x20000x512.rank)
  bcast_S128_S1x1x128_2 : S128.BroadcastsInDim S1x1x128 (![2] : Fin 1 → Fin S1x1x128.rank)
  bcast_S1x1x128_S4x20000x128_0_1_2 : S1x1x128.BroadcastsInDim S4x20000x128 (![0, 1, 2] : Fin 3 → Fin S4x20000x128.rank)
  bcast_S_S4x20000x128 : S_.BroadcastsInDim S4x20000x128 (![] : Fin 0 → Fin S4x20000x128.rank)
  bcast_S1_S1x1x1_2 : S1.BroadcastsInDim S1x1x1 (![2] : Fin 1 → Fin S1x1x1.rank)
  bcast_S1x1x1_S4x20000x1_0_1_2 : S1x1x1.BroadcastsInDim S4x20000x1 (![0, 1, 2] : Fin 3 → Fin S4x20000x1.rank)
  reducesTo_S4x20000x1_S4x1_d1 : S4x20000x1.ReducesTo [1] S4x1
  h_S_ : 0 < S_.numel
  bcast_S_S4x1 : S_.BroadcastsInDim S4x1 (![] : Fin 0 → Fin S4x1.rank)
  bcast_S4x1_S4x1x1_0_2 : S4x1.BroadcastsInDim S4x1x1 (![0, 2] : Fin 2 → Fin S4x1x1.rank)
  bcast_S4x1x1_S4x20000x1_0_1_2 : S4x1x1.BroadcastsInDim S4x20000x1 (![0, 1, 2] : Fin 3 → Fin S4x20000x1.rank)
  bcast_S4x20000x1_S4x20000x512_0_1_2 : S4x20000x1.BroadcastsInDim S4x20000x512 (![0, 1, 2] : Fin 3 → Fin S4x20000x512.rank)
  reducesTo_S4x20000x512_S4x512_d1 : S4x20000x512.ReducesTo [1] S4x512
  bcast_S2_S1x2_1 : S2.BroadcastsInDim S1x2 (![1] : Fin 1 → Fin S1x2.rank)
  bcast_S1x2_S4x2_0_1 : S1x2.BroadcastsInDim S4x2 (![0, 1] : Fin 2 → Fin S4x2.rank)
  dot_S4x20000x1024_S1024x512_S4x20000x512_2_0_01_1_n_n_wf : DotDims.WF S4x20000x1024 S1024x512 S4x20000x512 [2] [0] [0, 1] [1] [] []
  dot_S4x20000x512_S512x128_S4x20000x128_2_0_01_1_n_n_wf : DotDims.WF S4x20000x512 S512x128 S4x20000x128 [2] [0] [0, 1] [1] [] []
  dot_S4x20000x128_S128x1_S4x20000x1_2_0_01_1_n_n_wf : DotDims.WF S4x20000x128 S128x1 S4x20000x1 [2] [0] [0, 1] [1] [] []
  dot_S4x512_S512x2_S4x2_1_0_0_1_n_n_wf : DotDims.WF S4x512 S512x2 S4x2 [1] [0] [0] [1] [] []

variable [Facts₀]

def dot_S4x20000x1024_S1024x512_S4x20000x512_2_0_01_1_n_n : DotDims S4x20000x1024 S1024x512 S4x20000x512 where
  lhsContracting := [2]
  rhsContracting := [0]
  lhsNonContracting := [0, 1]
  rhsNonContracting := [1]
  lhsBatch := []
  rhsBatch := []
  wf := dot_S4x20000x1024_S1024x512_S4x20000x512_2_0_01_1_n_n_wf
def dot_S4x20000x512_S512x128_S4x20000x128_2_0_01_1_n_n : DotDims S4x20000x512 S512x128 S4x20000x128 where
  lhsContracting := [2]
  rhsContracting := [0]
  lhsNonContracting := [0, 1]
  rhsNonContracting := [1]
  lhsBatch := []
  rhsBatch := []
  wf := dot_S4x20000x512_S512x128_S4x20000x128_2_0_01_1_n_n_wf
def dot_S4x20000x128_S128x1_S4x20000x1_2_0_01_1_n_n : DotDims S4x20000x128 S128x1 S4x20000x1 where
  lhsContracting := [2]
  rhsContracting := [0]
  lhsNonContracting := [0, 1]
  rhsNonContracting := [1]
  lhsBatch := []
  rhsBatch := []
  wf := dot_S4x20000x128_S128x1_S4x20000x1_2_0_01_1_n_n_wf
def dot_S4x512_S512x2_S4x2_1_0_0_1_n_n : DotDims S4x512 S512x2 S4x2 where
  lhsContracting := [1]
  rhsContracting := [0]
  lhsNonContracting := [0]
  rhsNonContracting := [1]
  lhsBatch := []
  rhsBatch := []
  wf := dot_S4x512_S512x2_S4x2_1_0_0_1_n_n_wf

class Facts : Prop extends Facts₀ where

variable [Facts]
-- ==== Proof.Pieces.lean ====
/-
  What each control case of the body leaves in the three carried buffers (running maximum, normaliser, weighted sum)
  and in the output block, as the body's arithmetic of the tile's input blocks and of what the point before left.
  At the first tile of a bag the buffers are first reset to −∞, 0 and 0; at the last tile the output block is the
  weighted sum over the normaliser.
-/
import proofs.«407322_j11776800326091_3_alg».proof.Proof.Gen.KernelIdeal.Frame
import Idealize.ShloMosaic.Lib.Pipeline.Value
import Idealize.ShloMosaic.Lib.Tactic

set_option maxRecDepth 16384

noncomputable section

namespace Cert.Abmil.Pieces

open Idealize.ShloMosaic Idealize.ShloMosaic.TcCoe Idealize.SL.Sem Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## A middle tile: the buffers step from what the point before left -/

theorem mid_max (c : Dev nD) (i : grid0.Coords) (arg2 : Memref sig .tc .vmem S2x1000x1024 .f32) (harg2 : arg2.IsWhole) (arg3 : Memref sig .tc .vmem S1024x512 .bf16) (harg3 : arg3.IsWhole) (arg4 : Memref sig .tc .vmem S512 .f32) (harg4 : arg4.IsWhole) (arg5 : Memref sig .tc .vmem S512x128 .bf16) (harg5 : arg5.IsWhole) (arg6 : Memref sig .tc .vmem S128 .f32) (harg6 : arg6.IsWhole) (arg7 : Memref sig .tc .vmem S512x128 .bf16) (harg7 : arg7.IsWhole) (arg8 : Memref sig .tc .vmem S128 .f32) (harg8 : arg8.IsWhole) (arg9 : Memref sig .tc .vmem S128x1 .bf16) (harg9 : arg9.IsWhole) (arg10 : Memref sig .tc .vmem S1 .f32) (harg10 : arg10.IsWhole) (arg11 : Memref sig .tc .vmem S1x2x512 .f32) (harg11 : arg11.IsWhole) (arg12 : Memref sig .tc .vmem S2x1 .f32) (harg12 : arg12.IsWhole) (arg13 : Memref sig .tc .vmem S2x1 .f32) (harg13 : arg13.IsWhole) (arg14 : Memref sig .tc .vmem S2x1x512 .f32) (harg14 : arg14.IsWhole) (hc0 : ¬cond0_0 i) (hc1 : ¬cond0_1 i) (x0 : Vec F S2x1000x1024 .f32) (x1 : Vec F S1024x512 .bf16) (x2 : Vec F S512 .f32) (x3 : Vec F S512x128 .bf16) (x4 : Vec F S128 .f32) (x5 : Vec F S512x128 .bf16) (x6 : Vec F S128 .f32) (x7 : Vec F S128x1 .bf16) (x8 : Vec F S1 .f32) (xs0 : Vec F S2x1 .f32) (xs1 : Vec F S2x1 .f32) (xs2 : Vec F S2x1x512 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2
      = k0_pay13 (k0_pay6 x0 x1 x2 x3 x4 x5 x6 x7) x8 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread,
    View.ld_unit_zero (S := S2x1) hz2, View.ld_unit_zero (S := S2x1x512) hz3, View.ld_unit_zero (S := S2x1000x1024) hz3, View.ld_unit_zero (S := S1024x512) hz2, View.ld_unit_zero (S := S512) hz1, View.ld_unit_zero (S := S512x128) hz2, View.ld_unit_zero (S := S128) hz1, View.ld_unit_zero (S := S128x1) hz2, View.ld_unit_zero (S := S1) hz1,
    View.readCov_unit_zero (S := S2x1) _ hz2, View.readCov_unit_zero (S := S2x1x512) _ hz3]

theorem mid_den (c : Dev nD) (i : grid0.Coords) (arg2 : Memref sig .tc .vmem S2x1000x1024 .f32) (harg2 : arg2.IsWhole) (arg3 : Memref sig .tc .vmem S1024x512 .bf16) (harg3 : arg3.IsWhole) (arg4 : Memref sig .tc .vmem S512 .f32) (harg4 : arg4.IsWhole) (arg5 : Memref sig .tc .vmem S512x128 .bf16) (harg5 : arg5.IsWhole) (arg6 : Memref sig .tc .vmem S128 .f32) (harg6 : arg6.IsWhole) (arg7 : Memref sig .tc .vmem S512x128 .bf16) (harg7 : arg7.IsWhole) (arg8 : Memref sig .tc .vmem S128 .f32) (harg8 : arg8.IsWhole) (arg9 : Memref sig .tc .vmem S128x1 .bf16) (harg9 : arg9.IsWhole) (arg10 : Memref sig .tc .vmem S1 .f32) (harg10 : arg10.IsWhole) (arg11 : Memref sig .tc .vmem S1x2x512 .f32) (harg11 : arg11.IsWhole) (arg12 : Memref sig .tc .vmem S2x1 .f32) (harg12 : arg12.IsWhole) (arg13 : Memref sig .tc .vmem S2x1 .f32) (harg13 : arg13.IsWhole) (arg14 : Memref sig .tc .vmem S2x1x512 .f32) (harg14 : arg14.IsWhole) (hc0 : ¬cond0_0 i) (hc1 : ¬cond0_1 i) (x0 : Vec F S2x1000x1024 .f32) (x1 : Vec F S1024x512 .bf16) (x2 : Vec F S512 .f32) (x3 : Vec F S512x128 .bf16) (x4 : Vec F S128 .f32) (x5 : Vec F S512x128 .bf16) (x6 : Vec F S128 .f32) (x7 : Vec F S128x1 .bf16) (x8 : Vec F S1 .f32) (xs0 : Vec F S2x1 .f32) (xs1 : Vec F S2x1 .f32) (xs2 : Vec F S2x1x512 .f32) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2
      = k0_pay11 (k0_pay6 x0 x1 x2 x3 x4 x5 x6 x7) x8 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread,
    View.ld_unit_zero (S := S2x1) hz2, View.ld_unit_zero (S := S2x1x512) hz3, View.ld_unit_zero (S := S2x1000x1024) hz3, View.ld_unit_zero (S := S1024x512) hz2, View.ld_unit_zero (S := S512) hz1, View.ld_unit_zero (S := S512x128) hz2, View.ld_unit_zero (S := S128) hz1, View.ld_unit_zero (S := S128x1) hz2, View.ld_unit_zero (S := S1) hz1,
    View.readCov_unit_zero (S := S2x1) _ hz2, View.readCov_unit_zero (S := S2x1x512) _ hz3]

theorem mid_acc (c : Dev nD) (i : grid0.Coords) (arg2 : Memref sig .tc .vmem S2x1000x1024 .f32) (harg2 : arg2.IsWhole) (arg3 : Memref sig .tc .vmem S1024x512 .bf16) (harg3 : arg3.IsWhole) (arg4 : Memref sig .tc .vmem S512 .f32) (harg4 : arg4.IsWhole) (arg5 : Memref sig .tc .vmem S512x128 .bf16) (harg5 : arg5.IsWhole) (arg6 : Memref sig .tc .vmem S128 .f32) (harg6 : arg6.IsWhole) (arg7 : Memref sig .tc .vmem S512x128 .bf16) (harg7 : arg7.IsWhole) (arg8 : Memref sig .tc .vmem S128 .f32) (harg8 : arg8.IsWhole) (arg9 : Memref sig .tc .vmem S128x1 .bf16) (harg9 : arg9.IsWhole) (arg10 : Memref sig .tc .vmem S1 .f32) (harg10 : arg10.IsWhole) (arg11 : Memref sig .tc .vmem S1x2x512 .f32) (harg11 : arg11.IsWhole) (arg12 : Memref sig .tc .vmem S2x1 .f32) (harg12 : arg12.IsWhole) (arg13 : Memref sig .tc .vmem S2x1 .f32) (harg13 : arg13.IsWhole) (arg14 : Memref sig .tc .vmem S2x1x512 .f32) (harg14 : arg14.IsWhole) (hc0 : ¬cond0_0 i) (hc1 : ¬cond0_1 i) (x0 : Vec F S2x1000x1024 .f32) (x1 : Vec F S1024x512 .bf16) (x2 : Vec F S512 .f32) (x3 : Vec F S512x128 .bf16) (x4 : Vec F S128 .f32) (x5 : Vec F S512x128 .bf16) (x6 : Vec F S128 .f32) (x7 : Vec F S128x1 .bf16) (x8 : Vec F S1 .f32) (xs0 : Vec F S2x1 .f32) (xs1 : Vec F S2x1 .f32) (xs2 : Vec F S2x1x512 .f32) :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2
      = k0_pay12 (k0_pay5 x0 x1 x2) (k0_pay6 x0 x1 x2 x3 x4 x5 x6 x7) x8 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread,
    View.ld_unit_zero (S := S2x1) hz2, View.ld_unit_zero (S := S2x1x512) hz3, View.ld_unit_zero (S := S2x1000x1024) hz3, View.ld_unit_zero (S := S1024x512) hz2, View.ld_unit_zero (S := S512) hz1, View.ld_unit_zero (S := S512x128) hz2, View.ld_unit_zero (S := S128) hz1, View.ld_unit_zero (S := S128x1) hz2, View.ld_unit_zero (S := S1) hz1,
    View.readCov_unit_zero (S := S2x1) _ hz2, View.readCov_unit_zero (S := S2x1x512) _ hz3]

/-! ## The last tile: the same step, and the output block -/

theorem last_max (c : Dev nD) (i : grid0.Coords) (arg2 : Memref sig .tc .vmem S2x1000x1024 .f32) (harg2 : arg2.IsWhole) (arg3 : Memref sig .tc .vmem S1024x512 .bf16) (harg3 : arg3.IsWhole) (arg4 : Memref sig .tc .vmem S512 .f32) (harg4 : arg4.IsWhole) (arg5 : Memref sig .tc .vmem S512x128 .bf16) (harg5 : arg5.IsWhole) (arg6 : Memref sig .tc .vmem S128 .f32) (harg6 : arg6.IsWhole) (arg7 : Memref sig .tc .vmem S512x128 .bf16) (harg7 : arg7.IsWhole) (arg8 : Memref sig .tc .vmem S128 .f32) (harg8 : arg8.IsWhole) (arg9 : Memref sig .tc .vmem S128x1 .bf16) (harg9 : arg9.IsWhole) (arg10 : Memref sig .tc .vmem S1 .f32) (harg10 : arg10.IsWhole) (arg11 : Memref sig .tc .vmem S1x2x512 .f32) (harg11 : arg11.IsWhole) (arg12 : Memref sig .tc .vmem S2x1 .f32) (harg12 : arg12.IsWhole) (arg13 : Memref sig .tc .vmem S2x1 .f32) (harg13 : arg13.IsWhole) (arg14 : Memref sig .tc .vmem S2x1x512 .f32) (harg14 : arg14.IsWhole) (hc0 : ¬cond0_0 i) (hc1 : cond0_1 i) (x0 : Vec F S2x1000x1024 .f32) (x1 : Vec F S1024x512 .bf16) (x2 : Vec F S512 .f32) (x3 : Vec F S512x128 .bf16) (x4 : Vec F S128 .f32) (x5 : Vec F S512x128 .bf16) (x6 : Vec F S128 .f32) (x7 : Vec F S128x1 .bf16) (x8 : Vec F S1 .f32) (xs0 : Vec F S2x1 .f32) (xs1 : Vec F S2x1 .f32) (xs2 : Vec F S2x1x512 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2
      = k0_pay13 (k0_pay6 x0 x1 x2 x3 x4 x5 x6 x7) x8 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread,
    View.ld_unit_zero (S := S2x1) hz2, View.ld_unit_zero (S := S2x1x512) hz3, View.ld_unit_zero (S := S2x1000x1024) hz3, View.ld_unit_zero (S := S1024x512) hz2, View.ld_unit_zero (S := S512) hz1, View.ld_unit_zero (S := S512x128) hz2, View.ld_unit_zero (S := S128) hz1, View.ld_unit_zero (S := S128x1) hz2, View.ld_unit_zero (S := S1) hz1,
    View.readCov_unit_zero (S := S2x1) _ hz2, View.readCov_unit_zero (S := S2x1x512) _ hz3]

theorem last_den (c : Dev nD) (i : grid0.Coords) (arg2 : Memref sig .tc .vmem S2x1000x1024 .f32) (harg2 : arg2.IsWhole) (arg3 : Memref sig .tc .vmem S1024x512 .bf16) (harg3 : arg3.IsWhole) (arg4 : Memref sig .tc .vmem S512 .f32) (harg4 : arg4.IsWhole) (arg5 : Memref sig .tc .vmem S512x128 .bf16) (harg5 : arg5.IsWhole) (arg6 : Memref sig .tc .vmem S128 .f32) (harg6 : arg6.IsWhole) (arg7 : Memref sig .tc .vmem S512x128 .bf16) (harg7 : arg7.IsWhole) (arg8 : Memref sig .tc .vmem S128 .f32) (harg8 : arg8.IsWhole) (arg9 : Memref sig .tc .vmem S128x1 .bf16) (harg9 : arg9.IsWhole) (arg10 : Memref sig .tc .vmem S1 .f32) (harg10 : arg10.IsWhole) (arg11 : Memref sig .tc .vmem S1x2x512 .f32) (harg11 : arg11.IsWhole) (arg12 : Memref sig .tc .vmem S2x1 .f32) (harg12 : arg12.IsWhole) (arg13 : Memref sig .tc .vmem S2x1 .f32) (harg13 : arg13.IsWhole) (arg14 : Memref sig .tc .vmem S2x1x512 .f32) (harg14 : arg14.IsWhole) (hc0 : ¬cond0_0 i) (hc1 : cond0_1 i) (x0 : Vec F S2x1000x1024 .f32) (x1 : Vec F S1024x512 .bf16) (x2 : Vec F S512 .f32) (x3 : Vec F S512x128 .bf16) (x4 : Vec F S128 .f32) (x5 : Vec F S512x128 .bf16) (x6 : Vec F S128 .f32) (x7 : Vec F S128x1 .bf16) (x8 : Vec F S1 .f32) (xs0 : Vec F S2x1 .f32) (xs1 : Vec F S2x1 .f32) (xs2 : Vec F S2x1x512 .f32) :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2
      = k0_pay11 (k0_pay6 x0 x1 x2 x3 x4 x5 x6 x7) x8 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread,
    View.ld_unit_zero (S := S2x1) hz2, View.ld_unit_zero (S := S2x1x512) hz3, View.ld_unit_zero (S := S2x1000x1024) hz3, View.ld_unit_zero (S := S1024x512) hz2, View.ld_unit_zero (S := S512) hz1, View.ld_unit_zero (S := S512x128) hz2, View.ld_unit_zero (S := S128) hz1, View.ld_unit_zero (S := S128x1) hz2, View.ld_unit_zero (S := S1) hz1,
    View.readCov_unit_zero (S := S2x1) _ hz2, View.readCov_unit_zero (S := S2x1x512) _ hz3]

theorem last_acc (c : Dev nD) (i : grid0.Coords) (arg2 : Memref sig .tc .vmem S2x1000x1024 .f32) (harg2 : arg2.IsWhole) (arg3 : Memref sig .tc .vmem S1024x512 .bf16) (harg3 : arg3.IsWhole) (arg4 : Memref sig .tc .vmem S512 .f32) (harg4 : arg4.IsWhole) (arg5 : Memref sig .tc .vmem S512x128 .bf16) (harg5 : arg5.IsWhole) (arg6 : Memref sig .tc .vmem S128 .f32) (harg6 : arg6.IsWhole) (arg7 : Memref sig .tc .vmem S512x128 .bf16) (harg7 : arg7.IsWhole) (arg8 : Memref sig .tc .vmem S128 .f32) (harg8 : arg8.IsWhole) (arg9 : Memref sig .tc .vmem S128x1 .bf16) (harg9 : arg9.IsWhole) (arg10 : Memref sig .tc .vmem S1 .f32) (harg10 : arg10.IsWhole) (arg11 : Memref sig .tc .vmem S1x2x512 .f32) (harg11 : arg11.IsWhole) (arg12 : Memref sig .tc .vmem S2x1 .f32) (harg12 : arg12.IsWhole) (arg13 : Memref sig .tc .vmem S2x1 .f32) (harg13 : arg13.IsWhole) (arg14 : Memref sig .tc .vmem S2x1x512 .f32) (harg14 : arg14.IsWhole) (hc0 : ¬cond0_0 i) (hc1 : cond0_1 i) (x0 : Vec F S2x1000x1024 .f32) (x1 : Vec F S1024x512 .bf16) (x2 : Vec F S512 .f32) (x3 : Vec F S512x128 .bf16) (x4 : Vec F S128 .f32) (x5 : Vec F S512x128 .bf16) (x6 : Vec F S128 .f32) (x7 : Vec F S128x1 .bf16) (x8 : Vec F S1 .f32) (xs0 : Vec F S2x1 .f32) (xs1 : Vec F S2x1 .f32) (xs2 : Vec F S2x1x512 .f32) :
    sout0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2
      = k0_pay12 (k0_pay5 x0 x1 x2) (k0_pay6 x0 x1 x2 x3 x4 x5 x6 x7) x8 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread,
    View.ld_unit_zero (S := S2x1) hz2, View.ld_unit_zero (S := S2x1x512) hz3, View.ld_unit_zero (S := S2x1000x1024) hz3, View.ld_unit_zero (S := S1024x512) hz2, View.ld_unit_zero (S := S512) hz1, View.ld_unit_zero (S := S512x128) hz2, View.ld_unit_zero (S := S128) hz1, View.ld_unit_zero (S := S128x1) hz2, View.ld_unit_zero (S := S1) hz1,
    View.readCov_unit_zero (S := S2x1) _ hz2, View.readCov_unit_zero (S := S2x1x512) _ hz3]

theorem last_out (c : Dev nD) (i : grid0.Coords) (arg2 : Memref sig .tc .vmem S2x1000x1024 .f32) (harg2 : arg2.IsWhole) (arg3 : Memref sig .tc .vmem S1024x512 .bf16) (harg3 : arg3.IsWhole) (arg4 : Memref sig .tc .vmem S512 .f32) (harg4 : arg4.IsWhole) (arg5 : Memref sig .tc .vmem S512x128 .bf16) (harg5 : arg5.IsWhole) (arg6 : Memref sig .tc .vmem S128 .f32) (harg6 : arg6.IsWhole) (arg7 : Memref sig .tc .vmem S512x128 .bf16) (harg7 : arg7.IsWhole) (arg8 : Memref sig .tc .vmem S128 .f32) (harg8 : arg8.IsWhole) (arg9 : Memref sig .tc .vmem S128x1 .bf16) (harg9 : arg9.IsWhole) (arg10 : Memref sig .tc .vmem S1 .f32) (harg10 : arg10.IsWhole) (arg11 : Memref sig .tc .vmem S1x2x512 .f32) (harg11 : arg11.IsWhole) (arg12 : Memref sig .tc .vmem S2x1 .f32) (harg12 : arg12.IsWhole) (arg13 : Memref sig .tc .vmem S2x1 .f32) (harg13 : arg13.IsWhole) (arg14 : Memref sig .tc .vmem S2x1x512 .f32) (harg14 : arg14.IsWhole) (hc0 : ¬cond0_0 i) (hc1 : cond0_1 i) (x0 : Vec F S2x1000x1024 .f32) (x1 : Vec F S1024x512 .bf16) (x2 : Vec F S512 .f32) (x3 : Vec F S512x128 .bf16) (x4 : Vec F S128 .f32) (x5 : Vec F S512x128 .bf16) (x6 : Vec F S128 .f32) (x7 : Vec F S128x1 .bf16) (x8 : Vec F S1 .f32) (xs0 : Vec F S2x1 .f32) (xs1 : Vec F S2x1 .f32) (xs2 : Vec F S2x1x512 .f32) :
    out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2
      = k0_pay1 (k0_pay12 (k0_pay5 x0 x1 x2) (k0_pay6 x0 x1 x2 x3 x4 x5 x6 x7) x8 xs0 xs2) (k0_pay11 (k0_pay6 x0 x1 x2 x3 x4 x5 x6 x7) x8 xs0 xs1) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread,
    View.ld_unit_zero (S := S2x1) hz2, View.ld_unit_zero (S := S2x1x512) hz3, View.ld_unit_zero (S := S2x1000x1024) hz3, View.ld_unit_zero (S := S1024x512) hz2, View.ld_unit_zero (S := S512) hz1, View.ld_unit_zero (S := S512x128) hz2, View.ld_unit_zero (S := S128) hz1, View.ld_unit_zero (S := S128x1) hz2, View.ld_unit_zero (S := S1) hz1,
    View.readCov_unit_zero (S := S2x1) _ hz2, View.readCov_unit_zero (S := S2x1x512) _ hz3]

/-! ## The first tile: the step from the reset values -/

theorem first_max (c : Dev nD) (i : grid0.Coords) (arg2 : Memref sig .tc .vmem S2x1000x1024 .f32) (harg2 : arg2.IsWhole) (arg3 : Memref sig .tc .vmem S1024x512 .bf16) (harg3 : arg3.IsWhole) (arg4 : Memref sig .tc .vmem S512 .f32) (harg4 : arg4.IsWhole) (arg5 : Memref sig .tc .vmem S512x128 .bf16) (harg5 : arg5.IsWhole) (arg6 : Memref sig .tc .vmem S128 .f32) (harg6 : arg6.IsWhole) (arg7 : Memref sig .tc .vmem S512x128 .bf16) (harg7 : arg7.IsWhole) (arg8 : Memref sig .tc .vmem S128 .f32) (harg8 : arg8.IsWhole) (arg9 : Memref sig .tc .vmem S128x1 .bf16) (harg9 : arg9.IsWhole) (arg10 : Memref sig .tc .vmem S1 .f32) (harg10 : arg10.IsWhole) (arg11 : Memref sig .tc .vmem S1x2x512 .f32) (harg11 : arg11.IsWhole) (arg12 : Memref sig .tc .vmem S2x1 .f32) (harg12 : arg12.IsWhole) (arg13 : Memref sig .tc .vmem S2x1 .f32) (harg13 : arg13.IsWhole) (arg14 : Memref sig .tc .vmem S2x1x512 .f32) (harg14 : arg14.IsWhole) (hc0 : cond0_0 i) (hc1 : ¬cond0_1 i) (x0 : Vec F S2x1000x1024 .f32) (x1 : Vec F S1024x512 .bf16) (x2 : Vec F S512 .f32) (x3 : Vec F S512x128 .bf16) (x4 : Vec F S128 .f32) (x5 : Vec F S512x128 .bf16) (x6 : Vec F S128 .f32) (x7 : Vec F S128x1 .bf16) (x8 : Vec F S1 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8
      = k0_pay13 (k0_pay6 x0 x1 x2 x3 x4 x5 x6 x7) x8 k0_pay2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S2x1) hz2]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread,
    View.ld_unit_zero (S := S2x1) hz2, View.ld_unit_zero (S := S2x1x512) hz3, View.ld_unit_zero (S := S2x1000x1024) hz3, View.ld_unit_zero (S := S1024x512) hz2, View.ld_unit_zero (S := S512) hz1, View.ld_unit_zero (S := S512x128) hz2, View.ld_unit_zero (S := S128) hz1, View.ld_unit_zero (S := S128x1) hz2, View.ld_unit_zero (S := S1) hz1,
    View.readCov_unit_zero (S := S2x1) _ hz2, View.readCov_unit_zero (S := S2x1x512) _ hz3]

theorem first_den (c : Dev nD) (i : grid0.Coords) (arg2 : Memref sig .tc .vmem S2x1000x1024 .f32) (harg2 : arg2.IsWhole) (arg3 : Memref sig .tc .vmem S1024x512 .bf16) (harg3 : arg3.IsWhole) (arg4 : Memref sig .tc .vmem S512 .f32) (harg4 : arg4.IsWhole) (arg5 : Memref sig .tc .vmem S512x128 .bf16) (harg5 : arg5.IsWhole) (arg6 : Memref sig .tc .vmem S128 .f32) (harg6 : arg6.IsWhole) (arg7 : Memref sig .tc .vmem S512x128 .bf16) (harg7 : arg7.IsWhole) (arg8 : Memref sig .tc .vmem S128 .f32) (harg8 : arg8.IsWhole) (arg9 : Memref sig .tc .vmem S128x1 .bf16) (harg9 : arg9.IsWhole) (arg10 : Memref sig .tc .vmem S1 .f32) (harg10 : arg10.IsWhole) (arg11 : Memref sig .tc .vmem S1x2x512 .f32) (harg11 : arg11.IsWhole) (arg12 : Memref sig .tc .vmem S2x1 .f32) (harg12 : arg12.IsWhole) (arg13 : Memref sig .tc .vmem S2x1 .f32) (harg13 : arg13.IsWhole) (arg14 : Memref sig .tc .vmem S2x1x512 .f32) (harg14 : arg14.IsWhole) (hc0 : cond0_0 i) (hc1 : ¬cond0_1 i) (x0 : Vec F S2x1000x1024 .f32) (x1 : Vec F S1024x512 .bf16) (x2 : Vec F S512 .f32) (x3 : Vec F S512x128 .bf16) (x4 : Vec F S128 .f32) (x5 : Vec F S512x128 .bf16) (x6 : Vec F S128 .f32) (x7 : Vec F S128x1 .bf16) (x8 : Vec F S1 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8
      = k0_pay11 (k0_pay6 x0 x1 x2 x3 x4 x5 x6 x7) x8 k0_pay2 k0_pay3 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S2x1) hz2]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread,
    View.ld_unit_zero (S := S2x1) hz2, View.ld_unit_zero (S := S2x1x512) hz3, View.ld_unit_zero (S := S2x1000x1024) hz3, View.ld_unit_zero (S := S1024x512) hz2, View.ld_unit_zero (S := S512) hz1, View.ld_unit_zero (S := S512x128) hz2, View.ld_unit_zero (S := S128) hz1, View.ld_unit_zero (S := S128x1) hz2, View.ld_unit_zero (S := S1) hz1,
    View.readCov_unit_zero (S := S2x1) _ hz2, View.readCov_unit_zero (S := S2x1x512) _ hz3]

theorem first_acc (c : Dev nD) (i : grid0.Coords) (arg2 : Memref sig .tc .vmem S2x1000x1024 .f32) (harg2 : arg2.IsWhole) (arg3 : Memref sig .tc .vmem S1024x512 .bf16) (harg3 : arg3.IsWhole) (arg4 : Memref sig .tc .vmem S512 .f32) (harg4 : arg4.IsWhole) (arg5 : Memref sig .tc .vmem S512x128 .bf16) (harg5 : arg5.IsWhole) (arg6 : Memref sig .tc .vmem S128 .f32) (harg6 : arg6.IsWhole) (arg7 : Memref sig .tc .vmem S512x128 .bf16) (harg7 : arg7.IsWhole) (arg8 : Memref sig .tc .vmem S128 .f32) (harg8 : arg8.IsWhole) (arg9 : Memref sig .tc .vmem S128x1 .bf16) (harg9 : arg9.IsWhole) (arg10 : Memref sig .tc .vmem S1 .f32) (harg10 : arg10.IsWhole) (arg11 : Memref sig .tc .vmem S1x2x512 .f32) (harg11 : arg11.IsWhole) (arg12 : Memref sig .tc .vmem S2x1 .f32) (harg12 : arg12.IsWhole) (arg13 : Memref sig .tc .vmem S2x1 .f32) (harg13 : arg13.IsWhole) (arg14 : Memref sig .tc .vmem S2x1x512 .f32) (harg14 : arg14.IsWhole) (hc0 : cond0_0 i) (hc1 : ¬cond0_1 i) (x0 : Vec F S2x1000x1024 .f32) (x1 : Vec F S1024x512 .bf16) (x2 : Vec F S512 .f32) (x3 : Vec F S512x128 .bf16) (x4 : Vec F S128 .f32) (x5 : Vec F S512x128 .bf16) (x6 : Vec F S128 .f32) (x7 : Vec F S128x1 .bf16) (x8 : Vec F S1 .f32) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8
      = k0_pay12 (k0_pay5 x0 x1 x2) (k0_pay6 x0 x1 x2 x3 x4 x5 x6 x7) x8 k0_pay2 k0_pay4 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S2x1x512) hz3]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread,
    View.ld_unit_zero (S := S2x1) hz2, View.ld_unit_zero (S := S2x1x512) hz3, View.ld_unit_zero (S := S2x1000x1024) hz3, View.ld_unit_zero (S := S1024x512) hz2, View.ld_unit_zero (S := S512) hz1, View.ld_unit_zero (S := S512x128) hz2, View.ld_unit_zero (S := S128) hz1, View.ld_unit_zero (S := S128x1) hz2, View.ld_unit_zero (S := S1) hz1,
    View.readCov_unit_zero (S := S2x1) _ hz2, View.readCov_unit_zero (S := S2x1x512) _ hz3]

end Cert.Abmil.Pieces

end
-- ==== Proof.LibOnlineSoftmax.lean ====
/-
  The online softmax over consecutive blocks of columns equals the one-shot softmax-weighted sum, over the
  extended reals with exact operations.

  For scores S and values V that are real numbers, the state (m, l, a) starts at (⊥, 0, 0); absorbing a block
  b of columns replaces it by
    m' = max m (max of the block's scores),
    l' = exp (m - m') * l + Σ_k exp (S b k - m'),
    a' = exp (m - m') * a + Σ_k exp (S b k - m') * V b k.
  The invariant: after the blocks in a set B, m is the maximum of their scores (⊥ for no block), l is the sum of
  exp (S - m) over them and a the sum of exp (S - m) * V. The first step has m = ⊥: exp (⊥ - m') = 0 and the old
  l and a are 0, and 0 * 0 = 0. Once a block is in, m is real and l is a positive real, and a / l is the sum of
  (exp (S - m) / l) * V, the quotient distributed over the sum.

  All functions are valued in the extended reals and assumed real-valued pointwise
  (hypotheses of the form ∀ j k, ∃ r : ℝ, S j k = r); a real-valued family is used through its coercion.
-/
import Idealize.ShloMosaic.PureOps.Ideal
import Mathlib.Data.EReal.Basic
import Mathlib.Data.EReal.Operations
import Mathlib.Data.Finset.Lattice.Fold
import Mathlib.Algebra.BigOperators.Group.Finset.Basic
import Mathlib.Algebra.BigOperators.Ring.Finset
import Mathlib.Analysis.SpecialFunctions.Exp

noncomputable section

namespace Cert.OnlineSoftmax

open Idealize.ShloMosaic
open scoped BigOperators

variable {ι β κ : Type*}

/-- The coercion of the reals into the extended reals commutes with finite sums. -/
theorem coe_finset_sum (T : Finset ι) (f : ι → ℝ) :
    ((∑ i ∈ T, f i : ℝ) : EReal) = ∑ i ∈ T, (f i : EReal) := by
  classical
  induction T using Finset.induction_on with
  | empty => simp
  | insert a s ha ih => rw [Finset.sum_insert ha, Finset.sum_insert ha, EReal.coe_add, ih]

/-- The fold of max from the bottom element is the finite supremum. -/
theorem fold_max_bot_eq_sup (T : Finset ι) (f : ι → EReal) : T.fold max ⊥ f = T.sup f := rfl

/-- The exponential of a difference of two real numbers, taken in the extended reals, is the real one. -/
theorem exp_coe_sub_coe (r m : ℝ) :
    Ideal.exp ((r : EReal) - (m : EReal)) = ((Real.exp (r - m) : ℝ) : EReal) := by
  rw [← EReal.coe_sub, Ideal.exp_coe]

/-- The maximum of finitely many real numbers, at least one, is a real number. -/
theorem exists_real_fold_max {T : Finset ι} (hT : T.Nonempty) (s : ι → ℝ) :
    ∃ r : ℝ, T.fold max ⊥ (fun i => (s i : EReal)) = (r : EReal) := by
  induction hT using Finset.Nonempty.cons_induction with
  | singleton a => exact ⟨s a, by rw [Finset.fold_singleton, max_bot_right]⟩
  | cons a t ha ht ih =>
    obtain ⟨r, hr⟩ := ih
    exact ⟨max (s a) r, by rw [Finset.fold_cons, hr, EReal.coe_strictMono.monotone.map_max]⟩

/-- Moving the reference point of a sum of exponentials from one real number to another multiplies it by the
    exponential of the difference. -/
theorem rescale_real (T : Finset ι) (s c : ι → ℝ) (m m' : ℝ) :
    Ideal.exp ((m : EReal) - (m' : EReal)) * ∑ i ∈ T, Ideal.exp ((s i : EReal) - (m : EReal)) * (c i : EReal)
      = ∑ i ∈ T, Ideal.exp ((s i : EReal) - (m' : EReal)) * (c i : EReal) := by
  simp only [exp_coe_sub_coe, ← EReal.coe_mul, ← coe_finset_sum]
  congr 1
  rw [Finset.mul_sum]
  refine Finset.sum_congr rfl fun i _ => ?_
  rw [← mul_assoc, ← Real.exp_add]
  congr 2; ring

/-- The same with reference points in the extended reals that are real as soon as there is a term; with no term
    both sides are zero, whatever the factor. -/
theorem rescale {T : Finset ι} (s c : ι → ℝ) {m m' : EReal}
    (hm : T.Nonempty → ∃ r : ℝ, m = (r : EReal)) (hm' : T.Nonempty → ∃ r : ℝ, m' = (r : EReal)) :
    Ideal.exp (m - m') * ∑ i ∈ T, Ideal.exp ((s i : EReal) - m) * (c i : EReal)
      = ∑ i ∈ T, Ideal.exp ((s i : EReal) - m') * (c i : EReal) := by
  rcases T.eq_empty_or_nonempty with rfl | hT
  · simp
  · obtain ⟨r, rfl⟩ := hm hT
    obtain ⟨r', rfl⟩ := hm' hT
    exact rescale_real T s c r r'

theorem rescale_one {T : Finset ι} (s : ι → ℝ) {m m' : EReal}
    (hm : T.Nonempty → ∃ r : ℝ, m = (r : EReal)) (hm' : T.Nonempty → ∃ r : ℝ, m' = (r : EReal)) :
    Ideal.exp (m - m') * ∑ i ∈ T, Ideal.exp ((s i : EReal) - m)
      = ∑ i ∈ T, Ideal.exp ((s i : EReal) - m') := by
  simpa using rescale s (fun _ => (1 : ℝ)) hm hm'

/-! ### One flat family of scores -/

/-- The state (m, l, a) of the online softmax after exactly the scores indexed by T have been absorbed:
    m is their maximum (the bottom element when there are none), l the sum of exp (S i - m) and a the
    sum of exp (S i - m) * V i. -/
structure FlatInv (S V : ι → EReal) (T : Finset ι) (m l a : EReal) : Prop where
  m_eq : m = T.fold max ⊥ S
  l_eq : l = ∑ i ∈ T, Ideal.exp (S i - m)
  a_eq : a = ∑ i ∈ T, Ideal.exp (S i - m) * V i

theorem FlatInv.init (S V : ι → EReal) : FlatInv S V ∅ ⊥ 0 0 :=
  ⟨by simp, by simp, by simp⟩

theorem FlatInv.step [DecidableEq ι] {S V : ι → EReal} {T U : Finset ι} {m l a m' l' a' : EReal}
    (h : FlatInv S V T m l a) (hTU : Disjoint T U)
    (hS : ∀ i, ∃ r : ℝ, S i = (r : EReal)) (hV : ∀ i, ∃ r : ℝ, V i = (r : EReal))
    (hm' : m' = max m (U.fold max ⊥ S))
    (hl' : l' = Ideal.exp (m - m') * l + ∑ i ∈ U, Ideal.exp (S i - m'))
    (ha' : a' = Ideal.exp (m - m') * a + ∑ i ∈ U, Ideal.exp (S i - m') * V i) :
    FlatInv S V (T ∪ U) m' l' a' := by
  choose s hs using hS
  choose v hv using hV
  obtain rfl : S = fun i => (s i : EReal) := funext hs
  obtain rfl : V = fun i => (v i : EReal) := funext hv
  have hmU : m' = (T ∪ U).fold max ⊥ (fun i => (s i : EReal)) := by
    rw [hm', h.m_eq, fold_max_bot_eq_sup, fold_max_bot_eq_sup, fold_max_bot_eq_sup, Finset.sup_union]
  have hr : T.Nonempty → ∃ r : ℝ, m = (r : EReal) := fun hT => by
    rw [h.m_eq]; exact exists_real_fold_max hT s
  have hr' : T.Nonempty → ∃ r : ℝ, m' = (r : EReal) := fun hT => by
    rw [hmU]; exact exists_real_fold_max (hT.mono Finset.subset_union_left) s
  refine ⟨hmU, ?_, ?_⟩
  · rw [hl', h.l_eq, rescale_one s hr hr', Finset.sum_union hTU]
  · rw [ha', h.a_eq, rescale s v hr hr', Finset.sum_union hTU]

/-- After at least one score the maximum is a real number and the normaliser a positive real number. -/
theorem FlatInv.exists_real {S V : ι → EReal} {T : Finset ι} {m l a : EReal} (h : FlatInv S V T m l a)
    (hT : T.Nonempty) (hS : ∀ i, ∃ r : ℝ, S i = (r : EReal)) :
    (∃ r : ℝ, m = (r : EReal)) ∧ ∃ r : ℝ, 0 < r ∧ l = (r : EReal) := by
  choose s hs using hS
  obtain rfl : S = fun i => (s i : EReal) := funext hs
  obtain ⟨r, hr⟩ : ∃ r : ℝ, m = (r : EReal) := by rw [h.m_eq]; exact exists_real_fold_max hT s
  refine ⟨⟨r, hr⟩, ∑ i ∈ T, Real.exp (s i - r), Finset.sum_pos (fun i _ => Real.exp_pos _) hT, ?_⟩
  rw [h.l_eq, hr, coe_finset_sum]
  exact Finset.sum_congr rfl fun i _ => exp_coe_sub_coe _ _

/-- The closing step: the accumulated numerator over the accumulated normaliser is the sum of the normalised
    weights times the values. -/
theorem FlatInv.div_eq {S V : ι → EReal} {T : Finset ι} {m l a : EReal} (h : FlatInv S V T m l a)
    (hT : T.Nonempty) (hS : ∀ i, ∃ r : ℝ, S i = (r : EReal)) (hV : ∀ i, ∃ r : ℝ, V i = (r : EReal)) :
    Ideal.div a l = ∑ i ∈ T, Ideal.div (Ideal.exp (S i - m)) l * V i := by
  obtain ⟨⟨r, hr⟩, L, hL, hlL⟩ := h.exists_real hT hS
  choose s hs using hS
  choose v hv using hV
  obtain rfl : S = fun i => (s i : EReal) := funext hs
  obtain rfl : V = fun i => (v i : EReal) := funext hv
  rw [h.a_eq, hlL, hr]
  simp only [Ideal.div_coe hL.ne', exp_coe_sub_coe, ← EReal.coe_mul, ← coe_finset_sum]
  congr 1
  rw [Finset.sum_mul]
  exact Finset.sum_congr rfl fun i _ => by ring

/-! ### Scores in blocks -/

/-- The state after exactly the blocks in B have been absorbed, each block a whole family κ of columns. -/
structure Inv [Fintype κ] (S V : β → κ → EReal) (B : Finset β) (m l a : EReal) : Prop where
  m_eq : m = B.fold max ⊥ fun j => Finset.univ.fold max ⊥ (S j)
  l_eq : l = ∑ j ∈ B, ∑ k, Ideal.exp (S j k - m)
  a_eq : a = ∑ j ∈ B, ∑ k, Ideal.exp (S j k - m) * V j k

/-- The block form is the flat form over the pairs (block, column). -/
theorem inv_iff_flatInv [Fintype κ] (S V : β → κ → EReal) (B : Finset β) (m l a : EReal) :
    Inv S V B m l a
      ↔ FlatInv (fun x : β × κ => S x.1 x.2) (fun x : β × κ => V x.1 x.2) (B ×ˢ Finset.univ) m l a := by
  have hm : (B ×ˢ (Finset.univ : Finset κ)).fold max ⊥ (fun x : β × κ => S x.1 x.2)
      = B.fold max ⊥ fun j => Finset.univ.fold max ⊥ (S j) := by
    simp only [fold_max_bot_eq_sup]; exact Finset.sup_product_left _ _ _
  have hl : ∑ x ∈ B ×ˢ (Finset.univ : Finset κ), Ideal.exp (S x.1 x.2 - m)
      = ∑ j ∈ B, ∑ k, Ideal.exp (S j k - m) :=
    Finset.sum_product' _ _ (fun j k => Ideal.exp (S j k - m))
  have ha : ∑ x ∈ B ×ˢ (Finset.univ : Finset κ), Ideal.exp (S x.1 x.2 - m) * V x.1 x.2
      = ∑ j ∈ B, ∑ k, Ideal.exp (S j k - m) * V j k :=
    Finset.sum_product' _ _ (fun j k => Ideal.exp (S j k - m) * V j k)
  constructor
  · rintro ⟨h1, h2, h3⟩; exact ⟨h1.trans hm.symm, h2.trans hl.symm, h3.trans ha.symm⟩
  · rintro ⟨h1, h2, h3⟩; exact ⟨h1.trans hm, h2.trans hl, h3.trans ha⟩

theorem Inv.init [Fintype κ] (S V : β → κ → EReal) : Inv S V ∅ ⊥ 0 0 :=
  ⟨by simp, by simp, by simp⟩

/-- One block step: from the state after the blocks in B to the state after insert b B. -/
theorem Inv.step [DecidableEq β] [Fintype κ] {S V : β → κ → EReal} {B : Finset β} {b : β} {m l a m' l' a' : EReal}
    (h : Inv S V B m l a) (hb : b ∉ B)
    (hS : ∀ j k, ∃ r : ℝ, S j k = (r : EReal)) (hV : ∀ j k, ∃ r : ℝ, V j k = (r : EReal))
    (hm' : m' = max m (Finset.univ.fold max ⊥ (S b)))
    (hl' : l' = Ideal.exp (m - m') * l + ∑ k, Ideal.exp (S b k - m'))
    (ha' : a' = Ideal.exp (m - m') * a + ∑ k, Ideal.exp (S b k - m') * V b k) :
    Inv S V (insert b B) m' l' a' := by
  classical
  rw [inv_iff_flatInv] at h ⊢
  have hU : insert b B ×ˢ (Finset.univ : Finset κ) = B ×ˢ Finset.univ ∪ {b} ×ˢ Finset.univ := by
    rw [Finset.insert_eq, Finset.union_product, Finset.union_comm]
  rw [hU]
  refine h.step ?_ (fun x => hS x.1 x.2) (fun x => hV x.1 x.2) ?_ ?_ ?_
  · exact Finset.disjoint_product.2 (Or.inl (Finset.disjoint_singleton_right.2 hb))
  · rw [hm']; congr 1
    simp only [fold_max_bot_eq_sup]
    rw [Finset.sup_product_left, Finset.sup_singleton]
  · rw [hl', Finset.sum_product' (f := fun j k => Ideal.exp (S j k - m')), Finset.sum_singleton]
  · rw [ha', Finset.sum_product' (f := fun j k => Ideal.exp (S j k - m') * V j k), Finset.sum_singleton]

theorem Inv.exists_real [Fintype κ] [Nonempty κ] {S V : β → κ → EReal} {B : Finset β} {m l a : EReal}
    (h : Inv S V B m l a) (hB : B.Nonempty) (hS : ∀ j k, ∃ r : ℝ, S j k = (r : EReal)) :
    (∃ r : ℝ, m = (r : EReal)) ∧ ∃ r : ℝ, 0 < r ∧ l = (r : EReal) :=
  ((inv_iff_flatInv S V B m l a).1 h).exists_real (hB.product Finset.univ_nonempty) fun x => hS x.1 x.2

theorem Inv.div_eq [Fintype κ] [Nonempty κ] {S V : β → κ → EReal} {B : Finset β} {m l a : EReal}
    (h : Inv S V B m l a) (hB : B.Nonempty)
    (hS : ∀ j k, ∃ r : ℝ, S j k = (r : EReal)) (hV : ∀ j k, ∃ r : ℝ, V j k = (r : EReal)) :
    Ideal.div a l = ∑ j ∈ B, ∑ k, Ideal.div (Ideal.exp (S j k - m)) l * V j k := by
  rw [((inv_iff_flatInv S V B m l a).1 h).div_eq (hB.product Finset.univ_nonempty) (fun x => hS x.1 x.2)
    fun x => hV x.1 x.2]
  exact Finset.sum_product' _ _ (fun j k => Ideal.div (Ideal.exp (S j k - m)) l * V j k)

/-! ### The recursion as a function, and four blocks -/

/-- One block step of the online softmax on the state (m, l, a). -/
def blockStep [Fintype κ] (s v : κ → EReal) (st : EReal × EReal × EReal) : EReal × EReal × EReal :=
  (max st.1 (Finset.univ.fold max ⊥ s),
   Ideal.exp (st.1 - max st.1 (Finset.univ.fold max ⊥ s)) * st.2.1
     + ∑ k, Ideal.exp (s k - max st.1 (Finset.univ.fold max ⊥ s)),
   Ideal.exp (st.1 - max st.1 (Finset.univ.fold max ⊥ s)) * st.2.2
     + ∑ k, Ideal.exp (s k - max st.1 (Finset.univ.fold max ⊥ s)) * v k)

/-- A block step preserves the invariant. -/
theorem Inv.blockStep [DecidableEq β] [Fintype κ] {S V : β → κ → EReal} {B : Finset β} {b : β}
    {st : EReal × EReal × EReal} (h : Inv S V B st.1 st.2.1 st.2.2) (hb : b ∉ B)
    (hS : ∀ j k, ∃ r : ℝ, S j k = (r : EReal)) (hV : ∀ j k, ∃ r : ℝ, V j k = (r : EReal)) :
    Inv S V (insert b B) (blockStep (S b) (V b) st).1 (blockStep (S b) (V b) st).2.1
      (blockStep (S b) (V b) st).2.2 :=
  h.step hb hS hV rfl rfl rfl

/-- Four blocks: the online recursion from (⊥, 0, 0) returns the one-shot softmax-weighted sum. -/
theorem online_four [Fintype κ] [Nonempty κ] (S V : Fin 4 → κ → EReal)
    (hS : ∀ j k, ∃ r : ℝ, S j k = (r : EReal)) (hV : ∀ j k, ∃ r : ℝ, V j k = (r : EReal))
    (st : EReal × EReal × EReal)
    (hst : st = blockStep (S 3) (V 3) (blockStep (S 2) (V 2) (blockStep (S 1) (V 1) (blockStep (S 0) (V 0) (⊥, 0, 0)))))
    (M Z : EReal)
    (hM : M = Finset.univ.fold max ⊥ fun j : Fin 4 => Finset.univ.fold max ⊥ (S j))
    (hZ : Z = ∑ j : Fin 4, ∑ k, Ideal.exp (S j k - M)) :
    Ideal.div st.2.2 st.2.1 = ∑ j : Fin 4, ∑ k, Ideal.div (Ideal.exp (S j k - M)) Z * V j k := by
  have h0 : Inv S V ∅ ((⊥ : EReal), (0 : EReal), (0 : EReal)).1 ((⊥ : EReal), (0 : EReal), (0 : EReal)).2.1
      ((⊥ : EReal), (0 : EReal), (0 : EReal)).2.2 := Inv.init S V
  have h1 := h0.blockStep (b := 0) (by decide) hS hV
  have h2 := h1.blockStep (b := 1) (by decide) hS hV
  have h3 := h2.blockStep (b := 2) (by decide) hS hV
  have h4 := h3.blockStep (b := 3) (by decide) hS hV
  rw [← hst] at h4
  replace h4 : Inv S V Finset.univ st.1 st.2.1 st.2.2 := by
    convert h4 using 1
    decide
  have hMm : M = st.1 := hM.trans h4.m_eq.symm
  have hZl : Z = st.2.1 := by rw [hZ, hMm]; exact h4.l_eq.symm
  rw [hMm, hZl]
  exact h4.div_eq Finset.univ_nonempty hS hV

/-! ### 4096 columns as four blocks of 1024 -/

/-- Column kk of block j is the flat column 1024 * j + kk. -/
def colEquiv : Fin 4 × Fin 1024 ≃ Fin 4096 where
  toFun x := ⟨1024 * x.1.val + x.2.val, by omega⟩
  invFun c := (⟨c.val / 1024, by omega⟩, ⟨c.val % 1024, by omega⟩)
  left_inv x := by
    apply Prod.ext
    · apply Fin.ext; show (1024 * x.1.val + x.2.val) / 1024 = x.1.val; omega
    · apply Fin.ext; show (1024 * x.1.val + x.2.val) % 1024 = x.2.val; omega
  right_inv c := by
    apply Fin.ext; show 1024 * (c.val / 1024) + c.val % 1024 = c.val; omega

/-- A sum over the 4096 columns, block by block. -/
theorem sum_fin4096 (g : Fin 4096 → EReal) :
    (∑ k : Fin 4096, g k) = ∑ j : Fin 4, ∑ kk : Fin 1024, g ⟨1024 * j.val + kk.val, by omega⟩ := by
  rw [← Fintype.sum_equiv colEquiv (fun x => g (colEquiv x)) g (fun _ => rfl)]
  exact Fintype.sum_prod_type' (fun (j : Fin 4) (kk : Fin 1024) => g ⟨1024 * j.val + kk.val, by omega⟩)

/-- A maximum over the 4096 columns, block by block. -/
theorem fold_max_fin4096 (g : Fin 4096 → EReal) :
    (Finset.univ : Finset (Fin 4096)).fold max ⊥ g
      = (Finset.univ : Finset (Fin 4)).fold max ⊥ fun j =>
          (Finset.univ : Finset (Fin 1024)).fold max ⊥ fun kk => g ⟨1024 * j.val + kk.val, by omega⟩ := by
  simp only [fold_max_bot_eq_sup]
  rw [← Finset.map_univ_equiv colEquiv, Finset.sup_map, ← Finset.univ_product_univ, Finset.sup_product_left]
  rfl

/-- The flat form: the four block steps over the 4096 columns, taken as four blocks of 1024, return the
    softmax-weighted sum over all 4096 columns. -/
theorem online_four_flat (s v : Fin 4096 → EReal)
    (hs : ∀ k, ∃ r : ℝ, s k = (r : EReal)) (hv : ∀ k, ∃ r : ℝ, v k = (r : EReal))
    (st : EReal × EReal × EReal)
    (hst : st =
      blockStep (fun kk : Fin 1024 => s ⟨1024 * (3 : Fin 4).val + kk.val, by omega⟩)
          (fun kk : Fin 1024 => v ⟨1024 * (3 : Fin 4).val + kk.val, by omega⟩)
        (blockStep (fun kk : Fin 1024 => s ⟨1024 * (2 : Fin 4).val + kk.val, by omega⟩)
            (fun kk : Fin 1024 => v ⟨1024 * (2 : Fin 4).val + kk.val, by omega⟩)
          (blockStep (fun kk : Fin 1024 => s ⟨1024 * (1 : Fin 4).val + kk.val, by omega⟩)
              (fun kk : Fin 1024 => v ⟨1024 * (1 : Fin 4).val + kk.val, by omega⟩)
            (blockStep (fun kk : Fin 1024 => s ⟨1024 * (0 : Fin 4).val + kk.val, by omega⟩)
                (fun kk : Fin 1024 => v ⟨1024 * (0 : Fin 4).val + kk.val, by omega⟩) (⊥, 0, 0))))) :
    Ideal.div st.2.2 st.2.1
      = ∑ k : Fin 4096,
          Ideal.div (Ideal.exp (s k - (Finset.univ : Finset (Fin 4096)).fold max ⊥ s))
            (∑ k' : Fin 4096, Ideal.exp (s k' - (Finset.univ : Finset (Fin 4096)).fold max ⊥ s)) * v k := by
  rw [sum_fin4096 fun k => Ideal.div (Ideal.exp (s k - (Finset.univ : Finset (Fin 4096)).fold max ⊥ s))
    (∑ k' : Fin 4096, Ideal.exp (s k' - (Finset.univ : Finset (Fin 4096)).fold max ⊥ s)) * v k]
  exact online_four (fun (j : Fin 4) (kk : Fin 1024) => s ⟨1024 * j.val + kk.val, by omega⟩)
    (fun (j : Fin 4) (kk : Fin 1024) => v ⟨1024 * j.val + kk.val, by omega⟩) (fun _ _ => hs _) (fun _ _ => hv _) st hst _ _
    (fold_max_fin4096 s) (sum_fin4096 fun k' => Ideal.exp (s k' - (Finset.univ : Finset (Fin 4096)).fold max ⊥ s))

/-! ### Closing from the invariant over all blocks -/

/-- With every block absorbed, the quotient is the one-shot softmax-weighted sum, the maximum M and the
    normaliser Z being given by their one-shot formulas. -/
theorem Inv.div_eq_univ [Fintype β] [Nonempty β] [Fintype κ] [Nonempty κ] {S V : β → κ → EReal} {m l a : EReal}
    (h : Inv S V Finset.univ m l a)
    (hS : ∀ j k, ∃ r : ℝ, S j k = (r : EReal)) (hV : ∀ j k, ∃ r : ℝ, V j k = (r : EReal))
    (M Z : EReal)
    (hM : M = Finset.univ.fold max ⊥ fun j : β => Finset.univ.fold max ⊥ (S j))
    (hZ : Z = ∑ j : β, ∑ k, Ideal.exp (S j k - M)) :
    Ideal.div a l = ∑ j : β, ∑ k, Ideal.div (Ideal.exp (S j k - M)) Z * V j k := by
  have hMm : M = m := hM.trans h.m_eq.symm
  have hZl : Z = l := by rw [hZ, hMm]; exact h.l_eq.symm
  rw [hMm, hZl]
  exact h.div_eq Finset.univ_nonempty hS hV

/-- The same over 4096 columns taken as four blocks of 1024, in the flat form. -/
theorem Inv.div_eq_flat4096 (s v : Fin 4096 → EReal)
    (hs : ∀ k, ∃ r : ℝ, s k = (r : EReal)) (hv : ∀ k, ∃ r : ℝ, v k = (r : EReal)) {m l a : EReal}
    (h : Inv (fun (j : Fin 4) (kk : Fin 1024) => s ⟨1024 * j.val + kk.val, by omega⟩)
      (fun (j : Fin 4) (kk : Fin 1024) => v ⟨1024 * j.val + kk.val, by omega⟩) Finset.univ m l a) :
    Ideal.div a l
      = ∑ k : Fin 4096,
          Ideal.div (Ideal.exp (s k - (Finset.univ : Finset (Fin 4096)).fold max ⊥ s))
            (∑ k' : Fin 4096, Ideal.exp (s k' - (Finset.univ : Finset (Fin 4096)).fold max ⊥ s)) * v k := by
  rw [sum_fin4096 fun k => Ideal.div (Ideal.exp (s k - (Finset.univ : Finset (Fin 4096)).fold max ⊥ s))
    (∑ k' : Fin 4096, Ideal.exp (s k' - (Finset.univ : Finset (Fin 4096)).fold max ⊥ s)) * v k]
  exact h.div_eq_univ (fun _ _ => hs _) (fun _ _ => hv _) _ _
    (fold_max_fin4096 s) (sum_fin4096 fun k' => Ideal.exp (s k' - (Finset.univ : Finset (Fin 4096)).fold max ⊥ s))

/-- The four blocks of Fin 4, one inserted after the other, are all of them. -/
theorem insert_fin4 : insert (3 : Fin 4) (insert 2 (insert 1 (insert 0 ∅))) = (Finset.univ : Finset (Fin 4)) := by
  decide

end Cert.OnlineSoftmax
-- ==== Proof.Spec.lean ====
/-
  Gated-attention pooling over a bag of instances, as one function of the argument arrays on the extended reals.

  For a batch entry b and an instance n the embedding is  emb b n e = Σ_i X[b,n,i] · Wpe[i,e] + bpe[e];  the two gates are
  tanh and the logistic function of two further affine maps of the embedding, the score is the affine functional
  Σ_a gateV · gateU · watt[a,0] + batt[0] of their product, the weights are the softmax of the scores over the instances
  n (shifted by the maximum, normalised by a quotient), the pooled embedding is the weighted sum of the embeddings and
  the logits are one more affine map of it.

  When every entry of the arguments is a real number, embeddings and scores are real numbers.  The 20000 instances
  are 20 consecutive tiles of 1000; the online-softmax state (running maximum, normaliser, weighted sum) that has
  absorbed all 20 tiles gives the pooled embedding as the quotient of its last two components.
-/
import Idealize.ShloMosaic.PureOps.Ideal
import Idealize.ShloMosaic.Lib.ValueIdx
import proofs.«407322_j11776800326091_3_alg».proof.Proof.LibOnlineSoftmax

noncomputable section

namespace Cert.Abmil

open Idealize.ShloMosaic Idealize.ShloMosaic.ValueIdx
open scoped BigOperators

/-- The argument arrays the pooled embedding depends on. -/
structure Args where
  X : (⟨3, ![4, 20000, 1024]⟩ : Shape).Idx → EReal
  Wpe : (⟨2, ![1024, 512]⟩ : Shape).Idx → EReal
  bpe : (⟨1, ![512]⟩ : Shape).Idx → EReal
  WV : (⟨2, ![512, 128]⟩ : Shape).Idx → EReal
  bV : (⟨1, ![128]⟩ : Shape).Idx → EReal
  WU : (⟨2, ![512, 128]⟩ : Shape).Idx → EReal
  bU : (⟨1, ![128]⟩ : Shape).Idx → EReal
  watt : (⟨2, ![128, 1]⟩ : Shape).Idx → EReal
  batt : (⟨1, ![1]⟩ : Shape).Idx → EReal

/-- Every entry of every array is a real number. -/
structure Args.Real (A : Args) : Prop where
  X : ∀ i, ∃ r : ℝ, A.X i = (r : EReal)
  Wpe : ∀ i, ∃ r : ℝ, A.Wpe i = (r : EReal)
  bpe : ∀ i, ∃ r : ℝ, A.bpe i = (r : EReal)
  WV : ∀ i, ∃ r : ℝ, A.WV i = (r : EReal)
  bV : ∀ i, ∃ r : ℝ, A.bV i = (r : EReal)
  WU : ∀ i, ∃ r : ℝ, A.WU i = (r : EReal)
  bU : ∀ i, ∃ r : ℝ, A.bU i = (r : EReal)
  watt : ∀ i, ∃ r : ℝ, A.watt i = (r : EReal)
  batt : ∀ i, ∃ r : ℝ, A.batt i = (r : EReal)

/-- The nine arrays as one record. -/
abbrev mkArgs (x0 : (⟨3, ![4, 20000, 1024]⟩ : Shape).Idx → EReal) (x1 : (⟨2, ![1024, 512]⟩ : Shape).Idx → EReal)
    (x2 : (⟨1, ![512]⟩ : Shape).Idx → EReal) (x3 : (⟨2, ![512, 128]⟩ : Shape).Idx → EReal)
    (x4 : (⟨1, ![128]⟩ : Shape).Idx → EReal) (x5 : (⟨2, ![512, 128]⟩ : Shape).Idx → EReal)
    (x6 : (⟨1, ![128]⟩ : Shape).Idx → EReal) (x7 : (⟨2, ![128, 1]⟩ : Shape).Idx → EReal)
    (x8 : (⟨1, ![1]⟩ : Shape).Idx → EReal) : Args := ⟨x0, x1, x2, x3, x4, x5, x6, x7, x8⟩

variable (A : Args)

/-- The embedding of instance n of bag b, coordinate e. -/
def emb (b : Fin 4) (n : Fin 20000) (e : Fin 512) : EReal :=
  (∑ i : Fin 1024, A.X (ix3 b n i) * A.Wpe (ix2 i e)) + A.bpe (ix1 e)

/-- The tanh gate. -/
def gateV (b : Fin 4) (n : Fin 20000) (a : Fin 128) : EReal :=
  Ideal.tanh ((∑ e : Fin 512, emb A b n e * A.WV (ix2 e a)) + A.bV (ix1 a))

/-- The logistic gate. -/
def gateU (b : Fin 4) (n : Fin 20000) (a : Fin 128) : EReal :=
  Ideal.logistic ((∑ e : Fin 512, emb A b n e * A.WU (ix2 e a)) + A.bU (ix1 a))

/-- The attention score of instance n of bag b. -/
def score (b : Fin 4) (n : Fin 20000) : EReal :=
  (∑ a : Fin 128, gateV A b n a * gateU A b n a * A.watt (ix2 a (0 : Fin 1))) + A.batt (ix1 (0 : Fin 1))

/-- The largest score of bag b. -/
def scoreMax (b : Fin 4) : EReal := (Finset.univ : Finset (Fin 20000)).fold max ⊥ (score A b)

/-- The softmax normaliser of bag b. -/
def scoreDen (b : Fin 4) : EReal := ∑ n : Fin 20000, Ideal.exp (score A b n - scoreMax A b)

/-- The pooled embedding: the softmax-weighted sum of the embeddings. -/
def pooled (b : Fin 4) (e : Fin 512) : EReal :=
  ∑ n : Fin 20000, Ideal.div (Ideal.exp (score A b n - scoreMax A b)) (scoreDen A b) * emb A b n e

/-! ## Real arguments give real embeddings and scores -/

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

theorem real_sum {ι : Type*} (T : Finset ι) (f : ι → EReal) (h : ∀ i, ∃ r : ℝ, f i = (r : EReal)) :
    ∃ r : ℝ, ∑ i ∈ T, f i = (r : EReal) := by
  choose g hg using h
  exact ⟨∑ i ∈ T, g i, by rw [Cert.OnlineSoftmax.coe_finset_sum]; exact Finset.sum_congr rfl fun i _ => hg i⟩

theorem real_tanh {x : EReal} (hx : ∃ r : ℝ, x = (r : EReal)) : ∃ r : ℝ, Ideal.tanh x = (r : EReal) := by
  obtain ⟨a, rfl⟩ := hx; exact ⟨Real.tanh a, rfl⟩

theorem real_logistic {x : EReal} (hx : ∃ r : ℝ, x = (r : EReal)) : ∃ r : ℝ, Ideal.logistic x = (r : EReal) := by
  obtain ⟨a, rfl⟩ := hx; exact ⟨_, Ideal.logistic_coe a⟩

variable {A}

theorem emb_real (hA : A.Real) (b : Fin 4) (n : Fin 20000) (e : Fin 512) : ∃ r : ℝ, emb A b n e = (r : EReal) :=
  real_add (real_sum _ _ fun i => real_mul (hA.X _) (hA.Wpe _)) (hA.bpe _)

theorem gateV_real (hA : A.Real) (b : Fin 4) (n : Fin 20000) (a : Fin 128) : ∃ r : ℝ, gateV A b n a = (r : EReal) :=
  real_tanh (real_add (real_sum _ _ fun e => real_mul (emb_real hA b n e) (hA.WV _)) (hA.bV _))

theorem gateU_real (hA : A.Real) (b : Fin 4) (n : Fin 20000) (a : Fin 128) : ∃ r : ℝ, gateU A b n a = (r : EReal) :=
  real_logistic (real_add (real_sum _ _ fun e => real_mul (emb_real hA b n e) (hA.WU _)) (hA.bU _))

theorem score_real (hA : A.Real) (b : Fin 4) (n : Fin 20000) : ∃ r : ℝ, score A b n = (r : EReal) :=
  real_add (real_sum _ _ fun a => real_mul (real_mul (gateV_real hA b n a) (gateU_real hA b n a)) (hA.watt _)) (hA.batt _)

/-! ## 20000 instances as 20 tiles of 1000 -/

/-- Instance k of tile j is the instance 1000 · j + k. -/
def inst (j : Fin 20) (k : Fin 1000) : Fin 20000 := ⟨1000 * j.val + k.val, by omega⟩

def tileEquiv : Fin 20 × Fin 1000 ≃ Fin 20000 where
  toFun x := inst x.1 x.2
  invFun c := (⟨c.val / 1000, by omega⟩, ⟨c.val % 1000, by omega⟩)
  left_inv x := by
    apply Prod.ext
    · apply Fin.ext; show (1000 * x.1.val + x.2.val) / 1000 = x.1.val; omega
    · apply Fin.ext; show (1000 * x.1.val + x.2.val) % 1000 = x.2.val; omega
  right_inv c := by
    apply Fin.ext; show 1000 * (c.val / 1000) + c.val % 1000 = c.val; omega

theorem sum_tiles (g : Fin 20000 → EReal) : (∑ n : Fin 20000, g n) = ∑ j : Fin 20, ∑ k : Fin 1000, g (inst j k) := by
  rw [← Fintype.sum_equiv tileEquiv (fun x => g (tileEquiv x)) g (fun _ => rfl)]
  exact Fintype.sum_prod_type' (fun (j : Fin 20) (k : Fin 1000) => g (inst j k))

theorem fold_max_tiles (g : Fin 20000 → EReal) :
    (Finset.univ : Finset (Fin 20000)).fold max ⊥ g
      = (Finset.univ : Finset (Fin 20)).fold max ⊥ fun j => (Finset.univ : Finset (Fin 1000)).fold max ⊥ fun k => g (inst j k) := by
  simp only [Cert.OnlineSoftmax.fold_max_bot_eq_sup]
  rw [← Finset.map_univ_equiv tileEquiv, Finset.sup_map, ← Finset.univ_product_univ, Finset.sup_product_left]
  rfl

/-- The scores and the embeddings of bag b, tile by tile. -/
def tileScore (A : Args) (b : Fin 4) (j : Fin 20) (k : Fin 1000) : EReal := score A b (inst j k)
def tileEmb (A : Args) (b : Fin 4) (e : Fin 512) (j : Fin 20) (k : Fin 1000) : EReal := emb A b (inst j k) e

/-- The online-softmax state that has absorbed all 20 tiles gives the pooled embedding. -/
theorem pooled_of_inv (hA : A.Real) (b : Fin 4) (e : Fin 512) {m l a : EReal}
    (h : Cert.OnlineSoftmax.Inv (tileScore A b) (tileEmb A b e) Finset.univ m l a) :
    Ideal.div a l = pooled A b e := by
  unfold pooled
  rw [sum_tiles fun n => Ideal.div (Ideal.exp (score A b n - scoreMax A b)) (scoreDen A b) * emb A b n e]
  exact h.div_eq_univ (fun j k => score_real hA b _) (fun j k => emb_real hA b _ e) _ _
    (fold_max_tiles (score A b)) (sum_tiles fun n => Ideal.exp (score A b n - scoreMax A b))

/-! ## The logits -/

/-- The classifier head on the pooled embedding. -/
def logits (A : Args) (Wcls : (⟨2, ![512, 2]⟩ : Shape).Idx → EReal) (bcls : (⟨1, ![2]⟩ : Shape).Idx → EReal) :
    (⟨2, ![4, 2]⟩ : Shape).Idx → EReal :=
  fun i => (∑ e : Fin 512, pooled A (⟨(i 0).val, idx2_lt0 i⟩ : Fin 4) e * Wcls (ix2 e (⟨(i 1).val, idx2_lt1 i⟩ : Fin 2)))
    + bcls (ix1 (⟨(i 1).val, idx2_lt1 i⟩ : Fin 2))

/-- The classifier head on any [4, 512] array. -/
def head (P : (⟨2, ![4, 512]⟩ : Shape).Idx → EReal) (Wcls : (⟨2, ![512, 2]⟩ : Shape).Idx → EReal)
    (bcls : (⟨1, ![2]⟩ : Shape).Idx → EReal) : (⟨2, ![4, 2]⟩ : Shape).Idx → EReal :=
  fun i => (∑ e : Fin 512, P (ix2 (⟨(i 0).val, idx2_lt0 i⟩ : Fin 4) e) * Wcls (ix2 e (⟨(i 1).val, idx2_lt1 i⟩ : Fin 2)))
    + bcls (ix1 (⟨(i 1).val, idx2_lt1 i⟩ : Fin 2))

/-- A [2, 2, 512] array read as [4, 512], rows merged in row-major order: row a is entry (a / 2, a % 2). -/
def mergeBags (G : (⟨3, ![2, 2, 512]⟩ : Shape).Idx → EReal) : (⟨2, ![4, 512]⟩ : Shape).Idx → EReal :=
  fun i => G (ix3 (⟨(i 0).val / 2, by have := idx2_lt0 i; omega⟩ : Fin 2) (⟨(i 0).val % 2, by omega⟩ : Fin 2)
    (⟨(i 1).val, idx2_lt1 i⟩ : Fin 512))

/-- The pooled embeddings as a [4, 512] array. -/
def pooledArr (A : Args) : (⟨2, ![4, 512]⟩ : Shape).Idx → EReal :=
  fun i => pooled A (⟨(i 0).val, idx2_lt0 i⟩ : Fin 4) (⟨(i 1).val, idx2_lt1 i⟩ : Fin 512)

theorem head_pooledArr (A : Args) (Wcls : (⟨2, ![512, 2]⟩ : Shape).Idx → EReal) (bcls : (⟨1, ![2]⟩ : Shape).Idx → EReal) :
    head (pooledArr A) Wcls bcls = logits A Wcls bcls := rfl

/-! ## One tile of two bags: the embedding and the score from the tile's block -/

/-- The embedding of row k of bag b of a [2, 1000, 1024] block. -/
def bEmb (x0 : (⟨3, ![2, 1000, 1024]⟩ : Shape).Idx → EReal) (x1 : (⟨2, ![1024, 512]⟩ : Shape).Idx → EReal)
    (x2 : (⟨1, ![512]⟩ : Shape).Idx → EReal) (b : Fin 2) (k : Fin 1000) (e : Fin 512) : EReal :=
  (∑ i : Fin 1024, x0 (ix3 b k i) * x1 (ix2 i e)) + x2 (ix1 e)

/-- The score of row k of bag b of the block. -/
def bScore (x0 : (⟨3, ![2, 1000, 1024]⟩ : Shape).Idx → EReal) (x1 : (⟨2, ![1024, 512]⟩ : Shape).Idx → EReal)
    (x2 : (⟨1, ![512]⟩ : Shape).Idx → EReal) (x3 : (⟨2, ![512, 128]⟩ : Shape).Idx → EReal)
    (x4 : (⟨1, ![128]⟩ : Shape).Idx → EReal) (x5 : (⟨2, ![512, 128]⟩ : Shape).Idx → EReal)
    (x6 : (⟨1, ![128]⟩ : Shape).Idx → EReal) (x7 : (⟨2, ![128, 1]⟩ : Shape).Idx → EReal)
    (x8 : (⟨1, ![1]⟩ : Shape).Idx → EReal) (b : Fin 2) (k : Fin 1000) : EReal :=
  (∑ a : Fin 128,
      Ideal.tanh ((∑ e : Fin 512, bEmb x0 x1 x2 b k e * x3 (ix2 e a)) + x4 (ix1 a))
        * Ideal.logistic ((∑ e : Fin 512, bEmb x0 x1 x2 b k e * x5 (ix2 e a)) + x6 (ix1 a))
        * x7 (ix2 a (0 : Fin 1)))
    + x8 (ix1 (0 : Fin 1))

/-- A block that holds tile j of bags B.. of X gives that tile's embeddings. -/
theorem bEmb_eq (A : Args) (x0 : (⟨3, ![2, 1000, 1024]⟩ : Shape).Idx → EReal) (B : Fin 4) (j : Fin 20) (b : Fin 2) (k : Fin 1000)
    (h0 : ∀ i : Fin 1024, x0 (ix3 b k i) = A.X (ix3 B (inst j k) i)) (e : Fin 512) :
    bEmb x0 A.Wpe A.bpe b k e = emb A B (inst j k) e := by
  unfold bEmb emb
  exact congrArg (· + A.bpe (ix1 e)) (Finset.sum_congr rfl fun i _ => by rw [h0 i])

theorem bScore_eq (A : Args) (x0 : (⟨3, ![2, 1000, 1024]⟩ : Shape).Idx → EReal) (B : Fin 4) (j : Fin 20) (b : Fin 2) (k : Fin 1000)
    (h0 : ∀ i : Fin 1024, x0 (ix3 b k i) = A.X (ix3 B (inst j k) i)) :
    bScore x0 A.Wpe A.bpe A.WV A.bV A.WU A.bU A.watt A.batt b k = score A B (inst j k) := by
  unfold bScore score gateV gateU
  simp only [bEmb_eq A x0 B j b k h0]

end Cert.Abmil

end
-- ==== Proof.BlockMath.lean ====
/-
  The tile's embedding and score, read off the body's arithmetic at an index.
-/
import proofs.«407322_j11776800326091_3_alg».proof.Proof.Gen.KernelIdeal.Skeleton
import proofs.«407322_j11776800326091_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Abmil.Block

open Idealize.ShloMosaic Idealize.ShloMosaic.ValueIdx Cert.KernelIdeal Cert.KernelIdeal.Gen
open scoped BigOperators

/-! ## A plain matrix product read at an index -/

/-- The operand indices of an M×K by K×N product at the result index j and the contraction position q:
    the left one is (j 0, q), the right one is (q, j 1). -/
theorem plain_lhs_0 (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (M K N : Nat) (j : (⟨2, ![M, N]⟩ : Shape).Idx) (q : (DotDims.plain M K N).contr.Idx) :
    ((DotDims.plain M K N).lhsIdx j q 1).val = (q ⟨0, by rw [DotDims.rank_contr]; exact Nat.one_pos⟩).val :=
  (DotDims.plain M K N).lhsIdx_val_of_single rfl j q

theorem plain_rhs_0 (M K N : Nat) (j : (⟨2, ![M, N]⟩ : Shape).Idx) (q : (DotDims.plain M K N).contr.Idx) :
    ((DotDims.plain M K N).rhsIdx j q 0).val = (q ⟨0, by rw [DotDims.rank_contr]; exact Nat.one_pos⟩).val :=
  (DotDims.plain M K N).rhsIdx_val_of_single rfl j q

theorem plain_rhs_1 (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- An M×K by K×N product into the zero block, read at (r, c): the sum over the contracted index k of
    lhs (r, k) · rhs (k, c). -/
theorem plain_matmul_apply {φ₁ φ₂ : FTy} (M K N : Nat) (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_0 M K N _ _
      | ⟨1, _⟩ => exact (plain_lhs_1 M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_0 M K N _ _).trans hk
      | ⟨1, _⟩ => exact plain_rhs_1 M K N _ _)
  rw [el, er]

/-! ## The bias row and the merged rows -/

/-- The bias row: a length-n vector cast to one row and broadcast over m rows, read at (r, c), is the vector at c. -/
theorem bias_row_apply {α : Type} {m n : Nat} (v : (⟨1, ![n]⟩ : Shape).Idx → α)
    (hc : (⟨1, ![n]⟩ : Shape).ShapeCasts ⟨2, ![1, n]⟩) (hb : (⟨2, ![1, n]⟩ : Shape).Broadcasts ⟨2, ![m, n]⟩)
    (r : Fin m) (c : Fin n) :
    broadcastTo ⟨2, ![m, n]⟩ (shapeCast ⟨2, ![1, n]⟩ v hc) hb (ix2 r c) = v (ix1 c) :=
  (broadcastTo_1b_ab_apply _ hb r c).trans (shapeCast_a_1a_apply v hc 0 c)

/-- Rows merged in row-major order: the [2000, 1024] cast of a [2, 1000, 1024] array reads, at (1000·b + k, i),
    the operand at (b, k, i). -/
theorem cast_merge_rows_apply {α : Type} (x : S2x1000x1024.Idx → α) (h : S2x1000x1024.ShapeCasts S2000x1024)
    (b : Fin 2) (k : Fin 1000) (i : Fin 1024) :
    shapeCast S2000x1024 x h (ix2 (⟨1000 * b.val + k.val, by omega⟩ : Fin 2000) i) = x (ix3 b k i) :=
  shapeCast_apply x h _ _ (by
    rw [Shape.rowMajor_val_three, Shape.rowMajor_val_two]
    show (b.val * 1000 + k.val) * 1024 + i.val = (1000 * b.val + k.val) * 1024 + i.val
    rw [Nat.mul_comm b.val 1000])

/-! ## The embedding block -/

/-- The embedding block at (r, e): the sum over i of the merged input at (r, i) times the weight at (i, e), plus the bias at e. -/
theorem pay5_row (x0 : Vec Ideal S2x1000x1024 .f32) (x1 : Vec Ideal S1024x512 .bf16) (x2 : Vec Ideal S512 .f32)
    (r : Fin 2000) (e : Fin 512) :
    k0_pay5 (F := Ideal) x0 x1 x2 (ix2 r e)
      = (∑ i : Fin 1024, shapeCast S2000x1024 x0 shapeCasts_S2x1000x1024_S2000x1024 (ix2 r i) * x1 (ix2 i e)) + x2 (ix1 e) := by
  unfold k0_pay5
  rw [truncf_apply, addf_apply]
  refine (congrArg₂ (· + ·) (plain_matmul_apply 2000 1024 512 _ _ r e) (bias_row_apply x2 _ _ r e)).trans ?_
  rw [shapeCast_self]
  rfl

/-- Row 1000·b + k of the merged [2000, 512] embedding block is the embedding of row k of bag b. -/
theorem pay5_apply (x0 : Vec Ideal S2x1000x1024 .f32) (x1 : Vec Ideal S1024x512 .bf16) (x2 : Vec Ideal S512 .f32)
    (b : Fin 2) (k : Fin 1000) (e : Fin 512) :
    k0_pay5 (F := Ideal) x0 x1 x2 (ix2 (⟨1000 * b.val + k.val, by omega⟩ : Fin 2000) e) = Cert.Abmil.bEmb x0 x1 x2 b k e := by
  rw [pay5_row]
  unfold Cert.Abmil.bEmb
  exact congrArg (· + x2 (ix1 e)) (Finset.sum_congr rfl fun i _ => by rw [cast_merge_rows_apply])

/-! ## The score column -/

/-- A gate's pre-activation: the block times a [512, 128] weight plus the bias row, read at (r, a). -/
theorem gate_pre_apply (p : FVec Ideal S2000x512 .bf16) (w : FVec Ideal S512x128 .bf16) (c : FVec Ideal S128 .f32)
    (r : Fin 2000) (a : Fin 128) :
    addf (matmul dot_S2000x512_S512x128_S2000x128_1_0_0_1_n_n none p (shapeCast S512x128 w shapeCasts_S512x128_S512x128)
        (constant S2000x128 .f32 0x00000000#32))
      (broadcastTo S2000x128 (shapeCast S1x128 c shapeCasts_S128_S1x128) broadcasts_S1x128_S2000x128) (ix2 r a)
      = (∑ e : Fin 512, p (ix2 r e) * w (ix2 e a)) + c (ix1 a) := by
  rw [addf_apply]
  refine (congrArg₂ (· + ·) (plain_matmul_apply 2000 512 128 _ _ r a) (bias_row_apply c _ _ r a)).trans ?_
  rw [shapeCast_self]

/-- The score column at (r, 0): the sum over a of the tanh gate times the logistic gate times the attention weight. -/
theorem pay6_row (x0 : Vec Ideal S2x1000x1024 .f32) (x1 : Vec Ideal S1024x512 .bf16) (x2 : Vec Ideal S512 .f32)
    (x3 : Vec Ideal S512x128 .bf16) (x4 : Vec Ideal S128 .f32) (x5 : Vec Ideal S512x128 .bf16) (x6 : Vec Ideal S128 .f32)
    (x7 : Vec Ideal S128x1 .bf16) (r : Fin 2000) :
    k0_pay6 (F := Ideal) x0 x1 x2 x3 x4 x5 x6 x7 (ix2 r (0 : Fin 1))
      = ∑ a : Fin 128,
          Ideal.tanh ((∑ e : Fin 512, k0_pay5 (F := Ideal) x0 x1 x2 (ix2 r e) * x3 (ix2 e a)) + x4 (ix1 a))
            * Ideal.logistic ((∑ e : Fin 512, k0_pay5 (F := Ideal) x0 x1 x2 (ix2 r e) * x5 (ix2 e a)) + x6 (ix1 a))
            * x7 (ix2 a (0 : Fin 1)) := by
  unfold k0_pay6
  refine (plain_matmul_apply 2000 128 1 _ _ r 0).trans ?_
  refine Finset.sum_congr rfl fun a _ => ?_
  rw [shapeCast_self x7, truncf_apply, mulf_apply]
  exact congrArg (· * x7 (ix2 a (0 : Fin 1)))
    (congrArg₂ (· * ·) (congrArg Ideal.tanh (gate_pre_apply _ x3 x4 r a)) (congrArg Ideal.logistic (gate_pre_apply _ x5 x6 r a)))

/-- The [2, 1000] score block at (b, k) is the [2000, 1] column at row 1000·b + k plus the score bias. -/
theorem pay7_at (v : FVec Ideal S2000x1 .f32) (x8 : Vec Ideal S1 .f32) (b : Fin 2) (k : Fin 1000) :
    k0_pay7 (F := Ideal) v x8 (ix2 b k)
      = v (ix2 (⟨1000 * b.val + k.val, by omega⟩ : Fin 2000) (0 : Fin 1)) + x8 (ix1 (0 : Fin 1)) := by
  unfold k0_pay7
  refine (shapeCast_apply _ shapeCasts_S2x1000x1_S2x1000 (ix2 b k) (ix3 b k (0 : Fin 1)) ?_).trans ?_
  · rw [Shape.rowMajor_val_three, Shape.rowMajor_val_two]
    show (b.val * 1000 + k.val) * 1 + 0 = b.val * 1000 + k.val
    omega
  refine (shapeCast_apply _ shapeCasts_S2000x1_S2x1000x1 (ix3 b k (0 : Fin 1))
    (ix2 (⟨1000 * b.val + k.val, by omega⟩ : Fin 2000) (0 : Fin 1)) ?_).trans ?_
  · rw [Shape.rowMajor_val_three, Shape.rowMajor_val_two]
    show (1000 * b.val + k.val) * 1 + 0 = (b.val * 1000 + k.val) * 1 + 0
    omega
  rw [addf_apply]
  exact congrArg (v _ + ·) (bias_row_apply x8 _ _ _ (0 : Fin 1))

/-- The [2, 1000] score block at (b, k) is the score of row k of bag b. -/
theorem pay7_apply (x0 : Vec Ideal S2x1000x1024 .f32) (x1 : Vec Ideal S1024x512 .bf16) (x2 : Vec Ideal S512 .f32)
    (x3 : Vec Ideal S512x128 .bf16) (x4 : Vec Ideal S128 .f32) (x5 : Vec Ideal S512x128 .bf16) (x6 : Vec Ideal S128 .f32)
    (x7 : Vec Ideal S128x1 .bf16) (x8 : Vec Ideal S1 .f32) (b : Fin 2) (k : Fin 1000) :
    k0_pay7 (F := Ideal) (k0_pay6 x0 x1 x2 x3 x4 x5 x6 x7) x8 (ix2 b k)
      = Cert.Abmil.bScore x0 x1 x2 x3 x4 x5 x6 x7 x8 b k := by
  rw [pay7_at, pay6_row]
  unfold Cert.Abmil.bScore
  simp only [pay5_apply]

end Cert.Abmil.Block

end
-- ==== Proof.SoftState.lean ====
/-
  One step of the online softmax, read off the body's arithmetic at an index: the new maximum, normaliser and
  weighted sum of a bag from the old ones and the tile's scores and embeddings; the initial state; the final quotient.
-/
import proofs.«407322_j11776800326091_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.Abmil.Soft

open Idealize.ShloMosaic Idealize.ShloMosaic.ValueIdx Cert.KernelIdeal Cert.KernelIdeal.Gen
open scoped BigOperators

/-- The f32 pattern of −∞ is the extended real ⊥. -/
theorem ofBits_neg_inf_f32 : Ideal.ofBits .f32 0xFF800000#32 = (⊥ : EReal) := by simp [Ideal.ofBits, Ideal.ieee]

/-- The initial maximum is −∞. -/
theorem pay2_apply (i : S2x1.Idx) : k0_pay2 (F := Ideal) i = (⊥ : EReal) := by
  unfold k0_pay2
  rw [shapeCast_self]
  exact ofBits_neg_inf_f32

/-- The initial normaliser is 0. -/
theorem pay3_apply (i : S2x1.Idx) : k0_pay3 (F := Ideal) i = (0 : EReal) := by
  unfold k0_pay3
  rw [shapeCast_self]
  exact Ideal.ofBits_zero_f32

/-- The initial weighted sum is 0. -/
theorem pay4_apply (i : S2x1x512.Idx) : k0_pay4 (F := Ideal) i = (0 : EReal) := by
  unfold k0_pay4
  rw [shapeCast_self]
  exact Ideal.ofBits_zero_f32

/-- The cast of a [2] vector to [2,1] read at (b, 0). -/
theorem cast_S2_S2x1_apply (x : FVec Ideal S2 .f32) (h : S2.ShapeCasts S2x1) (b : Fin 2) :
    shapeCast S2x1 x h (ix2 b (0 : Fin 1)) = x (ix1 b) := by
  refine shapeCast_apply x h _ (ix1 b) ?_
  rw [Shape.rowMajor_val_one, Shape.rowMajor_val_two]
  show b.val = b.val * 1 + 0
  omega

/-- The index a reduction over axis 1 of a [2,1000] vector inserts. -/
theorem lift_S2x1000 (h : S2x1000.Reduces [1] S2) (b : Fin 2) (k : Fin 1000) :
    h.lift (ix1 b) k = ix2 b k := by
  funext a
  refine Fin.ext ?_
  match a with
  | ⟨0, _⟩ => rfl
  | ⟨1, _⟩ => rfl

/-- The running maximum before its final identity cast, at (b, 0). -/
theorem pay8_apply (v34 : FVec Ideal S2000x1 .f32) (v35 : Vec Ideal S1 .f32) (ms : Vec Ideal S2x1 .f32) (b : Fin 2) :
    k0_pay8 (F := Ideal) v34 v35 ms (ix2 b (0 : Fin 1))
      = max (ms (ix2 b (0 : Fin 1)))
          ((Finset.univ : Finset (Fin 1000)).fold max ⊥ fun k => k0_pay7 (F := Ideal) v34 v35 (ix2 b k)) := by
  unfold k0_pay8
  refine (maximumf_apply _ _ _).trans ?_
  refine congrArg (max (ms (ix2 b (0 : Fin 1)))) ?_
  refine (cast_S2_S2x1_apply _ _ b).trans ?_
  refine (Ideal.multiReduction_maximumf_single _ _ _ _ _ _).trans ?_
  show (Finset.univ : Finset (Fin 1000)).fold max (Ideal.ofBits .f32 0xFF800000#32) _ = _
  rw [ofBits_neg_inf_f32]
  refine congrArg (fun f => (Finset.univ : Finset (Fin 1000)).fold max (⊥ : EReal) f) (funext fun k => ?_)
  exact congrArg (k0_pay7 (F := Ideal) v34 v35) (lift_S2x1000 _ b k)

/-- The stored maximum is the running maximum: a cast to the same shape. -/
theorem pay13_eq_pay8 (v34 : FVec Ideal S2000x1 .f32) (v35 : Vec Ideal S1 .f32) (ms : Vec Ideal S2x1 .f32) :
    k0_pay13 (F := Ideal) v34 v35 ms = k0_pay8 (F := Ideal) v34 v35 ms := by
  unfold k0_pay13
  exact shapeCast_self _ _

/-- The new maximum of bag b: the old one against the largest score of the tile. -/
theorem pay13_apply (v34 : FVec Ideal S2000x1 .f32) (v35 : Vec Ideal S1 .f32) (ms : Vec Ideal S2x1 .f32) (b : Fin 2) :
    k0_pay13 (F := Ideal) v34 v35 ms (ix2 b (0 : Fin 1))
      = max (ms (ix2 b (0 : Fin 1)))
          ((Finset.univ : Finset (Fin 1000)).fold max ⊥ fun k => k0_pay7 (F := Ideal) v34 v35 (ix2 b k)) := by
  rw [pay13_eq_pay8]
  exact pay8_apply v34 v35 ms b

/-- The old state's rescaling factor at an index. -/
theorem pay9_apply (v34 : FVec Ideal S2000x1 .f32) (v35 : Vec Ideal S1 .f32) (ms : Vec Ideal S2x1 .f32) (i : S2x1.Idx) :
    k0_pay9 (F := Ideal) v34 v35 ms i = Ideal.exp (ms i - k0_pay13 (F := Ideal) v34 v35 ms i) := by
  rw [pay13_eq_pay8]
  rfl

/-- The broadcast of a [2,1] vector along the tile read at (b, k). -/
theorem bcast_S2x1_S2x1000_apply (x : FVec Ideal S2x1 .f32) (h : S2x1.Broadcasts S2x1000) (b : Fin 2) (k : Fin 1000) :
    broadcastTo S2x1000 x h (ix2 b k) = x (ix2 b (0 : Fin 1)) := by
  refine broadcastTo_apply x h _ (ix2 b (0 : Fin 1)) fun a => ?_
  match a with
  | ⟨0, _⟩ => show b.val = if (2 : Nat) = 1 then 0 else b.val; rw [if_neg (by decide)]
  | ⟨1, _⟩ => show 0 = if (1 : Nat) = 1 then 0 else k.val; rw [if_pos rfl]

/-- The tile's weights at an index. -/
theorem pay10_apply (v34 : FVec Ideal S2000x1 .f32) (v35 : Vec Ideal S1 .f32) (ms : Vec Ideal S2x1 .f32) (b : Fin 2) (k : Fin 1000) :
    k0_pay10 (F := Ideal) v34 v35 ms (ix2 b k)
      = Ideal.exp (k0_pay7 (F := Ideal) v34 v35 (ix2 b k) - k0_pay13 (F := Ideal) v34 v35 ms (ix2 b (0 : Fin 1))) := by
  rw [pay13_eq_pay8]
  unfold k0_pay10
  show Ideal.exp (k0_pay7 (F := Ideal) v34 v35 (ix2 b k) - broadcastTo S2x1000 (k0_pay8 (F := Ideal) v34 v35 ms) broadcasts_S2x1_S2x1000 (ix2 b k)) = _
  rw [bcast_S2x1_S2x1000_apply]

/-- The new normaliser of bag b. -/
theorem pay11_apply (v34 : FVec Ideal S2000x1 .f32) (v35 : Vec Ideal S1 .f32) (ms ls : Vec Ideal S2x1 .f32) (b : Fin 2) :
    k0_pay11 (F := Ideal) v34 v35 ms ls (ix2 b (0 : Fin 1))
      = Ideal.exp (ms (ix2 b (0 : Fin 1)) - k0_pay13 (F := Ideal) v34 v35 ms (ix2 b (0 : Fin 1))) * ls (ix2 b (0 : Fin 1))
        + ∑ k : Fin 1000, Ideal.exp (k0_pay7 (F := Ideal) v34 v35 (ix2 b k) - k0_pay13 (F := Ideal) v34 v35 ms (ix2 b (0 : Fin 1))) := by
  unfold k0_pay11
  rw [shapeCast_self]
  refine (addf_apply _ _ _).trans ?_
  refine congrArg₂ (· + ·) ?_ ?_
  · refine (mulf_apply _ _ _).trans ?_
    rw [pay9_apply]
  · refine (cast_S2_S2x1_apply _ _ b).trans ?_
    refine (Ideal.multiReduction_add_single _ _ _ _ _ _).trans ?_
    refine Finset.sum_congr rfl fun k _ => ?_
    refine (congrArg (k0_pay10 (F := Ideal) v34 v35 ms) (lift_S2x1000 _ b k)).trans ?_
    exact pay10_apply v34 v35 ms b k

/-! The operand indices of the batched product, axis by axis: the batch axis 0 reads the result's axis 0, the
    free axis reads the result's, the contracted axis reads the contraction coordinate. -/

theorem lhs_mm_0 (i : S2x1x512.Idx) (q : dot_S2x1x1000_S2x1000x512_S2x1x512_2_1_1_2_0_0.contr.Idx) :
    (dot_S2x1x1000_S2x1000x512_S2x1x512_2_1_1_2_0_0.lhsIdx i q 0).val = (i 0).val := by
  unfold DotDims.lhsIdx
  rw [dif_pos (show (0 : Fin S2x1x1000.rank) ∈ dot_S2x1x1000_S2x1000x512_S2x1x512_2_1_1_2_0_0.lhsBatch by decide)]
  rfl
theorem lhs_mm_1 (i : S2x1x512.Idx) (q : dot_S2x1x1000_S2x1000x512_S2x1x512_2_1_1_2_0_0.contr.Idx) :
    (dot_S2x1x1000_S2x1000x512_S2x1x512_2_1_1_2_0_0.lhsIdx i q 1).val = (i 1).val := by
  unfold DotDims.lhsIdx
  rw [dif_neg (show ¬(1 : Fin S2x1x1000.rank) ∈ dot_S2x1x1000_S2x1000x512_S2x1x512_2_1_1_2_0_0.lhsBatch by decide), dif_pos (show (1 : Fin S2x1x1000.rank) ∈ dot_S2x1x1000_S2x1000x512_S2x1x512_2_1_1_2_0_0.lhsNonContracting by decide)]
  rfl
theorem lhs_mm_2 (i : S2x1x512.Idx) (q : dot_S2x1x1000_S2x1000x512_S2x1x512_2_1_1_2_0_0.contr.Idx) :
    (dot_S2x1x1000_S2x1000x512_S2x1x512_2_1_1_2_0_0.lhsIdx i q 2).val = (q ⟨0, by decide⟩).val :=
  dot_S2x1x1000_S2x1000x512_S2x1x512_2_1_1_2_0_0.lhsIdx_val_of_single rfl i q
theorem rhs_mm_0 (i : S2x1x512.Idx) (q : dot_S2x1x1000_S2x1000x512_S2x1x512_2_1_1_2_0_0.contr.Idx) :
    (dot_S2x1x1000_S2x1000x512_S2x1x512_2_1_1_2_0_0.rhsIdx i q 0).val = (i 0).val := by
  unfold DotDims.rhsIdx
  rw [dif_pos (show (0 : Fin S2x1000x512.rank) ∈ dot_S2x1x1000_S2x1000x512_S2x1x512_2_1_1_2_0_0.rhsBatch by decide)]
  rfl
theorem rhs_mm_1 (i : S2x1x512.Idx) (q : dot_S2x1x1000_S2x1000x512_S2x1x512_2_1_1_2_0_0.contr.Idx) :
    (dot_S2x1x1000_S2x1000x512_S2x1x512_2_1_1_2_0_0.rhsIdx i q 1).val = (q ⟨0, by decide⟩).val :=
  dot_S2x1x1000_S2x1000x512_S2x1x512_2_1_1_2_0_0.rhsIdx_val_of_single rfl i q
theorem rhs_mm_2 (i : S2x1x512.Idx) (q : dot_S2x1x1000_S2x1000x512_S2x1x512_2_1_1_2_0_0.contr.Idx) :
    (dot_S2x1x1000_S2x1000x512_S2x1x512_2_1_1_2_0_0.rhsIdx i q 2).val = (i 2).val := by
  unfold DotDims.rhsIdx
  rw [dif_neg (show ¬(2 : Fin S2x1000x512.rank) ∈ dot_S2x1x1000_S2x1000x512_S2x1x512_2_1_1_2_0_0.rhsBatch by decide), dif_pos (show (2 : Fin S2x1000x512.rank) ∈ dot_S2x1x1000_S2x1000x512_S2x1x512_2_1_1_2_0_0.rhsNonContracting by decide)]
  rfl

/-- The batched product of [2,1,1000] weights with [2,1000,512] rows into the zero accumulator, read at (b, 0, e). -/
theorem mm_apply (w : FVec Ideal S2x1x1000 .bf16) (x : FVec Ideal S2x1000x512 .bf16) (b : Fin 2) (e : Fin 512) :
    matmul dot_S2x1x1000_S2x1000x512_S2x1x512_2_1_1_2_0_0 none w x (constant S2x1x512 .f32 0x00000000#32) (ix3 b (0 : Fin 1) e)
      = ∑ k : Fin 1000, w (ix3 b (0 : Fin 1) k) * x (ix3 b k e) := by
  refine (Ideal.matmul_constant_zero_apply dot_S2x1x1000_S2x1000x512_S2x1x512_2_1_1_2_0_0 none w x (ix3 b (0 : Fin 1) e)).trans ?_
  rw [← Equiv.sum_comp (contrEquiv1 dot_S2x1x1000_S2x1000x512_S2x1x512_2_1_1_2_0_0 1000 rfl rfl).symm]
  refine Finset.sum_congr rfl fun k _ => ?_
  have hk := contrEquiv1_symm_val dot_S2x1x1000_S2x1000x512_S2x1x512_2_1_1_2_0_0 1000 rfl rfl k
  have el : dot_S2x1x1000_S2x1000x512_S2x1x512_2_1_1_2_0_0.lhsIdx (ix3 b (0 : Fin 1) e) ((contrEquiv1 dot_S2x1x1000_S2x1000x512_S2x1x512_2_1_1_2_0_0 1000 rfl rfl).symm k) = ix3 b (0 : Fin 1) k := funext fun a => Fin.ext (by
    match a with
    | ⟨0, _⟩ => exact lhs_mm_0 _ _
    | ⟨1, _⟩ => exact lhs_mm_1 _ _
    | ⟨2, _⟩ => exact (lhs_mm_2 _ _).trans hk)
  have er : dot_S2x1x1000_S2x1000x512_S2x1x512_2_1_1_2_0_0.rhsIdx (ix3 b (0 : Fin 1) e) ((contrEquiv1 dot_S2x1x1000_S2x1000x512_S2x1x512_2_1_1_2_0_0 1000 rfl rfl).symm k) = ix3 b k e := funext fun a => Fin.ext (by
    match a with
    | ⟨0, _⟩ => exact rhs_mm_0 _ _
    | ⟨1, _⟩ => exact (rhs_mm_1 _ _).trans hk
    | ⟨2, _⟩ => exact rhs_mm_2 _ _)
  rw [el, er]

/-- A [2,1] vector cast to [2,1,1] and broadcast along the last axis, read at (b, 0, e). -/
theorem col_apply (x : FVec Ideal S2x1 .f32) (h1 : S2x1.ShapeCasts S2x1x1) (h2 : S2x1x1.Broadcasts S2x1x512) (b : Fin 2) (e : Fin 512) :
    broadcastTo S2x1x512 (shapeCast S2x1x1 x h1) h2 (ix3 b (0 : Fin 1) e) = x (ix2 b (0 : Fin 1)) := by
  refine (broadcastTo_apply _ _ _ (ix3 b (0 : Fin 1) (0 : Fin 1)) fun a => ?_).trans ?_
  · match a with
    | ⟨0, _⟩ => show b.val = if (2 : Nat) = 1 then 0 else b.val; rw [if_neg (by decide)]
    | ⟨1, _⟩ => show 0 = if (1 : Nat) = 1 then 0 else 0; rw [if_pos rfl]
    | ⟨2, _⟩ => show 0 = if (1 : Nat) = 1 then 0 else e.val; rw [if_pos rfl]
  refine shapeCast_apply _ _ _ (ix2 b (0 : Fin 1)) ?_
  rw [Shape.rowMajor_val_two, Shape.rowMajor_val_three]
  show b.val * 1 + 0 = (b.val * 1 + 0) * 1 + 0
  omega

/-- The cast of a [2,1000] vector to [2,1,1000] read at (b, 0, k). -/
theorem cast_S2x1000_S2x1x1000_apply (x : FVec Ideal S2x1000 .f32) (h : S2x1000.ShapeCasts S2x1x1000) (b : Fin 2) (k : Fin 1000) :
    shapeCast S2x1x1000 x h (ix3 b (0 : Fin 1) k) = x (ix2 b k) := by
  refine shapeCast_apply x h _ (ix2 b k) ?_
  rw [Shape.rowMajor_val_two, Shape.rowMajor_val_three]
  show b.val * 1000 + k.val = (b.val * 1 + 0) * 1000 + k.val
  omega

/-- The cast of the [2000,512] rows to [2,1000,512] read at (b, k, e): row 1000·b + k. -/
theorem cast_S2000x512_S2x1000x512_apply (x : FVec Ideal S2000x512 .bf16) (h : S2000x512.ShapeCasts S2x1000x512)
    (b : Fin 2) (k : Fin 1000) (e : Fin 512) :
    shapeCast S2x1000x512 x h (ix3 b k e) = x (ix2 (⟨1000 * b.val + k.val, by omega⟩ : Fin 2000) e) := by
  refine shapeCast_apply x h _ (ix2 (⟨1000 * b.val + k.val, by omega⟩ : Fin 2000) e) ?_
  rw [Shape.rowMajor_val_two, Shape.rowMajor_val_three]
  show (1000 * b.val + k.val) * 512 + e.val = (b.val * 1000 + k.val) * 512 + e.val
  omega

/-- The new weighted sum of bag b at coordinate e. -/
theorem pay12_apply (v13 : FVec Ideal S2000x512 .bf16) (v34 : FVec Ideal S2000x1 .f32) (v35 : Vec Ideal S1 .f32)
    (ms : Vec Ideal S2x1 .f32) (acc : Vec Ideal S2x1x512 .f32) (b : Fin 2) (e : Fin 512) :
    k0_pay12 (F := Ideal) v13 v34 v35 ms acc (ix3 b (0 : Fin 1) e)
      = Ideal.exp (ms (ix2 b (0 : Fin 1)) - k0_pay13 (F := Ideal) v34 v35 ms (ix2 b (0 : Fin 1))) * acc (ix3 b (0 : Fin 1) e)
        + ∑ k : Fin 1000, Ideal.exp (k0_pay7 (F := Ideal) v34 v35 (ix2 b k) - k0_pay13 (F := Ideal) v34 v35 ms (ix2 b (0 : Fin 1)))
            * v13 (ix2 (⟨1000 * b.val + k.val, by omega⟩ : Fin 2000) e) := by
  unfold k0_pay12
  rw [shapeCast_self]
  refine (addf_apply _ _ _).trans ?_
  refine congrArg₂ (· + ·) ?_ ?_
  · refine (mulf_apply _ _ _).trans ?_
    refine congrArg (· * acc (ix3 b (0 : Fin 1) e)) ?_
    refine (col_apply _ _ _ b e).trans ?_
    exact pay9_apply v34 v35 ms _
  · refine (mm_apply _ _ b e).trans ?_
    refine Finset.sum_congr rfl fun k _ => ?_
    refine congrArg₂ (· * ·) ?_ ?_
    · refine (truncf_apply (φ := .f32) (ψ := .bf16) _ bitsLt_bf16_f32 _).trans ?_
      refine (cast_S2x1000_S2x1x1000_apply _ _ b k).trans ?_
      exact pay10_apply v34 v35 ms b k
    · exact cast_S2000x512_S2x1000x512_apply v13 _ b k e

/-- The output block: the weighted sum over the normaliser. -/
theorem pay1_apply (v76 : Vec Ideal S2x1x512 .f32) (v77 : Vec Ideal S2x1 .f32) (b : Fin 2) (e : Fin 512) :
    k0_pay1 (F := Ideal) v76 v77 (ix3 (0 : Fin 1) b e) = Ideal.div (v76 (ix3 b (0 : Fin 1) e)) (v77 (ix2 b (0 : Fin 1))) := by
  unfold k0_pay1
  refine (shapeCast_apply _ _ _ (ix2 b e) ?_).trans ?_
  · rw [Shape.rowMajor_val_two, Shape.rowMajor_val_three]
    show b.val * 512 + e.val = ((0 * 2 + b.val) * 512 + e.val)
    omega
  refine (shapeCast_apply _ _ _ (ix3 b (0 : Fin 1) e) ?_).trans ?_
  · rw [Shape.rowMajor_val_two, Shape.rowMajor_val_three]
    show (b.val * 1 + 0) * 512 + e.val = b.val * 512 + e.val
    omega
  refine (divf_apply _ _ _).trans ?_
  exact congrArg (Ideal.div (v76 (ix3 b (0 : Fin 1) e))) (col_apply v77 _ _ b e)

end Cert.Abmil.Soft

end
-- ==== Proof.StepMath.lean ====
/-
  One tile's step of the running maximum, normaliser and weighted sum of bag b, from the tile's input blocks: the
  body's arithmetic read at an index, with the tile's scores and embeddings named.
-/
import proofs.«407322_j11776800326091_3_alg».proof.Proof.BlockMath
import proofs.«407322_j11776800326091_3_alg».proof.Proof.SoftState

noncomputable section

namespace Cert.Abmil.Step

open Idealize.ShloMosaic Idealize.ShloMosaic.ValueIdx Cert.KernelIdeal Cert.KernelIdeal.Gen
open scoped BigOperators

variable (x0 : Vec Ideal S2x1000x1024 .f32) (x1 : Vec Ideal S1024x512 .bf16) (x2 : Vec Ideal S512 .f32)
  (x3 : Vec Ideal S512x128 .bf16) (x4 : Vec Ideal S128 .f32) (x5 : Vec Ideal S512x128 .bf16) (x6 : Vec Ideal S128 .f32)
  (x7 : Vec Ideal S128x1 .bf16) (x8 : Vec Ideal S1 .f32)

/-- The largest score of bag b in the tile. -/
def tileMax (b : Fin 2) : EReal :=
  (Finset.univ : Finset (Fin 1000)).fold max ⊥ fun k => Cert.Abmil.bScore x0 x1 x2 x3 x4 x5 x6 x7 x8 b k

/-- The new maximum. -/
theorem new_max (ms : Vec Ideal S2x1 .f32) (b : Fin 2) :
    k0_pay13 (F := Ideal) (k0_pay6 x0 x1 x2 x3 x4 x5 x6 x7) x8 ms (ix2 b (0 : Fin 1))
      = max (ms (ix2 b (0 : Fin 1))) (tileMax x0 x1 x2 x3 x4 x5 x6 x7 x8 b) := by
  rw [Cert.Abmil.Soft.pay13_apply]
  unfold tileMax
  simp only [Cert.Abmil.Block.pay7_apply]

/-- The new normaliser. -/
theorem new_den (ms ls : Vec Ideal S2x1 .f32) (b : Fin 2) :
    k0_pay11 (F := Ideal) (k0_pay6 x0 x1 x2 x3 x4 x5 x6 x7) x8 ms ls (ix2 b (0 : Fin 1))
      = Ideal.exp (ms (ix2 b (0 : Fin 1)) - max (ms (ix2 b (0 : Fin 1))) (tileMax x0 x1 x2 x3 x4 x5 x6 x7 x8 b))
          * ls (ix2 b (0 : Fin 1))
        + ∑ k : Fin 1000, Ideal.exp (Cert.Abmil.bScore x0 x1 x2 x3 x4 x5 x6 x7 x8 b k
            - max (ms (ix2 b (0 : Fin 1))) (tileMax x0 x1 x2 x3 x4 x5 x6 x7 x8 b)) := by
  rw [Cert.Abmil.Soft.pay11_apply, new_max]
  simp only [Cert.Abmil.Block.pay7_apply]

/-- The new weighted sum at coordinate e. -/
theorem new_acc (ms : Vec Ideal S2x1 .f32) (acc : Vec Ideal S2x1x512 .f32) (b : Fin 2) (e : Fin 512) :
    k0_pay12 (F := Ideal) (k0_pay5 x0 x1 x2) (k0_pay6 x0 x1 x2 x3 x4 x5 x6 x7) x8 ms acc (ix3 b (0 : Fin 1) e)
      = Ideal.exp (ms (ix2 b (0 : Fin 1)) - max (ms (ix2 b (0 : Fin 1))) (tileMax x0 x1 x2 x3 x4 x5 x6 x7 x8 b))
          * acc (ix3 b (0 : Fin 1) e)
        + ∑ k : Fin 1000, Ideal.exp (Cert.Abmil.bScore x0 x1 x2 x3 x4 x5 x6 x7 x8 b k
            - max (ms (ix2 b (0 : Fin 1))) (tileMax x0 x1 x2 x3 x4 x5 x6 x7 x8 b))
            * Cert.Abmil.bEmb x0 x1 x2 b k e := by
  rw [Cert.Abmil.Soft.pay12_apply, new_max]
  simp only [Cert.Abmil.Block.pay7_apply, Cert.Abmil.Block.pay5_apply]

/-! ## The step keeps the online-softmax invariant -/

open Cert.Abmil Cert.OnlineSoftmax

/-- If the block holds tile j of bag B (in its rows of bag b) and the other blocks are the weights, the body's step takes
    the state that has absorbed the tiles in T to the state that has absorbed insert j T. -/
theorem step_inv (A : Args) (hA : A.Real) (B : Fin 4) (j : Fin 20) (T : Finset (Fin 20)) (hj : j ∉ T) (e : Fin 512) (b : Fin 2)
    (h0 : ∀ (k : Fin 1000) (i : Fin 1024), x0 (ix3 b k i) = A.X (ix3 B (inst j k) i))
    (h1 : x1 = A.Wpe) (h2 : x2 = A.bpe) (h3 : x3 = A.WV) (h4 : x4 = A.bV) (h5 : x5 = A.WU) (h6 : x6 = A.bU)
    (h7 : x7 = A.watt) (h8 : x8 = A.batt)
    (ms ls : Vec Ideal S2x1 .f32) (acc : Vec Ideal S2x1x512 .f32)
    (h : Inv (tileScore A B) (tileEmb A B e) T (ms (ix2 b (0 : Fin 1))) (ls (ix2 b (0 : Fin 1))) (acc (ix3 b (0 : Fin 1) e))) :
    Inv (tileScore A B) (tileEmb A B e) (insert j T)
      (k0_pay13 (F := Ideal) (k0_pay6 x0 x1 x2 x3 x4 x5 x6 x7) x8 ms (ix2 b (0 : Fin 1)))
      (k0_pay11 (F := Ideal) (k0_pay6 x0 x1 x2 x3 x4 x5 x6 x7) x8 ms ls (ix2 b (0 : Fin 1)))
      (k0_pay12 (F := Ideal) (k0_pay5 x0 x1 x2) (k0_pay6 x0 x1 x2 x3 x4 x5 x6 x7) x8 ms acc (ix3 b (0 : Fin 1) e)) := by
  subst h1 h2 h3 h4 h5 h6 h7 h8
  have hs : ∀ k : Fin 1000, bScore x0 A.Wpe A.bpe A.WV A.bV A.WU A.bU A.watt A.batt b k = tileScore A B j k :=
    fun k => bScore_eq A x0 B j b k (h0 k)
  have hv : ∀ k : Fin 1000, bEmb x0 A.Wpe A.bpe b k e = tileEmb A B e j k := fun k => bEmb_eq A x0 B j b k (h0 k) e
  have hmax : tileMax x0 A.Wpe A.bpe A.WV A.bV A.WU A.bU A.watt A.batt b = Finset.univ.fold max ⊥ (tileScore A B j) := by
    unfold tileMax
    exact congrArg (fun f : Fin 1000 → EReal => (Finset.univ : Finset (Fin 1000)).fold max ⊥ f) (funext hs)
  refine h.step hj (fun j k => score_real hA B _) (fun j k => emb_real hA B _ e) ?_ ?_ ?_
  · rw [new_max, hmax]
  · rw [new_den, new_max, hmax]
    simp only [hs]
  · rw [new_acc, new_max, hmax]
    simp only [hs, hv]

/-- The same from the reset values −∞, 0, 0: the state that has absorbed tile j alone. -/
theorem first_inv (A : Args) (hA : A.Real) (B : Fin 4) (j : Fin 20) (e : Fin 512) (b : Fin 2)
    (h0 : ∀ (k : Fin 1000) (i : Fin 1024), x0 (ix3 b k i) = A.X (ix3 B (inst j k) i))
    (h1 : x1 = A.Wpe) (h2 : x2 = A.bpe) (h3 : x3 = A.WV) (h4 : x4 = A.bV) (h5 : x5 = A.WU) (h6 : x6 = A.bU)
    (h7 : x7 = A.watt) (h8 : x8 = A.batt) :
    Inv (tileScore A B) (tileEmb A B e) (insert j ∅)
      (k0_pay13 (F := Ideal) (k0_pay6 x0 x1 x2 x3 x4 x5 x6 x7) x8 (k0_pay2 (F := Ideal)) (ix2 b (0 : Fin 1)))
      (k0_pay11 (F := Ideal) (k0_pay6 x0 x1 x2 x3 x4 x5 x6 x7) x8 (k0_pay2 (F := Ideal)) (k0_pay3 (F := Ideal)) (ix2 b (0 : Fin 1)))
      (k0_pay12 (F := Ideal) (k0_pay5 x0 x1 x2) (k0_pay6 x0 x1 x2 x3 x4 x5 x6 x7) x8 (k0_pay2 (F := Ideal)) (k0_pay4 (F := Ideal)) (ix3 b (0 : Fin 1) e)) := by
  refine step_inv x0 x1 x2 x3 x4 x5 x6 x7 x8 A hA B j ∅ (Finset.notMem_empty j) e b h0 h1 h2 h3 h4 h5 h6 h7 h8
    (k0_pay2 (F := Ideal)) (k0_pay3 (F := Ideal)) (k0_pay4 (F := Ideal)) ?_
  rw [Cert.Abmil.Soft.pay2_apply, Cert.Abmil.Soft.pay3_apply, Cert.Abmil.Soft.pay4_apply]
  exact Inv.init _ _

end Cert.Abmil.Step

end
-- ==== Proof.BlockRead.lean ====
/-
  The input blocks of a grid point, read off the argument arrays.  The grid has 2 × 20 points in row-major order:
  point t serves bags 2·(t / 20) and 2·(t / 20) + 1 and tile t % 20.  Block (b, k, i) of the instances' window at point
  t is entry (2·(t / 20) + b, 1000·(t % 20) + k, i) of X; every other window's block is its whole array, and the four
  weight arrays the host converts before the region are, as extended reals, the arguments themselves.
-/
import proofs.«407322_j11776800326091_3_alg».proof.Proof.Gen.KernelIdeal.Frame
import proofs.«407322_j11776800326091_3_alg».proof.Proof.Spec
import Idealize.ShloMosaic.Lib.Pipeline.Value
import Idealize.ShloMosaic.Lib.StableHlo.Run

set_option maxRecDepth 16384

noncomputable section

namespace Cert.Abmil.Blocks

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The block index of the instances' window at point t: (t / 20, t % 20, 0). -/
theorem index_x : ∀ t : Fin cfg0.N, win0_0.index t 0 = t.val / 20 ∧ win0_0.index t 1 = t.val % 20 ∧ win0_0.index t 2 = 0 :=
  (by decide +kernel : ∀ t : Fin grid0.N, win0_0.index t 0 = t.val / 20 ∧ win0_0.index t 1 = t.val % 20 ∧ win0_0.index t 2 = 0)

/-- The instances' block at point t. -/
theorem iblk_x (c : Dev nD) (t : Fin cfg0.N) (b : Fin 2) (k : Fin 1000) (i : Fin 1024) (B : Fin 4) (j : Fin 20)
    (hB : B.val = 2 * (t.val / 20) + b.val) (hj : j.val = t.val % 20) :
    (iblk m c 0 t : Vec Ideal S2x1000x1024 .f32) (ix3 b k i)
      = m ((c : Thread nD τ).loc main_arg0) (ix3 B (Cert.Abmil.inst j k) i) := by
  obtain ⟨h0, h1, h2⟩ := index_x t
  unfold iblk
  rw [View.read_apply]
  show V m c main_arg0 _ = m (c.tc.loc main_arg0) _
  rw [V_main_arg0]
  congr 1
  funext a
  apply Fin.ext
  match a with
  | ⟨0, _⟩ => show win0_0.index t 0 * 2 + 1 * b.val = B.val; rw [h0, hB]; omega
  | ⟨1, _⟩ => show win0_0.index t 1 * 1000 + 1 * k.val = 1000 * j.val + k.val; rw [h1, hj]; omega
  | ⟨2, _⟩ => show win0_0.index t 2 * 1024 + 1 * i.val = i.val; rw [h2]; omega

/-! ## The other windows -/

theorem index_w1 : ∀ t : Fin cfg0.N, win0_1.index t 0 = 0 ∧ win0_1.index t 1 = 0 :=
  (by decide +kernel : ∀ t : Fin grid0.N, win0_1.index t 0 = 0 ∧ win0_1.index t 1 = 0)

/-- Window 1's block is its whole array. -/
theorem iblk_w1 (c : Dev nD) (t : Fin cfg0.N) : (iblk m c 1 t : Vec Ideal S1024x512 .bf16) = V m c main_v0 := by
  obtain ⟨h0, h1⟩ := index_w1 t
  funext y
  unfold iblk
  rw [View.read_apply]
  show V m c main_v0 _ = V m c main_v0 y
  congr 1
  funext a
  apply Fin.ext
  match a with
  | ⟨0, _⟩ => show win0_1.index t 0 * 1024 + 1 * (y 0).val = (y 0).val; rw [h0]; omega
  | ⟨1, _⟩ => show win0_1.index t 1 * 512 + 1 * (y 1).val = (y 1).val; rw [h1]; omega

theorem index_w2 : ∀ t : Fin cfg0.N, win0_2.index t 0 = 0 :=
  (by decide +kernel : ∀ t : Fin grid0.N, win0_2.index t 0 = 0)

/-- Window 2's block is its whole array. -/
theorem iblk_w2 (c : Dev nD) (t : Fin cfg0.N) : (iblk m c 2 t : Vec Ideal S512 .f32) = V m c main_arg2 := by
  have h0 := index_w2 t
  funext y
  unfold iblk
  rw [View.read_apply]
  show V m c main_arg2 _ = V m c main_arg2 y
  congr 1
  funext a
  apply Fin.ext
  match a with
  | ⟨0, _⟩ => show win0_2.index t 0 * 512 + 1 * (y 0).val = (y 0).val; rw [h0]; omega

theorem index_w3 : ∀ t : Fin cfg0.N, win0_3.index t 0 = 0 ∧ win0_3.index t 1 = 0 :=
  (by decide +kernel : ∀ t : Fin grid0.N, win0_3.index t 0 = 0 ∧ win0_3.index t 1 = 0)

/-- Window 3's block is its whole array. -/
theorem iblk_w3 (c : Dev nD) (t : Fin cfg0.N) : (iblk m c 3 t : Vec Ideal S512x128 .bf16) = V m c main_v1 := by
  obtain ⟨h0, h1⟩ := index_w3 t
  funext y
  unfold iblk
  rw [View.read_apply]
  show V m c main_v1 _ = V m c main_v1 y
  congr 1
  funext a
  apply Fin.ext
  match a with
  | ⟨0, _⟩ => show win0_3.index t 0 * 512 + 1 * (y 0).val = (y 0).val; rw [h0]; omega
  | ⟨1, _⟩ => show win0_3.index t 1 * 128 + 1 * (y 1).val = (y 1).val; rw [h1]; omega

theorem index_w4 : ∀ t : Fin cfg0.N, win0_4.index t 0 = 0 :=
  (by decide +kernel : ∀ t : Fin grid0.N, win0_4.index t 0 = 0)

/-- Window 4's block is its whole array. -/
theorem iblk_w4 (c : Dev nD) (t : Fin cfg0.N) : (iblk m c 4 t : Vec Ideal S128 .f32) = V m c main_arg4 := by
  have h0 := index_w4 t
  funext y
  unfold iblk
  rw [View.read_apply]
  show V m c main_arg4 _ = V m c main_arg4 y
  congr 1
  funext a
  apply Fin.ext
  match a with
  | ⟨0, _⟩ => show win0_4.index t 0 * 128 + 1 * (y 0).val = (y 0).val; rw [h0]; omega

theorem index_w5 : ∀ t : Fin cfg0.N, win0_5.index t 0 = 0 ∧ win0_5.index t 1 = 0 :=
  (by decide +kernel : ∀ t : Fin grid0.N, win0_5.index t 0 = 0 ∧ win0_5.index t 1 = 0)

/-- Window 5's block is its whole array. -/
theorem iblk_w5 (c : Dev nD) (t : Fin cfg0.N) : (iblk m c 5 t : Vec Ideal S512x128 .bf16) = V m c main_v2 := by
  obtain ⟨h0, h1⟩ := index_w5 t
  funext y
  unfold iblk
  rw [View.read_apply]
  show V m c main_v2 _ = V m c main_v2 y
  congr 1
  funext a
  apply Fin.ext
  match a with
  | ⟨0, _⟩ => show win0_5.index t 0 * 512 + 1 * (y 0).val = (y 0).val; rw [h0]; omega
  | ⟨1, _⟩ => show win0_5.index t 1 * 128 + 1 * (y 1).val = (y 1).val; rw [h1]; omega

theorem index_w6 : ∀ t : Fin cfg0.N, win0_6.index t 0 = 0 :=
  (by decide +kernel : ∀ t : Fin grid0.N, win0_6.index t 0 = 0)

/-- Window 6's block is its whole array. -/
theorem iblk_w6 (c : Dev nD) (t : Fin cfg0.N) : (iblk m c 6 t : Vec Ideal S128 .f32) = V m c main_arg6 := by
  have h0 := index_w6 t
  funext y
  unfold iblk
  rw [View.read_apply]
  show V m c main_arg6 _ = V m c main_arg6 y
  congr 1
  funext a
  apply Fin.ext
  match a with
  | ⟨0, _⟩ => show win0_6.index t 0 * 128 + 1 * (y 0).val = (y 0).val; rw [h0]; omega

theorem index_w7 : ∀ t : Fin cfg0.N, win0_7.index t 0 = 0 ∧ win0_7.index t 1 = 0 :=
  (by decide +kernel : ∀ t : Fin grid0.N, win0_7.index t 0 = 0 ∧ win0_7.index t 1 = 0)

/-- Window 7's block is its whole array. -/
theorem iblk_w7 (c : Dev nD) (t : Fin cfg0.N) : (iblk m c 7 t : Vec Ideal S128x1 .bf16) = V m c main_v3 := by
  obtain ⟨h0, h1⟩ := index_w7 t
  funext y
  unfold iblk
  rw [View.read_apply]
  show V m c main_v3 _ = V m c main_v3 y
  congr 1
  funext a
  apply Fin.ext
  match a with
  | ⟨0, _⟩ => show win0_7.index t 0 * 128 + 1 * (y 0).val = (y 0).val; rw [h0]; omega
  | ⟨1, _⟩ => show win0_7.index t 1 * 1 + 1 * (y 1).val = (y 1).val; rw [h1]; omega

theorem index_w8 : ∀ t : Fin cfg0.N, win0_8.index t 0 = 0 :=
  (by decide +kernel : ∀ t : Fin grid0.N, win0_8.index t 0 = 0)

/-- Window 8's block is its whole array. -/
theorem iblk_w8 (c : Dev nD) (t : Fin cfg0.N) : (iblk m c 8 t : Vec Ideal S1 .f32) = V m c main_arg8 := by
  have h0 := index_w8 t
  funext y
  unfold iblk
  rw [View.read_apply]
  show V m c main_arg8 _ = V m c main_arg8 y
  congr 1
  funext a
  apply Fin.ext
  match a with
  | ⟨0, _⟩ => show win0_8.index t 0 * 1 + 1 * (y 0).val = (y 0).val; rw [h0]; omega

/-! ## The converted weights -/

/-- The array the host converts from argument main_arg1 is, as extended reals, that argument. -/
theorem V_main_v0 (c : Dev nD) : (V m c main_v0 : S1024x512.Idx → EReal) = m ((c : Thread nD τ).loc main_arg1) := by
  show StableHlo.after hostOps0 (fun b => m (c, b)) (Proc.devRef .tc main_v0) = _
  after_results
  rfl

/-- The array the host converts from argument main_arg3 is, as extended reals, that argument. -/
theorem V_main_v1 (c : Dev nD) : (V m c main_v1 : S512x128.Idx → EReal) = m ((c : Thread nD τ).loc main_arg3) := by
  show StableHlo.after hostOps0 (fun b => m (c, b)) (Proc.devRef .tc main_v1) = _
  after_results
  rfl

/-- The array the host converts from argument main_arg5 is, as extended reals, that argument. -/
theorem V_main_v2 (c : Dev nD) : (V m c main_v2 : S512x128.Idx → EReal) = m ((c : Thread nD τ).loc main_arg5) := by
  show StableHlo.after hostOps0 (fun b => m (c, b)) (Proc.devRef .tc main_v2) = _
  after_results
  rfl

/-- The array the host converts from argument main_arg7 is, as extended reals, that argument. -/
theorem V_main_v3 (c : Dev nD) : (V m c main_v3 : S128x1.Idx → EReal) = m ((c : Thread nD τ).loc main_arg7) := by
  show StableHlo.after hostOps0 (fun b => m (c, b)) (Proc.devRef .tc main_v3) = _
  after_results
  rfl

end Cert.Abmil.Blocks

end
-- ==== Proof.Invariant.lean ====
/-
  After grid point n the three carried buffers hold, for each of the point's two bags, the online-softmax state that has
  absorbed the bag's tiles 0 … n % 20: by induction on the point.  At a bag's first tile the body resets the buffers and
  steps once; at every later tile it steps from what the point before left.
-/
import proofs.«407322_j11776800326091_3_alg».proof.Proof.Pieces
import proofs.«407322_j11776800326091_3_alg».proof.Proof.StepMath
import proofs.«407322_j11776800326091_3_alg».proof.Proof.BlockRead

set_option maxRecDepth 16384

noncomputable section

namespace Cert.Abmil.Invariant

open Idealize.ShloMosaic Idealize.ShloMosaic.TcCoe Idealize.ShloMosaic.ValueIdx Idealize.SL.Sem Cert.KernelIdeal Cert.KernelIdeal.Gen
open Cert.Abmil Cert.OnlineSoftmax

variable (m : (ℓ : Loc nD τ sig) → Buf (Elt Ideal) ℓ)

/-- The argument arrays on core c. -/
abbrev args (c : Dev nD) : Args :=
  mkArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The bag that row b of point n's blocks belongs to. -/
def bagOf (n : ℕ) (b : Fin 2) : Fin 4 := ⟨(2 * (n / 20) + b.val) % 4, Nat.mod_lt _ (by decide)⟩

/-- The tile point n serves. -/
def tileOf (n : ℕ) : Fin 20 := ⟨n % 20, Nat.mod_lt _ (by decide)⟩

/-- The tiles 0 … j. -/
def upTo (j : ℕ) : Finset (Fin 20) := Finset.univ.filter fun x => x.val ≤ j

theorem upTo_zero : upTo 0 = insert (tileOf 0) ∅ := by decide

theorem upTo_succ (j : ℕ) (hj : j + 1 < 20) : upTo (j + 1) = insert (⟨j + 1, hj⟩ : Fin 20) (upTo j) := by
  ext x
  simp only [upTo, Finset.mem_filter, Finset.mem_univ, true_and, Finset.mem_insert]
  constructor
  · intro h
    by_cases hx : x.val = j + 1
    · exact Or.inl (Fin.ext hx)
    · exact Or.inr (by omega)
  · rintro (rfl | h)
    · exact le_rfl
    · omega

theorem not_mem_upTo (j : ℕ) (hj : j + 1 < 20) : (⟨j + 1, hj⟩ : Fin 20) ∉ upTo j := by
  simp only [upTo, Finset.mem_filter, Finset.mem_univ, true_and]
  omega

/-- The state after point n is the online-softmax state of each of its bags over the tiles 0 … n % 20. -/
def InvAt (c : Dev nD) (n : ℕ) (h : n < cfg0.N) : Prop :=
  ∀ (b : Fin 2) (e : Fin 512),
    Inv (tileScore (args m c) (bagOf n b)) (tileEmb (args m c) (bagOf n b) e) (upTo (n % 20))
      ((outsAt0 m c n h).2.1 (ix2 b (0 : Fin 1))) ((outsAt0 m c n h).2.2.1 (ix2 b (0 : Fin 1)))
      ((outsAt0 m c n h).2.2.2 (ix3 b (0 : Fin 1) e))

section Blocks

variable (c : Dev nD) (t : Fin cfg0.N)

theorem hN : cfg0.N = 40 := N_0

/-- The instances' block at t holds tile t % 20 of the bags of t. -/
theorem x_block (b : Fin 2) (k : Fin 1000) (i : Fin 1024) :
    (iblk m c 0 t : Vec Ideal S2x1000x1024 .f32) (ix3 b k i)
      = (args m c).X (ix3 (bagOf t.val b) (inst (tileOf t.val) k) i) := by
  have ht : t.val < 40 := lt_of_lt_of_eq t.isLt hN
  refine Cert.Abmil.Blocks.iblk_x m c t b k i (bagOf t.val b) (tileOf t.val) ?_ rfl
  show (2 * (t.val / 20) + b.val) % 4 = 2 * (t.val / 20) + b.val
  have := b.isLt
  omega

theorem w1 : (iblk m c 1 t : Vec Ideal S1024x512 .bf16) = (args m c).Wpe :=
  (Cert.Abmil.Blocks.iblk_w1 m c t).trans (Cert.Abmil.Blocks.V_main_v0 m c)
theorem w2 : (iblk m c 2 t : Vec Ideal S512 .f32) = (args m c).bpe :=
  (Cert.Abmil.Blocks.iblk_w2 m c t).trans (V_main_arg2 m c)
theorem w3 : (iblk m c 3 t : Vec Ideal S512x128 .bf16) = (args m c).WV :=
  (Cert.Abmil.Blocks.iblk_w3 m c t).trans (Cert.Abmil.Blocks.V_main_v1 m c)
theorem w4 : (iblk m c 4 t : Vec Ideal S128 .f32) = (args m c).bV :=
  (Cert.Abmil.Blocks.iblk_w4 m c t).trans (V_main_arg4 m c)
theorem w5 : (iblk m c 5 t : Vec Ideal S512x128 .bf16) = (args m c).WU :=
  (Cert.Abmil.Blocks.iblk_w5 m c t).trans (Cert.Abmil.Blocks.V_main_v2 m c)
theorem w6 : (iblk m c 6 t : Vec Ideal S128 .f32) = (args m c).bU :=
  (Cert.Abmil.Blocks.iblk_w6 m c t).trans (V_main_arg6 m c)
theorem w7 : (iblk m c 7 t : Vec Ideal S128x1 .bf16) = (args m c).watt :=
  (Cert.Abmil.Blocks.iblk_w7 m c t).trans (Cert.Abmil.Blocks.V_main_v3 m c)
theorem w8 : (iblk m c 8 t : Vec Ideal S1 .f32) = (args m c).batt :=
  (Cert.Abmil.Blocks.iblk_w8 m c t).trans (V_main_arg8 m c)

end Blocks

/-- A bag's first tile. -/
theorem inv_first (c : Dev nD) (hA : (args m c).Real) (t : Fin cfg0.N) (h0 : t.val % 20 = 0) (h1 : ¬t.val % 20 = 19) :
    InvAt m c t.val t.isLt := by
  intro b e
  rw [outsAt0_A m c t h0 h1]
  dsimp only
  rw [Cert.Abmil.Pieces.first_max (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t),
    Cert.Abmil.Pieces.first_den (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t),
    Cert.Abmil.Pieces.first_acc (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)]
  have hset : upTo (t.val % 20) = insert (tileOf t.val) ∅ := by
    rw [h0]; exact upTo_zero.trans (by unfold tileOf; simp only [h0, Nat.zero_mod])
  rw [hset]
  exact Cert.Abmil.Step.first_inv (iblk m c 0 t) (iblk m c 1 t) (iblk m c 2 t) (iblk m c 3 t) (iblk m c 4 t) (iblk m c 5 t)
    (iblk m c 6 t) (iblk m c 7 t) (iblk m c 8 t) (args m c) hA (bagOf t.val b) (tileOf t.val) e b
    (fun k i => x_block m c t b k i) (w1 m c t) (w2 m c t) (w3 m c t) (w4 m c t) (w5 m c t) (w6 m c t) (w7 m c t) (w8 m c t)

/-- A middle tile: one step from what the point before left. -/
theorem inv_mid (c : Dev nD) (hA : (args m c).Real) (t : Fin cfg0.N) (h0 : ¬t.val % 20 = 0) (h1 : ¬t.val % 20 = 19)
    (ih : InvAt m c (t.val - 1) (Nat.lt_of_le_of_lt (Nat.sub_le _ _) t.isLt)) : InvAt m c t.val t.isLt := by
  intro b e
  rw [outsAt0_B m c t h0 h1]
  dsimp only
  rw [Cert.Abmil.Pieces.mid_max (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Cert.Abmil.Pieces.mid_den (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Cert.Abmil.Pieces.mid_acc (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  have ht : t.val < 40 := lt_of_lt_of_eq t.isLt hN
  have hbag : bagOf (t.val - 1) b = bagOf t.val b := by
    unfold bagOf
    apply Fin.ext
    show (2 * ((t.val - 1) / 20) + b.val) % 4 = (2 * (t.val / 20) + b.val) % 4
    have : (t.val - 1) / 20 = t.val / 20 := by omega
    rw [this]
  have hlt : (t.val - 1) % 20 + 1 < 20 := by omega
  have hmod : t.val % 20 = (t.val - 1) % 20 + 1 := by omega
  have htile : tileOf t.val = (⟨(t.val - 1) % 20 + 1, hlt⟩ : Fin 20) := Fin.ext hmod
  have hset : upTo (t.val % 20) = insert (tileOf t.val) (upTo ((t.val - 1) % 20)) := by
    rw [hmod, htile]; exact upTo_succ _ hlt
  have hnot : tileOf t.val ∉ upTo ((t.val - 1) % 20) := by rw [htile]; exact not_mem_upTo _ hlt
  have ih' := ih b e
  rw [hbag] at ih'
  rw [hset]
  exact Cert.Abmil.Step.step_inv (iblk m c 0 t) (iblk m c 1 t) (iblk m c 2 t) (iblk m c 3 t) (iblk m c 4 t) (iblk m c 5 t)
    (iblk m c 6 t) (iblk m c 7 t) (iblk m c 8 t) (args m c) hA (bagOf t.val b) (tileOf t.val) (upTo ((t.val - 1) % 20)) hnot e b
    (fun k i => x_block m c t b k i) (w1 m c t) (w2 m c t) (w3 m c t) (w4 m c t) (w5 m c t) (w6 m c t) (w7 m c t) (w8 m c t)
    (outsAt0 m c (t.val - 1) (Nat.lt_of_le_of_lt (Nat.sub_le _ _) t.isLt)).2.1
    (outsAt0 m c (t.val - 1) (Nat.lt_of_le_of_lt (Nat.sub_le _ _) t.isLt)).2.2.1
    (outsAt0 m c (t.val - 1) (Nat.lt_of_le_of_lt (Nat.sub_le _ _) t.isLt)).2.2.2 ih'

/-- The last tile: the same step. -/
theorem inv_last (c : Dev nD) (hA : (args m c).Real) (t : Fin cfg0.N) (h0 : ¬t.val % 20 = 0) (h1 : t.val % 20 = 19)
    (ih : InvAt m c (t.val - 1) (Nat.lt_of_le_of_lt (Nat.sub_le _ _) t.isLt)) : InvAt m c t.val t.isLt := by
  intro b e
  rw [outsAt0_C m c t h0 h1]
  dsimp only
  rw [Cert.Abmil.Pieces.last_max (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Cert.Abmil.Pieces.last_den (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Cert.Abmil.Pieces.last_acc (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  have ht : t.val < 40 := lt_of_lt_of_eq t.isLt hN
  have hbag : bagOf (t.val - 1) b = bagOf t.val b := by
    unfold bagOf
    apply Fin.ext
    show (2 * ((t.val - 1) / 20) + b.val) % 4 = (2 * (t.val / 20) + b.val) % 4
    have : (t.val - 1) / 20 = t.val / 20 := by omega
    rw [this]
  have hlt : (t.val - 1) % 20 + 1 < 20 := by omega
  have hmod : t.val % 20 = (t.val - 1) % 20 + 1 := by omega
  have htile : tileOf t.val = (⟨(t.val - 1) % 20 + 1, hlt⟩ : Fin 20) := Fin.ext hmod
  have hset : upTo (t.val % 20) = insert (tileOf t.val) (upTo ((t.val - 1) % 20)) := by
    rw [hmod, htile]; exact upTo_succ _ hlt
  have hnot : tileOf t.val ∉ upTo ((t.val - 1) % 20) := by rw [htile]; exact not_mem_upTo _ hlt
  have ih' := ih b e
  rw [hbag] at ih'
  rw [hset]
  exact Cert.Abmil.Step.step_inv (iblk m c 0 t) (iblk m c 1 t) (iblk m c 2 t) (iblk m c 3 t) (iblk m c 4 t) (iblk m c 5 t)
    (iblk m c 6 t) (iblk m c 7 t) (iblk m c 8 t) (args m c) hA (bagOf t.val b) (tileOf t.val) (upTo ((t.val - 1) % 20)) hnot e b
    (fun k i => x_block m c t b k i) (w1 m c t) (w2 m c t) (w3 m c t) (w4 m c t) (w5 m c t) (w6 m c t) (w7 m c t) (w8 m c t)
    (outsAt0 m c (t.val - 1) (Nat.lt_of_le_of_lt (Nat.sub_le _ _) t.isLt)).2.1
    (outsAt0 m c (t.val - 1) (Nat.lt_of_le_of_lt (Nat.sub_le _ _) t.isLt)).2.2.1
    (outsAt0 m c (t.val - 1) (Nat.lt_of_le_of_lt (Nat.sub_le _ _) t.isLt)).2.2.2 ih'

/-- The invariant at every point. -/
theorem inv_all (c : Dev nD) (hA : (args m c).Real) : ∀ (n : ℕ) (h : n < cfg0.N), InvAt m c n h
  | 0, h => inv_first m c hA ⟨0, h⟩ rfl (by dsimp only; omega)
  | n + 1, h => by
    have ih := inv_all c hA n (Nat.lt_of_succ_lt h)
    by_cases h0 : (n + 1) % 20 = 0
    · exact inv_first m c hA ⟨n + 1, h⟩ h0 (by dsimp only; omega)
    · by_cases h1 : (n + 1) % 20 = 19
      · exact inv_last m c hA ⟨n + 1, h⟩ h0 h1 ih
      · exact inv_mid m c hA ⟨n + 1, h⟩ h0 h1 ih

end Cert.Abmil.Invariant

end
-- ==== Proof.OutArray.lean ====
/-
  The region's output array.  At a bag's last tile the output block is the weighted sum over the normaliser, which by
  the invariant over all 20 tiles is the bag's pooled embedding; that block is written back to rows (t / 20, ·, ·) of
  the [2, 2, 512] output array, and the two write-backs (points 19 and 39) cover the array.
-/
import proofs.«407322_j11776800326091_3_alg».proof.Proof.Invariant

set_option maxRecDepth 16384

noncomputable section

namespace Cert.Abmil.Out

open Idealize.ShloMosaic Idealize.ShloMosaic.TcCoe Idealize.ShloMosaic.ValueIdx Idealize.SL.Sem Cert.KernelIdeal Cert.KernelIdeal.Gen
open Cert.Abmil Cert.OnlineSoftmax Cert.Abmil.Invariant

variable (m : (ℓ : Loc nD τ sig) → Buf (Elt Ideal) ℓ)

/-- The output array: entry (q, b, e) is coordinate e of the pooled embedding of bag 2·q + b. -/
def outG (A : Args) : (⟨3, ![2, 2, 512]⟩ : Shape).Idx → EReal :=
  fun i => pooled A (⟨(2 * (i 0).val + (i 1).val) % 4, Nat.mod_lt _ (by decide)⟩ : Fin 4)
    (⟨(i 2).val % 512, Nat.mod_lt _ (by decide)⟩ : Fin 512)

theorem upTo_last : upTo 19 = Finset.univ := by decide

/-- The output block at a bag's last tile. -/
theorem out_last (c : Dev nD) (hA : (args m c).Real) (t : Fin cfg0.N) (h0 : ¬t.val % 20 = 0) (h1 : t.val % 20 = 19)
    (b : Fin 2) (e : Fin 512) :
    (outsAt0 m c t.val t.isLt).1 (ix3 (0 : Fin 1) b e) = pooled (args m c) (bagOf t.val b) e := by
  have hI := inv_all m c hA t.val t.isLt b e
  rw [outsAt0_C m c t h0 h1] at hI ⊢
  dsimp only at hI ⊢
  rw [Cert.Abmil.Pieces.last_max (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Cert.Abmil.Pieces.last_den (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Cert.Abmil.Pieces.last_acc (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2] at hI
  rw [Cert.Abmil.Pieces.last_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Cert.Abmil.Soft.pay1_apply]
  rw [h1, upTo_last] at hI
  exact pooled_of_inv hA _ e hI

/-- The block index of the output window at point t: (t / 20, 0, 0). -/
theorem index_o : ∀ t : Fin cfg0.N, win0_9.index t 0 = t.val / 20 ∧ win0_9.index t 1 = 0 ∧ win0_9.index t 2 = 0 :=
  (by decide +kernel : ∀ t : Fin grid0.N, win0_9.index t 0 = t.val / 20 ∧ win0_9.index t 1 = 0 ∧ win0_9.index t 2 = 0)

/-- What a write-back writes is its block of the array of pooled embeddings. -/
theorem flushed_eq (c : Dev nD) (hA : (args m c).Real) (t : Fin cfg0.N) (hf : (cfg0.win 9).flush t = true) :
    (dats m 0 c).flushed 9 t = ((cfg0.win 9).blk t).view.read (Elt Ideal) (outG (args m c)) := by
  have h1 : t.val % 20 = 19 := (flush0_9 t).mp hf
  have h0 : ¬t.val % 20 = 0 := by omega
  have ht : t.val < 40 := lt_of_lt_of_eq t.isLt hN
  obtain ⟨e0, e1, e2⟩ := index_o t
  show (cfg0.win 9).cut (grid0.coords t) ((dats m 0 c).after 9 t) = _
  rw [after0_9]
  funext (y : S1x2x512.Idx)
  rw [View.read_apply]
  refine Eq.trans ?_ (cast_eq (rfl : EReal = EReal) (outG (args m c) (((cfg0.win 9).blk t).view.emb y))).symm
  change (outsAt0 m c t.val t.isLt).1 y = _
  obtain ⟨u, b, e, rfl⟩ : ∃ (u : Fin 1) (b : Fin 2) (e : Fin 512), y = ix3 u b e := ⟨y 0, y 1, y 2, eq_ix3 y⟩
  obtain rfl : u = 0 := Subsingleton.elim _ _
  rw [out_last m c hA t h0 h1 b e]
  unfold outG
  congr 1
  · apply Fin.ext
    show (2 * (t.val / 20) + b.val) % 4 = (2 * (win0_9.index t 0 * 1 + 1 * 0) + (win0_9.index t 1 * 2 + 1 * b.val)) % 4
    rw [e0, e1]; congr 1; omega
  · apply Fin.ext
    show e.val = (win0_9.index t 2 * 512 + 1 * e.val) % 512
    rw [e2]; have := e.isLt; omega

/-- Membership in a write-back's block, coordinate by coordinate. -/
theorem mem_blk (t : Fin cfg0.N) (i : S2x2x512.Idx) :
    i ∈ ((cfg0.win 9).blk t).view.set ↔ ∀ a : Fin 3, win0_9.index t a * S1x2x512.size a ≤ (i a).val ∧ (i a).val < win0_9.index t a * S1x2x512.size a + S1x2x512.size a := by
  show i ∈ ((View.whole main_v4).slice (win0_9.rect t)).set ↔ _
  rw [View.set_slice_whole, Rect.mem_set_unit]
  exact Iff.rfl

/-- The last tiles of the two pairs of bags. -/
theorem last_point (q : Fin 2) : ∃ t : Fin cfg0.N, t.val = 20 * q.val + 19 :=
  ⟨⟨20 * q.val + 19, by rw [hN]; have := q.isLt; omega⟩, rfl⟩

/-- The two write-backs cover the output array. -/
theorem cover (i : S2x2x512.Idx) : ∃ t : Fin cfg0.N, (cfg0.win 9).flush t = true ∧ i ∈ ((cfg0.win 9).blk t).view.set := by
  have hi0 : (i 0).val < 2 := (i 0).isLt
  have hi1 : (i 1).val < 2 := (i 1).isLt
  have hi2 : (i 2).val < 512 := (i 2).isLt
  obtain ⟨t, ht⟩ := last_point ⟨(i 0).val, hi0⟩
  have htv : t.val = 20 * (i 0).val + 19 := ht
  obtain ⟨e0, e1, e2⟩ := index_o t
  refine ⟨t, (flush0_9 t).mpr (by omega), ?_⟩
  rw [mem_blk]
  intro a
  match a with
  | ⟨0, _⟩ => show win0_9.index t 0 * 1 ≤ (i 0).val ∧ (i 0).val < win0_9.index t 0 * 1 + 1; rw [e0]; omega
  | ⟨1, _⟩ => show win0_9.index t 1 * 2 ≤ (i 1).val ∧ (i 1).val < win0_9.index t 1 * 2 + 2; rw [e1]; omega
  | ⟨2, _⟩ => show win0_9.index t 2 * 512 ≤ (i 2).val ∧ (i 2).val < win0_9.index t 2 * 512 + 512; rw [e2]; omega

/-- The output array after the region. -/
theorem final (c : Dev nD) (hA : (args m c).Real) : (dats m 0 c).arrAt 9 cfg0.N = outG (args m c) :=
  (dats m 0 c).arrAt_eq_of_cover 9 (outG (args m c)) (fun t hf => flushed_eq m c hA t hf) (cover)

/-- Read as [4, 512] it is the array of pooled embeddings. -/
theorem merge_outG (A : Args) : mergeBags (outG A) = pooledArr A := by
  funext i
  have hi0 : (i 0).val < 4 := idx2_lt0 i
  have hi1 : (i 1).val < 512 := idx2_lt1 i
  unfold mergeBags outG pooledArr
  congr 1
  · apply Fin.ext
    show (2 * ((i 0).val / 2) + (i 0).val % 2) % 4 = (i 0).val
    omega
  · apply Fin.ext
    show (i 1).val % 512 = (i 1).val
    omega

end Cert.Abmil.Out

end
-- ==== Proof.Tail.lean ====
/-
  The program's result from the region's output array: the [2, 2, 512] array of pooled embeddings is read as [4, 512]
  and the classifier head (a product with W_cls and the bias b_cls) is applied to it; the arguments end unchanged.
-/
import proofs.«407322_j11776800326091_3_alg».proof.Proof.Gen.KernelIdeal.Frame
import proofs.«407322_j11776800326091_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

namespace Cert.Abmil.Tail

open Idealize.ShloMosaic Idealize.ShloMosaic.TcCoe Idealize.ShloMosaic.ValueIdx Idealize.SL.Sem Cert.KernelIdeal Cert.KernelIdeal.Gen
open scoped BigOperators

/-- The program's last five operations as one function of the pooled array, the head's matrix and its bias. -/
def tailFn (P : (⟨S2x2x512, .f32⟩ : BufTy).Contents (Elt Ideal)) (W : (⟨S512x2, .f32⟩ : BufTy).Contents (Elt Ideal))
    (b : (⟨S2, .f32⟩ : BufTy).Contents (Elt Ideal)) : (⟨S4x2, .f32⟩ : BufTy).Contents (Elt Ideal) :=
  addf
    (Host.dotGeneral (F := Ideal) (φ₁ := .f32) (φ₂ := .f32) dot_S4x512_S512x2_S4x2_1_0_0_1_n_n none
      (shapeCast S4x512 P shapeCasts_S2x2x512_S4x512) W)
    (broadcastInDim S4x2 ![0, 1] bcast_S1x2_S4x2_0_1 (broadcastInDim S1x2 ![1] bcast_S2_S1x2_1 b))

/-- What the five operations after the region leave in the result, from the region's output array and the launch values of
    the head's matrix and bias. -/
theorem tail_term (m : (ℓ : Loc nD τ sig) → Buf (Elt Ideal) ℓ) (c : Dev nD)
    (G : (⟨3, ![2, 2, 512]⟩ : Shape).Idx → EReal)
    (hG : (dats (F := Ideal) m 0 c).arrAt 9 cfg0.N = G) :
    Pipeline.afterTail₀ cfgs (dats (F := Ideal) m) 0 (V0 m) [hostOps1] c main_v9
      = tailFn G (m ((c.tc : Thread nD τ).loc main_arg9)) (m ((c.tc : Thread nD τ).loc main_arg10)) := by
  unfold Pipeline.afterTail₀
  show StableHlo.after hostOps1 _ (Proc.devRef .tc main_v9) = _
  after_results
  have e4 : Pipeline.withArrays (cfgs 0).spec c (V0 m c) (fun w => (dats (F := Ideal) m 0 c).arrAt w (cfgs 0).N) (Proc.devRef .tc main_v4) = G :=
    (Pipeline.withArrays_arr spec0 launch0.win.arr_inj c _ _ 9).trans hG
  have e9 : Pipeline.withArrays (cfgs 0).spec c (V0 m c) (fun w => (dats (F := Ideal) m 0 c).arrAt w (cfgs 0).N) (Proc.devRef .tc main_arg9) = m ((c.tc : Thread nD τ).loc main_arg9) :=
    (Pipeline.withArrays_of_ne _ c (V0 m c) _ main_arg9 (by exact (by decide : ∀ w, Pipeline.arrRef spec0 w ≠ main_arg9))).trans (V_main_arg9 m c)
  have e10 : Pipeline.withArrays (cfgs 0).spec c (V0 m c) (fun w => (dats (F := Ideal) m 0 c).arrAt w (cfgs 0).N) (Proc.devRef .tc main_arg10) = m ((c.tc : Thread nD τ).loc main_arg10) :=
    (Pipeline.withArrays_of_ne _ c (V0 m c) _ main_arg10 (by exact (by decide : ∀ w, Pipeline.arrRef spec0 w ≠ main_arg10))).trans (V_main_arg10 m c)
  rw [e4, e9, e10]
  rfl

/-! ## The five operations read at an index -/

/-- The left operand's row coordinate is the entry's row. -/
theorem lhs_0 (i : S4x2.Idx) (q : dot_S4x512_S512x2_S4x2_1_0_0_1_n_n.contr.Idx) :
    (dot_S4x512_S512x2_S4x2_1_0_0_1_n_n.lhsIdx i q 0).val = (i 0).val := by
  unfold DotDims.lhsIdx
  rw [dif_neg (show ¬(0 : Fin S4x512.rank) ∈ dot_S4x512_S512x2_S4x2_1_0_0_1_n_n.lhsBatch by decide),
    dif_pos (show (0 : Fin S4x512.rank) ∈ dot_S4x512_S512x2_S4x2_1_0_0_1_n_n.lhsNonContracting by decide)]
  rfl
/-- The left operand's column coordinate is the contraction coordinate. -/
theorem lhs_1 (i : S4x2.Idx) (q : dot_S4x512_S512x2_S4x2_1_0_0_1_n_n.contr.Idx) :
    (dot_S4x512_S512x2_S4x2_1_0_0_1_n_n.lhsIdx i q 1).val = (q ⟨0, by decide⟩).val :=
  dot_S4x512_S512x2_S4x2_1_0_0_1_n_n.lhsIdx_val_of_single rfl i q
/-- The right operand's row coordinate is the contraction coordinate. -/
theorem rhs_0 (i : S4x2.Idx) (q : dot_S4x512_S512x2_S4x2_1_0_0_1_n_n.contr.Idx) :
    (dot_S4x512_S512x2_S4x2_1_0_0_1_n_n.rhsIdx i q 0).val = (q ⟨0, by decide⟩).val :=
  dot_S4x512_S512x2_S4x2_1_0_0_1_n_n.rhsIdx_val_of_single rfl i q
/-- The right operand's column coordinate is the entry's column. -/
theorem rhs_1 (i : S4x2.Idx) (q : dot_S4x512_S512x2_S4x2_1_0_0_1_n_n.contr.Idx) :
    (dot_S4x512_S512x2_S4x2_1_0_0_1_n_n.rhsIdx i q 1).val = (i 1).val := by
  unfold DotDims.rhsIdx
  rw [dif_neg (show ¬(1 : Fin S512x2.rank) ∈ dot_S4x512_S512x2_S4x2_1_0_0_1_n_n.rhsBatch by decide),
    dif_pos (show (1 : Fin S512x2.rank) ∈ dot_S4x512_S512x2_S4x2_1_0_0_1_n_n.rhsNonContracting by decide)]
  rfl

/-- The [2, 2, 512] array read as [4, 512] is the array with its rows merged. -/
theorem reshape_eq (G : (⟨3, ![2, 2, 512]⟩ : Shape).Idx → EReal) :
    shapeCast S4x512 G shapeCasts_S2x2x512_S4x512 = mergeBags G := by
  funext j
  unfold mergeBags
  refine shapeCast_apply G shapeCasts_S2x2x512_S4x512 j _ ?_
  rw [Shape.rowMajor_val_three, Shape.rowMajor_val_two]
  show ((j 0).val / 2 * 2 + (j 0).val % 2) * 512 + (j 1).val = (j 0).val * 512 + (j 1).val
  omega

/-- The product with the head's matrix at an entry: the sum over the 512 coordinates. -/
theorem dot_apply (P : (⟨2, ![4, 512]⟩ : Shape).Idx → EReal) (W : (⟨2, ![512, 2]⟩ : Shape).Idx → EReal)
    (i : (⟨2, ![4, 2]⟩ : Shape).Idx) :
    Host.dotGeneral (F := Ideal) (φ₁ := .f32) (φ₂ := .f32) dot_S4x512_S512x2_S4x2_1_0_0_1_n_n none P W i
      = ∑ e : Fin 512, P (ix2 (⟨(i 0).val, idx2_lt0 i⟩ : Fin 4) e) * W (ix2 e (⟨(i 1).val, idx2_lt1 i⟩ : Fin 2)) := by
  simp only [Host.dotGeneral]
  rw [Ideal.dotGeneral_apply, ← Equiv.sum_comp (contrEquiv1 dot_S4x512_S512x2_S4x2_1_0_0_1_n_n 512 rfl rfl).symm]
  refine Finset.sum_congr rfl fun k _ => ?_
  have hk := contrEquiv1_symm_val dot_S4x512_S512x2_S4x2_1_0_0_1_n_n 512 rfl rfl k
  have el : dot_S4x512_S512x2_S4x2_1_0_0_1_n_n.lhsIdx i ((contrEquiv1 dot_S4x512_S512x2_S4x2_1_0_0_1_n_n 512 rfl rfl).symm k)
      = ix2 (⟨(i 0).val, idx2_lt0 i⟩ : Fin 4) k := funext fun a => Fin.ext (by
    match a with
    | ⟨0, _⟩ => exact lhs_0 _ _
    | ⟨1, _⟩ => exact (lhs_1 _ _).trans hk)
  have er : dot_S4x512_S512x2_S4x2_1_0_0_1_n_n.rhsIdx i ((contrEquiv1 dot_S4x512_S512x2_S4x2_1_0_0_1_n_n 512 rfl rfl).symm k)
      = ix2 k (⟨(i 1).val, idx2_lt1 i⟩ : Fin 2) := funext fun a => Fin.ext (by
    match a with
    | ⟨0, _⟩ => exact (rhs_0 _ _).trans hk
    | ⟨1, _⟩ => exact rhs_1 _ _)
  rw [el, er]

/-- The bias broadcast over the four rows, at an entry. -/
theorem bias_apply (b : (⟨1, ![2]⟩ : Shape).Idx → EReal) (i : (⟨2, ![4, 2]⟩ : Shape).Idx) :
    broadcastInDim S4x2 ![0, 1] bcast_S1x2_S4x2_0_1 (broadcastInDim S1x2 ![1] bcast_S2_S1x2_1 b) i
      = b (ix1 (⟨(i 1).val, idx2_lt1 i⟩ : Fin 2)) := by
  refine (broadcastInDim_apply _ bcast_S1x2_S4x2_0_1 _ i (ix2 (0 : Fin 1) (⟨(i 1).val, idx2_lt1 i⟩ : Fin 2)) (fun a => match a with
    | ⟨0, _⟩ => by show 0 = if (1 : Nat) = 1 then 0 else (i 0).val; rw [if_pos rfl]
    | ⟨1, _⟩ => by show (i 1).val = if (2 : Nat) = 1 then 0 else (i 1).val; rw [if_neg (by decide)])).trans ?_
  exact broadcastInDim_apply _ bcast_S2_S1x2_1 b _ (ix1 (⟨(i 1).val, idx2_lt1 i⟩ : Fin 2)) (fun a => match a with
    | ⟨0, _⟩ => by show (i 1).val = if (2 : Nat) = 1 then 0 else (i 1).val; rw [if_neg (by decide)])

/-- The five operations compute the classifier head of the merged array. -/
theorem tailFn_eq (G : (⟨3, ![2, 2, 512]⟩ : Shape).Idx → EReal) (W : (⟨2, ![512, 2]⟩ : Shape).Idx → EReal)
    (b : (⟨1, ![2]⟩ : Shape).Idx → EReal) : tailFn G W b = head (mergeBags G) W b := by
  funext i
  unfold tailFn head
  rw [reshape_eq]
  exact congrArg₂ (· + ·) (dot_apply (mergeBags G) W i) (bias_apply b i)

/-- If the region leaves the output array of core c at G c, the program ends on core c with the head of G c (rows merged)
    in its result and its arguments unchanged. -/
theorem run_head (m : (ℓ : Loc nD τ sig) → Buf (Elt Ideal) ℓ) (ρ : Dev nD → PrngReg)
    (G : Dev nD → (⟨3, ![2, 2, 512]⟩ : Shape).Idx → EReal)
    (hG : ∀ c : Dev nD, (dats (F := Ideal) m 0 c).arrAt 9 cfg0.N = G c) :
    θ_run (defs (F := Ideal)) (onTc (τ := τ) (main (F := Ideal))) ⟨m, fun _ => 0, ρ⟩ (fun r => ∀ c : Dev nD,
      r.2.mem ((c.tc : Thread nD τ).loc main_v9)
          = Cert.Abmil.head (Cert.Abmil.mergeBags (G c)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(((h c).2 main_v9 (Pipeline.mem_restRefs_of main_v9 (by decide) (by decide))).trans (tail_term m c (G c) (hG c))).trans
        (tailFn_eq (G c) (m ((c.tc : Thread nD τ).loc main_arg9)) (m ((c.tc : Thread nD τ).loc main_arg10))),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c))),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩)
    (run_main m ρ)

end Cert.Abmil.Tail

end
-- ==== Proof.RefValue.lean ====
/-
  The reference's result is the logits of the specification.
-/
import proofs.«407322_j11776800326091_3_alg».proof.Proof.Gen.ReferenceIdeal.Run
import proofs.«407322_j11776800326091_3_alg».proof.Proof.Gen.ReferenceIdeal.Read
import proofs.«407322_j11776800326091_3_alg».proof.Proof.Spec

noncomputable section

namespace Cert.Abmil.Ref

open Idealize.ShloMosaic Idealize.ShloMosaic.ValueIdx Cert.ReferenceIdeal Cert.ReferenceIdeal.Gen Cert.ReferenceIdeal.Read
open scoped BigOperators

/-! # The reference, stage by stage

Each stage of the reference is read at an index given by explicit coordinates and identified with the corresponding
quantity of the specification: the embedding, the two gates, the score, the largest score of a bag, the shifted
exponential, the normaliser, the softmax weight and the pooled embedding. The logistic gate is the reference's
one over (one plus the exponential of the negated argument), which is the logistic function by definition; the
maximum over the instances is a fold of max from minus infinity, and max with minus infinity is the identity; the
two sums start from zero. -/

section Stages

variable (x0 : (⟨S4x20000x1024, .f32⟩ : BufTy).Contents (Elt Ideal)) (x1 : (⟨S1024x512, .f32⟩ : BufTy).Contents (Elt Ideal))
    (x2 : (⟨S512, .f32⟩ : BufTy).Contents (Elt Ideal)) (x3 : (⟨S512x128, .f32⟩ : BufTy).Contents (Elt Ideal))
    (x4 : (⟨S128, .f32⟩ : BufTy).Contents (Elt Ideal)) (x5 : (⟨S512x128, .f32⟩ : BufTy).Contents (Elt Ideal))
    (x6 : (⟨S128, .f32⟩ : BufTy).Contents (Elt Ideal)) (x7 : (⟨S128x1, .f32⟩ : BufTy).Contents (Elt Ideal))
    (x8 : (⟨S1, .f32⟩ : BufTy).Contents (Elt Ideal)) (x9 : (⟨S512x2, .f32⟩ : BufTy).Contents (Elt Ideal))
    (x10 : (⟨S2, .f32⟩ : BufTy).Contents (Elt Ideal))

/-! ## Composed index functions are the coordinate constructors -/

private theorem lidx0 (b : Fin 4) (n : Fin 20000) (e : Fin 512) (k : Fin 1024) :
    lidx_main_v0 (ix3 b n e) k = ix3 b n k :=
  funext fun a => by match a with | ⟨0, _⟩ => rfl | ⟨1, _⟩ => rfl | ⟨2, _⟩ => rfl

private theorem ridx0 (b : Fin 4) (n : Fin 20000) (e : Fin 512) (k : Fin 1024) :
    ridx_main_v0 (ix3 b n e) k = ix2 k e :=
  funext fun a => by match a with | ⟨0, _⟩ => rfl | ⟨1, _⟩ => rfl

private theorem idx12 (b : Fin 4) (n : Fin 20000) (e : Fin 512) :
    idx_main_v1 (idx_main_v2 (ix3 b n e)) = ix1 e :=
  funext fun a => by match a with | ⟨0, _⟩ => rfl

/-- The embedding stage at (b, n, e). -/
theorem ref_emb (b : Fin 4) (n : Fin 20000) (e : Fin 512) :
    val_main_v3 (F := Ideal) x0 x1 x2 (ix3 b n e) = emb (mkArgs x0 x1 x2 x3 x4 x5 x6 x7 x8) b n e := by
  rw [val_main_v3_apply, val_main_v0_apply, val_main_v2_apply, val_main_v1_apply]
  simp only [lidx0, ridx0, idx12]
  rfl

private theorem lidx4 (b : Fin 4) (n : Fin 20000) (a : Fin 128) (k : Fin 512) :
    lidx_main_v4 (ix3 b n a) k = ix3 b n k :=
  funext fun c => by match c with | ⟨0, _⟩ => rfl | ⟨1, _⟩ => rfl | ⟨2, _⟩ => rfl

private theorem ridx4 (b : Fin 4) (n : Fin 20000) (a : Fin 128) (k : Fin 512) :
    ridx_main_v4 (ix3 b n a) k = ix2 k a :=
  funext fun c => by match c with | ⟨0, _⟩ => rfl | ⟨1, _⟩ => rfl

private theorem idx56 (b : Fin 4) (n : Fin 20000) (a : Fin 128) :
    idx_main_v5 (idx_main_v6 (ix3 b n a)) = ix1 a :=
  funext fun c => by match c with | ⟨0, _⟩ => rfl

private theorem lidx9 (b : Fin 4) (n : Fin 20000) (a : Fin 128) (k : Fin 512) :
    lidx_main_v9 (ix3 b n a) k = ix3 b n k :=
  funext fun c => by match c with | ⟨0, _⟩ => rfl | ⟨1, _⟩ => rfl | ⟨2, _⟩ => rfl

private theorem ridx9 (b : Fin 4) (n : Fin 20000) (a : Fin 128) (k : Fin 512) :
    ridx_main_v9 (ix3 b n a) k = ix2 k a :=
  funext fun c => by match c with | ⟨0, _⟩ => rfl | ⟨1, _⟩ => rfl

private theorem idx1011 (b : Fin 4) (n : Fin 20000) (a : Fin 128) :
    idx_main_v10 (idx_main_v11 (ix3 b n a)) = ix1 a :=
  funext fun c => by match c with | ⟨0, _⟩ => rfl

/-- The bit pattern of the float one is the extended real one. -/
private theorem one_f32 : Ideal.ofBits .f32 0x3F800000#32 = 1 := by
  rw [show (1 : EReal) = ((1 : ℝ) : EReal) by norm_cast]
  simp [Ideal.ofBits, Ideal.ieee, -EReal.coe_mul]; norm_num

/-- The tanh gate stage at (b, n, a). -/
theorem ref_gateV (b : Fin 4) (n : Fin 20000) (a : Fin 128) :
    val_main_v8 (F := Ideal) x0 x1 x2 x3 x4 (ix3 b n a) = gateV (mkArgs x0 x1 x2 x3 x4 x5 x6 x7 x8) b n a := by
  rw [val_main_v8_apply, val_main_v7_apply, val_main_v4_apply, val_main_v6_apply, val_main_v5_apply]
  simp only [lidx4, ridx4, idx56, ref_emb x0 x1 x2 x3 x4 x5 x6 x7 x8]
  rfl

/-- The logistic gate stage at (b, n, a): one over one plus the exponential of the negated affine map. -/
theorem ref_gateU (b : Fin 4) (n : Fin 20000) (a : Fin 128) :
    val_main_v18 (F := Ideal) x0 x1 x2 x5 x6 (ix3 b n a) = gateU (mkArgs x0 x1 x2 x3 x4 x5 x6 x7 x8) b n a := by
  rw [val_main_v18_apply, val_main_v17_apply, val_main_cst_0_apply, val_main_v16_apply, val_main_v15_apply,
    val_main_cst_apply, val_main_v14_apply, val_main_v13_apply, val_main_v12_apply, val_main_v9_apply,
    val_main_v11_apply, val_main_v10_apply]
  simp only [lidx9, ridx9, idx1011, ref_emb x0 x1 x2 x3 x4 x5 x6 x7 x8, Ideal.ofBits_def, one_f32]
  rfl

private theorem lidx20 (b : Fin 4) (n : Fin 20000) (k : Fin 128) :
    lidx_main_v20 (ix3 b n (0 : Fin 1)) k = ix3 b n k :=
  funext fun c => by match c with | ⟨0, _⟩ => rfl | ⟨1, _⟩ => rfl | ⟨2, _⟩ => rfl

private theorem ridx20 (b : Fin 4) (n : Fin 20000) (k : Fin 128) :
    ridx_main_v20 (ix3 b n (0 : Fin 1)) k = ix2 k (0 : Fin 1) :=
  funext fun c => by match c with | ⟨0, _⟩ => rfl | ⟨1, _⟩ => rfl

private theorem idx2122 (b : Fin 4) (n : Fin 20000) :
    idx_main_v21 (idx_main_v22 (ix3 b n (0 : Fin 1))) = ix1 (0 : Fin 1) :=
  funext fun c => by match c with | ⟨0, _⟩ => rfl

/-- The score stage at (b, n, 0). -/
theorem ref_score (b : Fin 4) (n : Fin 20000) :
    val_main_v23 (F := Ideal) x0 x1 x2 x3 x4 x5 x6 x7 x8 (ix3 b n (0 : Fin 1))
      = score (mkArgs x0 x1 x2 x3 x4 x5 x6 x7 x8) b n := by
  rw [val_main_v23_apply, val_main_v20_apply, val_main_v22_apply, val_main_v21_apply]
  simp only [lidx20, ridx20, idx2122, val_main_v19_apply, ref_gateV x0 x1 x2 x3 x4 x5 x6 x7 x8,
    ref_gateU x0 x1 x2 x3 x4 x5 x6 x7 x8]
  rfl

/-- The bit pattern of the float minus infinity is the bottom element. -/
private theorem neg_inf_f32 : Ideal.ofBits .f32 0xFF800000#32 = ⊥ := by simp [Ideal.ofBits, Ideal.ieee]

/-- The reduced index (b, 0) with instance k put back on the dropped axis is (b, k, 0). -/
private theorem lift_inst (h : S4x20000x1.Reduces [1] S4x1) (b : Fin 4) (k : Fin (S4x20000x1.size 1)) :
    h.lift (ix2 b (0 : Fin 1)) k = ix3 b (⟨k.val, k.isLt⟩ : Fin 20000) (0 : Fin 1) := by
  funext c; apply Fin.ext
  match c with | ⟨0, _⟩ => rfl | ⟨1, _⟩ => rfl | ⟨2, _⟩ => rfl

/-- The maximum stage at (b, 0): the largest score of bag b. -/
theorem ref_scoreMax (b : Fin 4) :
    val_main_v26 (F := Ideal) x0 x1 x2 x3 x4 x5 x6 x7 x8 (ix2 b (0 : Fin 1))
      = scoreMax (mkArgs x0 x1 x2 x3 x4 x5 x6 x7 x8) b := by
  have h : S4x20000x1.Reduces [1] S4x1 := by decide
  rw [val_main_v26_apply, val_main_v25_apply, val_main_cst_2_apply]
  unfold val_main_v24
  rw [Host.reduce_eq_fold_single FloatOps.maximumf _ _ reducesTo_S4x20000x1_S4x1_d1 h h_S_, val_main_cst_1_apply]
  simp only [Ideal.ofBits_def, neg_inf_f32]
  show max ⊥ (Finset.fold max ⊥ (val_main_v23 (F := Ideal) x0 x1 x2 x3 x4 x5 x6 x7 x8 ∘ h.lift (ix2 b (0 : Fin 1)))
    (Finset.univ : Finset (Fin 20000))) = _
  rw [max_bot_left]
  have hf : (val_main_v23 (F := Ideal) x0 x1 x2 x3 x4 x5 x6 x7 x8 ∘ h.lift (ix2 b (0 : Fin 1)))
      = fun k : Fin 20000 => score (mkArgs x0 x1 x2 x3 x4 x5 x6 x7 x8) b k := funext fun k => by
    show val_main_v23 (F := Ideal) x0 x1 x2 x3 x4 x5 x6 x7 x8 (h.lift (ix2 b (0 : Fin 1)) k) = _
    rw [lift_inst h b k]
    exact ref_score x0 x1 x2 x3 x4 x5 x6 x7 x8 b k
  rw [hf]
  rfl

private theorem idx2728 (b : Fin 4) (n : Fin 20000) :
    idx_main_v27 (idx_main_v28 (ix3 b n (0 : Fin 1))) = ix2 b (0 : Fin 1) :=
  funext fun c => by match c with | ⟨0, _⟩ => rfl | ⟨1, _⟩ => rfl

/-- The shifted exponential stage at (b, n, 0). -/
theorem ref_expShift (b : Fin 4) (n : Fin 20000) :
    val_main_v30 (F := Ideal) x0 x1 x2 x3 x4 x5 x6 x7 x8 (ix3 b n (0 : Fin 1))
      = Ideal.exp (score (mkArgs x0 x1 x2 x3 x4 x5 x6 x7 x8) b n - scoreMax (mkArgs x0 x1 x2 x3 x4 x5 x6 x7 x8) b) := by
  rw [val_main_v30_apply, val_main_v29_apply, val_main_v28_apply, val_main_v27_apply, idx2728,
    ref_score x0 x1 x2 x3 x4 x5 x6 x7 x8, ref_scoreMax x0 x1 x2 x3 x4 x5 x6 x7 x8]
  rfl

private theorem idx31 (b : Fin 4) (k : Fin 20000) :
    idx_main_v31 (ix2 b (0 : Fin 1)) k = ix3 b k (0 : Fin 1) :=
  funext fun c => by match c with | ⟨0, _⟩ => rfl | ⟨1, _⟩ => rfl | ⟨2, _⟩ => rfl

/-- The normaliser stage at (b, 0): zero plus the sum of the shifted exponentials. -/
theorem ref_scoreDen (b : Fin 4) :
    val_main_v31 (F := Ideal) x0 x1 x2 x3 x4 x5 x6 x7 x8 (ix2 b (0 : Fin 1))
      = scoreDen (mkArgs x0 x1 x2 x3 x4 x5 x6 x7 x8) b := by
  rw [val_main_v31_apply, val_main_cst_3_apply]
  simp only [idx31, ref_expShift x0 x1 x2 x3 x4 x5 x6 x7 x8, Ideal.ofBits_def, Ideal.ofBits_zero_f32, zero_add]
  rfl

private theorem idx3233 (b : Fin 4) (n : Fin 20000) :
    idx_main_v32 (idx_main_v33 (ix3 b n (0 : Fin 1))) = ix2 b (0 : Fin 1) :=
  funext fun c => by match c with | ⟨0, _⟩ => rfl | ⟨1, _⟩ => rfl

/-- The softmax weight stage at (b, n, 0). -/
theorem ref_weight (b : Fin 4) (n : Fin 20000) :
    val_main_v34 (F := Ideal) x0 x1 x2 x3 x4 x5 x6 x7 x8 (ix3 b n (0 : Fin 1))
      = Ideal.div (Ideal.exp (score (mkArgs x0 x1 x2 x3 x4 x5 x6 x7 x8) b n - scoreMax (mkArgs x0 x1 x2 x3 x4 x5 x6 x7 x8) b))
          (scoreDen (mkArgs x0 x1 x2 x3 x4 x5 x6 x7 x8) b) := by
  rw [val_main_v34_apply, val_main_v33_apply, val_main_v32_apply, idx3233,
    ref_expShift x0 x1 x2 x3 x4 x5 x6 x7 x8, ref_scoreDen x0 x1 x2 x3 x4 x5 x6 x7 x8]
  rfl

private theorem idx35 (b : Fin 4) (n : Fin 20000) (e : Fin 512) :
    idx_main_v35 (ix3 b n e) = ix3 b n (0 : Fin 1) :=
  funext fun c => by match c with | ⟨0, _⟩ => rfl | ⟨1, _⟩ => rfl | ⟨2, _⟩ => rfl

private theorem idx37 (b : Fin 4) (e : Fin 512) (k : Fin 20000) :
    idx_main_v37 (ix2 b e) k = ix3 b k e :=
  funext fun c => by match c with | ⟨0, _⟩ => rfl | ⟨1, _⟩ => rfl | ⟨2, _⟩ => rfl

/-- The pooled stage at (b, e): zero plus the weighted sum of the embeddings. -/
theorem ref_pooled (b : Fin 4) (e : Fin 512) :
    val_main_v37 (F := Ideal) x0 x1 x2 x3 x4 x5 x6 x7 x8 (ix2 b e)
      = pooled (mkArgs x0 x1 x2 x3 x4 x5 x6 x7 x8) b e := by
  rw [val_main_v37_apply, val_main_cst_4_apply]
  simp only [idx37, val_main_v36_apply, val_main_v35_apply, idx35, ref_weight x0 x1 x2 x3 x4 x5 x6 x7 x8,
    ref_emb x0 x1 x2 x3 x4 x5 x6 x7 x8, Ideal.ofBits_def, Ideal.ofBits_zero_f32, zero_add]
  rfl

private theorem lidx38 (i : S4x2.Idx) (k : Fin 512) :
    lidx_main_v38 i k = ix2 (⟨(i 0).val, idx2_lt0 i⟩ : Fin 4) k :=
  funext fun c => by match c with | ⟨0, _⟩ => rfl | ⟨1, _⟩ => rfl

private theorem ridx38 (i : S4x2.Idx) (k : Fin 512) :
    ridx_main_v38 i k = ix2 k (⟨(i 1).val, idx2_lt1 i⟩ : Fin 2) :=
  funext fun c => by match c with | ⟨0, _⟩ => rfl | ⟨1, _⟩ => rfl

private theorem idx3940 (i : S4x2.Idx) :
    idx_main_v39 (idx_main_v40 i) = ix1 (⟨(i 1).val, idx2_lt1 i⟩ : Fin 2) :=
  funext fun c => by match c with | ⟨0, _⟩ => rfl

end Stages

/-- The reference's result is the logits of the specification: the head is one more affine map of the pooled stage. -/
theorem ref_value (x0 : (⟨S4x20000x1024, .f32⟩ : BufTy).Contents (Elt Ideal)) (x1 : (⟨S1024x512, .f32⟩ : BufTy).Contents (Elt Ideal))
    (x2 : (⟨S512, .f32⟩ : BufTy).Contents (Elt Ideal)) (x3 : (⟨S512x128, .f32⟩ : BufTy).Contents (Elt Ideal))
    (x4 : (⟨S128, .f32⟩ : BufTy).Contents (Elt Ideal)) (x5 : (⟨S512x128, .f32⟩ : BufTy).Contents (Elt Ideal))
    (x6 : (⟨S128, .f32⟩ : BufTy).Contents (Elt Ideal)) (x7 : (⟨S128x1, .f32⟩ : BufTy).Contents (Elt Ideal))
    (x8 : (⟨S1, .f32⟩ : BufTy).Contents (Elt Ideal)) (x9 : (⟨S512x2, .f32⟩ : BufTy).Contents (Elt Ideal))
    (x10 : (⟨S2, .f32⟩ : BufTy).Contents (Elt Ideal)) :
    val_main_v41 (F := Ideal) x0 x1 x2 x3 x4 x5 x6 x7 x8 x9 x10
      = Cert.Abmil.logits (Cert.Abmil.mkArgs x0 x1 x2 x3 x4 x5 x6 x7 x8) x9 x10 := by
  funext i
  rw [val_main_v41_apply, val_main_v38_apply, val_main_v40_apply, val_main_v39_apply]
  simp only [lidx38, ridx38, idx3940, ref_pooled x0 x1 x2 x3 x4 x5 x6 x7 x8]
  rfl

end Cert.Abmil.Ref

end
-- ==== Proof.Finite.lean ====
/-
  The precondition says every entry of every argument array is a real number.
-/
import proofs.«407322_j11776800326091_3_alg».proof.Pre_finite_inputs
import proofs.«407322_j11776800326091_3_alg».proof.Proof.Spec
import Idealize.ShloMosaic.Lib.ReduceAll

noncomputable section

namespace Cert.Abmil.Finite

open Idealize.ShloMosaic Idealize.ShloMosaic.ValueIdx Cert.Pre_finite_inputs

/-- The scalar shape has one index. -/
local instance : Subsingleton S_.Idx := ⟨fun a b => funext fun d => d.elim0⟩

/-- The f32 pattern of +∞ is the extended real ⊤. -/
theorem ofBits_pos_inf_f32 : Ideal.ofBits .f32 0x7F800000#32 = (⊤ : EReal) := by simp [Ideal.ofBits, Ideal.ieee]

/-- An extended real whose absolute value is below +∞ is a real number. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- An array all of whose entries have absolute value below +∞ has real entries. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
          (constantI S_ 1 1#1) hr hu ix0 = 1#1)
    (i : s.Idx) : ∃ r : ℝ, x i = (r : EReal) := by
  have hi := Host.reduce_andi_all _ _ hr hu ix0 e i
  refine real_of_abs_lt_top (x i) ?_
  have hi' : BitVec.ofBool (decide (max (x i) (-(x i)) < Ideal.ofBits .f32 0x7F800000#32)) = 1#1 := hi
  rw [ofBits_pos_inf_f32] at hi'
  by_contra hn
  rw [decide_eq_false hn] at hi'
  exact absurd hi' (by decide)

/-- A conjunction of two one-bit arrays is 1 at an index exactly when both are. -/
theorem andi_apply_eq_one {s : Shape} (a b : IVec s 1) (i : s.Idx) : andi a b i = 1#1 ↔ a i = 1#1 ∧ b i = 1#1 :=
  IntOp.andi_eq_one

/-- The precondition read back: every entry of the nine arrays the pooled embedding depends on is a real number. -/
theorem args_real [Cert.Pre_finite_inputs.Facts]
    (x0 : FVec Ideal S4x20000x1024 .f32) (x1 : FVec Ideal S1024x512 .f32) (x2 : FVec Ideal S512 .f32)
    (x3 : FVec Ideal S512x128 .f32) (x4 : FVec Ideal S128 .f32) (x5 : FVec Ideal S512x128 .f32) (x6 : FVec Ideal S128 .f32)
    (x7 : FVec Ideal S128x1 .f32) (x8 : FVec Ideal S1 .f32) (x9 : FVec Ideal S512x2 .f32) (x10 : FVec Ideal S2 .f32)
    (h : Cert.Pre_finite_inputs.fn (F := Ideal) x0 x1 x2 x3 x4 x5 x6 x7 x8 x9 x10 = fun _ => 1#1) :
    (Cert.Abmil.mkArgs x0 x1 x2 x3 x4 x5 x6 x7 x8).Real := by
  have e := congrFun h ix0
  dsimp only [fn, fn_part1, fn_part2, fn_part3] at e
  obtain ⟨e, -⟩ := (andi_apply_eq_one _ _ _).1 e
  obtain ⟨e, -⟩ := (andi_apply_eq_one _ _ _).1 e
  obtain ⟨e, h8⟩ := (andi_apply_eq_one _ _ _).1 e
  obtain ⟨e, h7⟩ := (andi_apply_eq_one _ _ _).1 e
  obtain ⟨e, h6⟩ := (andi_apply_eq_one _ _ _).1 e
  obtain ⟨e, h5⟩ := (andi_apply_eq_one _ _ _).1 e
  obtain ⟨e, h4⟩ := (andi_apply_eq_one _ _ _).1 e
  obtain ⟨e, h3⟩ := (andi_apply_eq_one _ _ _).1 e
  obtain ⟨e, h2⟩ := (andi_apply_eq_one _ _ _).1 e
  obtain ⟨h0, h1⟩ := (andi_apply_eq_one _ _ _).1 e
  exact ⟨real_of_all x0 _ _ _ h0, real_of_all x1 _ _ _ h1, real_of_all x2 _ _ _ h2, real_of_all x3 _ _ _ h3,
    real_of_all x4 _ _ _ h4, real_of_all x5 _ _ _ h5, real_of_all x6 _ _ _ h6, real_of_all x7 _ _ _ h7,
    real_of_all x8 _ _ _ h8⟩

end Cert.Abmil.Finite

end
-- ==== Proof.lean ====
/-
  Gated-attention pooling of bags of 20000 instances, computed by a kernel that streams the instances in 20 tiles of
  1000 with an online softmax (a running maximum, a normaliser and a weighted sum of embeddings carried from tile to
  tile, rescaled when the maximum grows, and divided at the last tile), against the one-shot reference: embed, gate,
  score, softmax over all instances, weighted sum, classifier head.

  Over the extended reals with exact operations both programs compute one function of the arguments, the logits of
  Spec.lean.  On the reference's side this is read off its operations one by one (RefValue.lean).  On the kernel's side
  the state after each grid point is the online-softmax state of the point's bags over the tiles absorbed so far
  (Invariant.lean, by induction on the point, over the body's arithmetic read at an index in BlockMath.lean and
  SoftState.lean); after a bag's last tile the quotient is the bag's pooled embedding (the online-softmax identity of
  LibOnlineSoftmax.lean, which needs every embedding and score to be a real number: Finite.lean, from the precondition),
  the two write-backs cover the output array (OutArray.lean) and the head is applied to it (Tail.lean).

  The two gates use the same functions on both sides: the kernel's logistic is by definition 1 / (1 + exp (−x)), which the
  reference spells out; every change of float format is the identity.  The frames are the generated ones; the ideal
  pass rewrote nothing, so the idealization claim is trivial.
-/
import proofs.«407322_j11776800326091_3_alg».proof.Defs
import proofs.«407322_j11776800326091_3_alg».proof.Proof.Gen.Kernel
import proofs.«407322_j11776800326091_3_alg».proof.Proof.Gen.Kernel.Frame
import proofs.«407322_j11776800326091_3_alg».proof.Proof.Gen.KernelIdeal
import proofs.«407322_j11776800326091_3_alg».proof.Proof.Gen.KernelIdeal.Frame
import proofs.«407322_j11776800326091_3_alg».proof.Proof.Gen.ReferenceIdeal
import proofs.«407322_j11776800326091_3_alg».proof.Proof.Gen.ReferenceIdeal.Run
import proofs.«407322_j11776800326091_3_alg».proof.Proof.Gen.ReferenceIdeal.Read
import proofs.«407322_j11776800326091_3_alg».proof.Proof.Gen.Pre_finite_inputs
import proofs.«407322_j11776800326091_3_alg».proof.Proof.OutArray
import proofs.«407322_j11776800326091_3_alg».proof.Proof.Tail
import proofs.«407322_j11776800326091_3_alg».proof.Proof.RefValue
import proofs.«407322_j11776800326091_3_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the logits of the specification at the shared arguments. -/
theorem algebraic : Cert.algebraic_KernelIdeal_ReferenceIdeal := by
  intro m ρ m' ρ' hpre hagree
  have hA : ∀ c : Dev Cert.KernelIdeal.nD, (Cert.Abmil.Invariant.args m c).Real := fun c =>
    Cert.Abmil.Finite.args_real _ _ _ _ _ _ _ _ _ _ _ (hpre c)
  refine ⟨fun c => Cert.Abmil.logits (Cert.Abmil.Invariant.args m c)
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · refine (θ_run Cert.KernelIdeal.defs _ _).mono (fun r h c => ⟨(h c).1.trans ?_, (h c).2⟩)
      (Cert.Abmil.Tail.run_head m ρ (fun c => Cert.Abmil.Out.outG (Cert.Abmil.Invariant.args m c))
        (fun c => Cert.Abmil.Out.final m c (hA c)))
    rw [Cert.Abmil.Out.merge_outG, Cert.Abmil.head_pooledArr]
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v41_eq, Cert.Abmil.Ref.ref_value]
    obtain ⟨a0, a1, a2, a3, a4, a5, a6, a7, a8, a9, a10⟩ := hagree c
    rw [a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
